-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096 : Shape := ⟨1, ![4096]⟩
abbrev S4096x64 : Shape := ⟨2, ![4096, 64]⟩
abbrev S100000x256 : Shape := ⟨2, ![100000, 256]⟩
abbrev S512x256 : Shape := ⟨2, ![512, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_
  bcast_S_S4096 : S_.BroadcastsInDim S4096 (![] : Fin 0 → Fin S4096.rank)
  reducesTo_S4096_S_d0 : S4096.ReducesTo [0] S_
  bcast_S_S4096x64 : S_.BroadcastsInDim S4096x64 (![] : Fin 0 → Fin S4096x64.rank)
  reducesTo_S4096x64_S_d0_1 : S4096x64.ReducesTo [0, 1] S_

variable [Facts]

def fn_part3 {F : FTy → Type} [FloatOps F] (main_arg1 : IVec S4096x64 32) (main_v50 : IVec S_ 1) : IVec S_ 1 :=
  let main_c_19 : IVec S_ 32 := constantI S_ 32 0#32
  let main_v51 : IVec S4096x64 32 := broadcastInDim S4096x64 ![] bcast_S_S4096x64 main_c_19
  let main_v52 : IVec S4096x64 1 := cmpi .sge main_arg1 main_v51
  let main_c_20 : IVec S_ 32 := constantI S_ 32 100000#32
  let main_v53 : IVec S4096x64 32 := broadcastInDim S4096x64 ![] bcast_S_S4096x64 main_c_20
  let main_v54 : IVec S4096x64 1 := cmpi .slt main_arg1 main_v53
  let main_v55 : IVec S4096x64 1 := andi main_v52 main_v54
  let main_c_21 : IVec S_ 1 := constantI S_ 1 1#1
  let main_v56 : IVec S_ 1 := (fun x v => Host.reduce IntOp.andi x v reducesTo_S4096x64_S_d0_1 h_S_) main_v55 main_c_21
  let main_v57 : IVec S_ 1 := andi main_v50 main_v56
  main_v57

def fn_part2 {F : FTy → Type} [FloatOps F] (main_arg0 : IVec S4096 32) (main_arg1 : IVec S4096x64 32) (main_arg9 : FVec F S256x1 .f32) (main_arg10 : FVec F S1 .f32) (main_v33 : IVec S_ 1) : IVec S_ 1 :=
  let main_v34 : FVec F S256x1 .f32 := Host.absf main_arg9
  let main_cst_12 : FVec F S_ .f32 := constant S_ .f32 0x7F800000#32
  let main_v35 : FVec F S256x1 .f32 := broadcastInDim S256x1 ![] bcast_S_S256x1 main_cst_12
  let main_v36 : IVec S256x1 1 := cmpf .olt main_v34 main_v35
  let main_c_13 : IVec S_ 1 := constantI S_ 1 1#1
  let main_v37 : IVec S_ 1 := (fun x v => Host.reduce IntOp.andi x v reducesTo_S256x1_S_d0_1 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_c_16 : IVec S_ 32 := constantI S_ 32 0#32
  let main_v44 : IVec S4096 32 := broadcastInDim S4096 ![] bcast_S_S4096 main_c_16
  let main_v45 : IVec S4096 1 := cmpi .sge main_arg0 main_v44
  let main_c_17 : IVec S_ 32 := constantI S_ 32 100000#32
  let main_v46 : IVec S4096 32 := broadcastInDim S4096 ![] bcast_S_S4096 main_c_17
  let main_v47 : IVec S4096 1 := cmpi .slt main_arg0 main_v46
  let main_v48 : IVec S4096 1 := andi main_v45 main_v47
  let main_c_18 : IVec S_ 1 := constantI S_ 1 1#1
  let main_v49 : IVec S_ 1 := (fun x v => Host.reduce IntOp.andi x v reducesTo_S4096_S_d0 h_S_) main_v48 main_c_18
  let main_v50 : IVec S_ 1 := andi main_v43 main_v49
  fn_part3 (F := F) main_arg1 main_v50

def fn_part1 {F : FTy → Type} [FloatOps F] (main_arg0 : IVec S4096 32) (main_arg1 : IVec S4096x64 32) (main_arg6 : FVec F S256 .f32) (main_arg7 : FVec F S256x256 .f32) (main_arg8 : FVec F S256 .f32) (main_arg9 : FVec F S256x1 .f32) (main_arg10 : FVec F S1 .f32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg7
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg0 main_arg1 main_arg9 main_arg10 main_v33

def fn {F : FTy → Type} [FloatOps F] (main_arg0 : IVec S4096 32) (main_arg1 : IVec S4096x64 32) (main_arg2 : FVec F S100000x256 .f32) (main_arg3 : FVec F S512x256 .f32) (main_arg4 : FVec F S256 .f32) (main_arg5 : FVec F S512x256 .f32) (main_arg6 : FVec F S256 .f32) (main_arg7 : FVec F S256x256 .f32) (main_arg8 : FVec F S256 .f32) (main_arg9 : FVec F S256x1 .f32) (main_arg10 : FVec F S1 .f32) : IVec S_ 1 :=
  let main_v0 : FVec F S100000x256 .f32 := Host.absf main_arg2
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S512x256 .f32 := Host.absf main_arg3
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S512x256 .f32 := Host.absf main_arg5
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg0 main_arg1 main_arg6 main_arg7 main_arg8 main_arg9 main_arg10 main_v13 main_v16
-- ==== Kernel.lean ====
abbrev S4096 : Shape := ⟨1, ![4096]⟩
abbrev S4096x64 : Shape := ⟨2, ![4096, 64]⟩
abbrev S100000x256 : Shape := ⟨2, ![100000, 256]⟩
abbrev S512x256 : Shape := ⟨2, ![512, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S_ : Shape := ⟨0, ![]⟩
abbrev S4096x64x1 : Shape := ⟨3, ![4096, 64, 1]⟩
abbrev S1x1x1 : Shape := ⟨3, ![1, 1, 1]⟩
abbrev S4096x64x256 : Shape := ⟨3, ![4096, 64, 256]⟩
abbrev S4096x1 : Shape := ⟨2, ![4096, 1]⟩
abbrev S1x1 : Shape := ⟨2, ![1, 1]⟩
abbrev S4096x256 : Shape := ⟨2, ![4096, 256]⟩
abbrev S1x256 : Shape := ⟨2, ![1, 256]⟩
abbrev S128x64x256 : Shape := ⟨3, ![128, 64, 256]⟩
abbrev S128x256 : Shape := ⟨2, ![128, 256]⟩
abbrev S8192x256 : Shape := ⟨2, ![8192, 256]⟩
abbrev S1x1x256 : Shape := ⟨3, ![1, 1, 256]⟩
abbrev S128x1x256 : Shape := ⟨3, ![128, 1, 256]⟩
abbrev S128x64 : Shape := ⟨2, ![128, 64]⟩
abbrev S128x64x1 : Shape := ⟨3, ![128, 64, 1]⟩
abbrev S128x1 : Shape := ⟨2, ![128, 1]⟩
abbrev S128x1x1 : Shape := ⟨3, ![128, 1, 1]⟩

abbrev nBuf : Space → Nat
  | .hbm => 73
  | .vmem => 16
  | .smem => 0
  | _ => 0

abbrev bufTy : (tb : Table) → Fin (tcTables nBuf tb) → BufTy
  | .hbm, ⟨0, _⟩ => ⟨S4096, .i32⟩
  | .hbm, ⟨1, _⟩ => ⟨S4096x64, .i32⟩
  | .hbm, ⟨2, _⟩ => ⟨S100000x256, .f32⟩
  | .hbm, ⟨3, _⟩ => ⟨S512x256, .f32⟩
  | .hbm, ⟨4, _⟩ => ⟨S256, .f32⟩
  | .hbm, ⟨5, _⟩ => ⟨S512x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x1, .f32⟩
  | .hbm, ⟨10, _⟩ => ⟨S1, .f32⟩
  | .hbm, ⟨11, _⟩ => ⟨S_, .i32⟩
  | .hbm, ⟨12, _⟩ => ⟨S4096x64, .i32⟩
  | .hbm, ⟨13, _⟩ => ⟨S4096x64, .i1⟩
  | .hbm, ⟨14, _⟩ => ⟨S_, .i32⟩
  | .hbm, ⟨15, _⟩ => ⟨S4096x64, .i32⟩
  | .hbm, ⟨16, _⟩ => ⟨S4096x64, .i32⟩
  | .hbm, ⟨17, _⟩ => ⟨S4096x64, .i32⟩
  | .hbm, ⟨18, _⟩ => ⟨S4096x64x1, .i32⟩
  | .hbm, ⟨19, _⟩ => ⟨S1, .i32⟩
  | .hbm, ⟨20, _⟩ => ⟨S_, .i32⟩
  | .hbm, ⟨21, _⟩ => ⟨S4096x64x1, .i32⟩
  | .hbm, ⟨22, _⟩ => ⟨S4096x64x1, .i1⟩
  | .hbm, ⟨23, _⟩ => ⟨S1x1x1, .i32⟩
  | .hbm, ⟨24, _⟩ => ⟨S4096x64x1, .i32⟩
  | .hbm, ⟨25, _⟩ => ⟨S4096x64x1, .i1⟩
  | .hbm, ⟨26, _⟩ => ⟨S4096x64x1, .i1⟩
  | .hbm, ⟨27, _⟩ => ⟨S_, .i1⟩
  | .hbm, ⟨28, _⟩ => ⟨S4096x64, .i1⟩
  | .hbm, ⟨29, _⟩ => ⟨S4096x64x256, .f32⟩
  | .hbm, ⟨30, _⟩ => ⟨S4096x64x256, .i1⟩
  | .hbm, ⟨31, _⟩ => ⟨S_, .f32⟩
  | .hbm, ⟨32, _⟩ => ⟨S4096x64x256, .f32⟩
  | .hbm, ⟨33, _⟩ => ⟨S4096x64x256, .f32⟩
  | .hbm, ⟨34, _⟩ => ⟨S4096x64x256, .bf16⟩
  | .hbm, ⟨35, _⟩ => ⟨S_, .i32⟩
  | .hbm, ⟨36, _⟩ => ⟨S4096, .i32⟩
  | .hbm, ⟨37, _⟩ => ⟨S4096, .i1⟩
  | .hbm, ⟨38, _⟩ => ⟨S_, .i32⟩
  | .hbm, ⟨39, _⟩ => ⟨S4096, .i32⟩
  | .hbm, ⟨40, _⟩ => ⟨S4096, .i32⟩
  | .hbm, ⟨41, _⟩ => ⟨S4096, .i32⟩
  | .hbm, ⟨42, _⟩ => ⟨S4096x1, .i32⟩
  | .hbm, ⟨43, _⟩ => ⟨S1, .i32⟩
  | .hbm, ⟨44, _⟩ => ⟨S_, .i32⟩
  | .hbm, ⟨45, _⟩ => ⟨S4096x1, .i32⟩
  | .hbm, ⟨46, _⟩ => ⟨S4096x1, .i1⟩
  | .hbm, ⟨47, _⟩ => ⟨S1x1, .i32⟩
  | .hbm, ⟨48, _⟩ => ⟨S4096x1, .i32⟩
  | .hbm, ⟨49, _⟩ => ⟨S4096x1, .i1⟩
  | .hbm, ⟨50, _⟩ => ⟨S4096x1, .i1⟩
  | .hbm, ⟨51, _⟩ => ⟨S_, .i1⟩
  | .hbm, ⟨52, _⟩ => ⟨S4096, .i1⟩
  | .hbm, ⟨53, _⟩ => ⟨S4096x256, .f32⟩
  | .hbm, ⟨54, _⟩ => ⟨S4096x256, .i1⟩
  | .hbm, ⟨55, _⟩ => ⟨S_, .f32⟩
  | .hbm, ⟨56, _⟩ => ⟨S4096x256, .f32⟩
  | .hbm, ⟨57, _⟩ => ⟨S4096x256, .f32⟩
  | .hbm, ⟨58, _⟩ => ⟨S4096x256, .bf16⟩
  | .hbm, ⟨59, _⟩ => ⟨S256x256, .f32⟩
  | .hbm, ⟨60, _⟩ => ⟨S256x256, .bf16⟩
  | .hbm, ⟨61, _⟩ => ⟨S256x256, .f32⟩
  | .hbm, ⟨62, _⟩ => ⟨S256x256, .bf16⟩
  | .hbm, ⟨63, _⟩ => ⟨S256x256, .f32⟩
  | .hbm, ⟨64, _⟩ => ⟨S256x256, .bf16⟩
  | .hbm, ⟨65, _⟩ => ⟨S256x256, .f32⟩
  | .hbm, ⟨66, _⟩ => ⟨S256x256, .bf16⟩
  | .hbm, ⟨67, _⟩ => ⟨S256x256, .bf16⟩
  | .hbm, ⟨68, _⟩ => ⟨S1x256, .f32⟩
  | .hbm, ⟨69, _⟩ => ⟨S1x256, .f32⟩
  | .hbm, ⟨70, _⟩ => ⟨S1x256, .f32⟩
  | .hbm, ⟨71, _⟩ => ⟨S1x1, .f32⟩
  | .hbm, ⟨72, _⟩ => ⟨S4096x256, .f32⟩
  | .local _ .vmem, ⟨0, _⟩ => ⟨S128x64x256, .bf16⟩
  | .local _ .vmem, ⟨1, _⟩ => ⟨S128x64x256, .bf16⟩
  | .local _ .vmem, ⟨2, _⟩ => ⟨S128x256, .bf16⟩
  | .local _ .vmem, ⟨3, _⟩ => ⟨S128x256, .bf16⟩
  | .local _ .vmem, ⟨4, _⟩ => ⟨S256x256, .bf16⟩
  | .local _ .vmem, ⟨5, _⟩ => ⟨S256x256, .bf16⟩
  | .local _ .vmem, ⟨6, _⟩ => ⟨S1x256, .f32⟩
  | .local _ .vmem, ⟨7, _⟩ => ⟨S256x256, .bf16⟩
  | .local _ .vmem, ⟨8, _⟩ => ⟨S256x256, .bf16⟩
  | .local _ .vmem, ⟨9, _⟩ => ⟨S1x256, .f32⟩
  | .local _ .vmem, ⟨10, _⟩ => ⟨S256x256, .bf16⟩
  | .local _ .vmem, ⟨11, _⟩ => ⟨S1x256, .f32⟩
  | .local _ .vmem, ⟨12, _⟩ => ⟨S256x1, .f32⟩
  | .local _ .vmem, ⟨13, _⟩ => ⟨S1x1, .f32⟩
  | .local _ .vmem, ⟨14, _⟩ => ⟨S128x256, .f32⟩
  | .local _ .vmem, ⟨15, _⟩ => ⟨S128x256, .f32⟩
  | _, _ => ⟨S4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v0 : Ref sig .tc := ⟨.hbm, 33, rfl⟩
abbrev main_v1 : Ref sig .tc := ⟨.hbm, 34, rfl⟩
abbrev main_call1_c : Ref sig .tc := ⟨.hbm, 35, rfl⟩
abbrev main_call1_v0 : Ref sig .tc := ⟨.hbm, 36, rfl⟩
abbrev main_call1_v1 : Ref sig .tc := ⟨.hbm, 37, rfl⟩
abbrev main_call1_c_0 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_c_1 : Ref sig .tc := ⟨.hbm, 43, rfl⟩
abbrev main_call1_c_2 : Ref sig .tc := ⟨.hbm, 44, rfl⟩
abbrev main_call1_v6 : Ref sig .tc := ⟨.hbm, 45, rfl⟩
abbrev main_call1_v7 : Ref sig .tc := ⟨.hbm, 46, rfl⟩
abbrev main_call1_v8 : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_c_3 : Ref sig .tc := ⟨.hbm, 51, rfl⟩
abbrev main_call1_v12 : Ref sig .tc := ⟨.hbm, 52, rfl⟩
abbrev main_call1_v13 : Ref sig .tc := ⟨.hbm, 53, rfl⟩
abbrev main_call1_v14 : Ref sig .tc := ⟨.hbm, 54, rfl⟩
abbrev main_call1_cst : Ref sig .tc := ⟨.hbm, 55, rfl⟩
abbrev main_call1_v15 : Ref sig .tc := ⟨.hbm, 56, rfl⟩
abbrev main_v2 : Ref sig .tc := ⟨.hbm, 57, rfl⟩
abbrev main_v3 : Ref sig .tc := ⟨.hbm, 58, rfl⟩
abbrev main_v4 : Ref sig .tc := ⟨.hbm, 59, rfl⟩
abbrev main_v5 : Ref sig .tc := ⟨.hbm, 60, rfl⟩
abbrev main_v6 : Ref sig .tc := ⟨.hbm, 61, rfl⟩
abbrev main_v7 : Ref sig .tc := ⟨.hbm, 62, rfl⟩
abbrev main_v8 : Ref sig .tc := ⟨.hbm, 63, rfl⟩
abbrev main_v9 : Ref sig .tc := ⟨.hbm, 64, rfl⟩
abbrev main_v10 : Ref sig .tc := ⟨.hbm, 65, rfl⟩
abbrev main_v11 : Ref sig .tc := ⟨.hbm, 66, rfl⟩
abbrev main_v12 : Ref sig .tc := ⟨.hbm, 67, rfl⟩
abbrev main_v13 : Ref sig .tc := ⟨.hbm, 68, rfl⟩
abbrev main_v14 : Ref sig .tc := ⟨.hbm, 69, rfl⟩
abbrev main_v15 : Ref sig .tc := ⟨.hbm, 70, rfl⟩
abbrev main_v16 : Ref sig .tc := ⟨.hbm, 71, rfl⟩
abbrev main_v17 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x64x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S128x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  bcast_S_S4096x64 : S_.BroadcastsInDim S4096x64 (![] : Fin 0 → Fin S4096x64.rank)
  bcast_S4096x64_S4096x64x1_0_1 : S4096x64.BroadcastsInDim S4096x64x1 (![0, 1] : Fin 2 → Fin S4096x64x1.rank)
  bcast_S_S4096x64x1 : S_.BroadcastsInDim S4096x64x1 (![] : Fin 0 → Fin S4096x64x1.rank)
  bcast_S1_S1x1x1_2 : S1.BroadcastsInDim S1x1x1 (![2] : Fin 1 → Fin S1x1x1.rank)
  bcast_S1x1x1_S4096x64x1_0_1_2 : S1x1x1.BroadcastsInDim S4096x64x1 (![0, 1, 2] : Fin 3 → Fin S4096x64x1.rank)
  reducesTo_S4096x64x1_S4096x64_d2 : S4096x64x1.ReducesTo [2] S4096x64
  h_S_ : 0 < S_.numel
  bcast_S4096x64_S4096x64x256_0_1 : S4096x64.BroadcastsInDim S4096x64x256 (![0, 1] : Fin 2 → Fin S4096x64x256.rank)
  bcast_S_S4096x64x256 : S_.BroadcastsInDim S4096x64x256 (![] : Fin 0 → Fin S4096x64x256.rank)
  bitsLt_bf16_f32 : FTy.bits .bf16 < FTy.bits .f32
  bcast_S_S4096 : S_.BroadcastsInDim S4096 (![] : Fin 0 → Fin S4096.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  reducesTo_S4096x1_S4096_d1 : S4096x1.ReducesTo [1] S4096
  bcast_S4096_S4096x256_0 : S4096.BroadcastsInDim S4096x256 (![0] : Fin 1 → Fin S4096x256.rank)
  bcast_S_S4096x256 : S_.BroadcastsInDim S4096x256 (![] : Fin 0 → Fin S4096x256.rank)
  slices_S512x256_S256x256_0_0 : S512x256.Slices ![0, 0] S256x256
  slices_S512x256_S256x256_256_0 : S512x256.Slices ![256, 0] S256x256
  shapeCasts_S256_S1x256 : S256.ShapeCasts S1x256
  shapeCasts_S1_S1x1 : S1.ShapeCasts S1x1
  inb_S128x64x256_S128x64x256_0_0_0 : ∀ a, (![0, 0, 0] : Fin 3 → Nat) a + S128x64x256.size a ≤ S128x64x256.size a
  h_S128x64x256 : 0 < S128x64x256.numel
  shapeCasts_S128x64x256_S128x64x256 : S128x64x256.ShapeCasts S128x64x256
  inb_S128x256_S128x256_0_0 : ∀ a, (![0, 0] : Fin 2 → Nat) a + S128x256.size a ≤ S128x256.size a
  h_S128x256 : 0 < S128x256.numel
  shapeCasts_S128x256_S128x256 : S128x256.ShapeCasts S128x256
  shapeCasts_S128x64x256_S8192x256 : S128x64x256.ShapeCasts S8192x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  shapeCasts_S8192x256_S128x64x256 : S8192x256.ShapeCasts S128x64x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  shapeCasts_S1x256_S1x1x256 : S1x256.ShapeCasts S1x1x256
  shapeCasts_S128x256_S128x1x256 : S128x256.ShapeCasts S128x1x256
  broadcasts_S128x1x256_S128x64x256 : S128x1x256.Broadcasts S128x64x256
  broadcasts_S1x1x256_S128x64x256 : S1x1x256.Broadcasts S128x64x256
  inb_S256x1_S256x1_0_0 : ∀ a, (![0, 0] : Fin 2 → Nat) a + S256x1.size a ≤ S256x1.size a
  h_S256x1 : 0 < S256x1.numel
  shapeCasts_S256x1_S1x1x256 : S256x1.ShapeCasts S1x1x256
  inb_S1x1_S1x1_0_0 : ∀ a, (![0, 0] : Fin 2 → Nat) a + S1x1.size a ≤ S1x1.size a
  h_S1x1 : 0 < S1x1.numel
  shapeCasts_S1x1_S1x1 : S1x1.ShapeCasts S1x1
  shapeCasts_S1x1_S1x1x1 : S1x1.ShapeCasts S1x1x1
  reduces_S128x64x256_S128x64 : S128x64x256.Reduces [2] S128x64
  shapeCasts_S128x64_S128x64x1 : S128x64.ShapeCasts S128x64x1
  broadcasts_S1x1x1_S128x64x1 : S1x1x1.Broadcasts S128x64x1
  reduces_S128x64x1_S128x1 : S128x64x1.Reduces [1] S128x1
  shapeCasts_S128x1_S128x1x1 : S128x1.ShapeCasts S128x1x1
  broadcasts_S128x1x1_S128x64x1 : S128x1x1.Broadcasts S128x64x1
  broadcasts_S128x64x1_S128x64x256 : S128x64x1.Broadcasts S128x64x256
  reduces_S128x64x256_S128x256 : S128x64x256.Reduces [1] S128x256
  gather_S100000x256_S4096x64x1_S4096x64x256_2_0_n_n_0_2_1256_wf : GatherDims.WF S100000x256 S4096x64x1 S4096x64x256 [2] [0] [] [0] [] 2 ![1, 256]
  gather_S100000x256_S4096x1_S4096x256_1_0_n_n_0_1_1256_wf : GatherDims.WF S100000x256 S4096x1 S4096x256 [1] [0] [] [0] [] 1 ![1, 256]
  dot_S8192x256_S256x256_S8192x256_1_0_0_1_n_n_wf : DotDims.WF S8192x256 S256x256 S8192x256 [1] [0] [0] [1] [] []
  dot_S128x256_S256x256_S128x256_1_0_0_1_n_n_wf : DotDims.WF S128x256 S256x256 S128x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x64x256.size a ≤ S4096x64x256.size a
  hwx0_0 : ∀ i : grid0.Coords, EltTy.bits .bf16 = 32 ∨ (Rect.block (s := S4096x64x256) S128x64x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S4096x256.size a
  hwx0_1 : ∀ i : grid0.Coords, EltTy.bits .bf16 = 32 ∨ (Rect.block (s := S4096x256) S128x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .bf16 = 32 ∨ (Rect.block (s := S256x256) S256x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .bf16 = 32 ∨ (Rect.block (s := S256x256) S256x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .bf16 = 32 ∨ (Rect.block (s := S256x256) S256x256.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x256.size a ≤ S256x256.size a
  hwx0_8 : ∀ i : grid0.Coords, EltTy.bits .bf16 = 32 ∨ (Rect.block (s := S256x256) S256x256.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x256.size a ≤ S1x256.size a
  hwx0_9 : ∀ i : grid0.Coords, EltTy.bits .f32 = 32 ∨ (Rect.block (s := S1x256) S1x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256x1.size a ≤ S256x1.size a
  hwx0_10 : ∀ i : grid0.Coords, EltTy.bits .f32 = 32 ∨ (Rect.block (s := S256x1) S256x1.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1.size a ≤ S1x1.size a
  hwx0_11 : ∀ i : grid0.Coords, EltTy.bits .f32 = 32 ∨ (Rect.block (s := S1x1) S1x1.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S128x256.size a ≤ S4096x256.size a
  hwx0_12 : ∀ i : grid0.Coords, EltTy.bits .f32 = 32 ∨ (Rect.block (s := S4096x256) S128x256.size (cc0_transform_12 i) (hinb0_12 i)).WholeWords (EltTy.packing .f32)

variable [Facts₀]

def gather_S100000x256_S4096x64x1_S4096x64x256_2_0_n_n_0_2_1256 : GatherDims S100000x256 S4096x64x1 S4096x64x256 where
  offsetDims := [2]
  collapsedSliceDims := [0]
  operandBatchingDims := []
  startIndicesBatchingDims := []
  startIndexMap := [0]
  indexVectorDim := 2
  sliceSizes := ![1, 256]
  wf := gather_S100000x256_S4096x64x1_S4096x64x256_2_0_n_n_0_2_1256_wf
def gather_S100000x256_S4096x1_S4096x256_1_0_n_n_0_1_1256 : GatherDims S100000x256 S4096x1 S4096x256 where
  offsetDims := [1]
  collapsedSliceDims := [0]
  operandBatchingDims := []
  startIndicesBatchingDims := []
  startIndexMap := [0]
  indexVectorDim := 1
  sliceSizes := ![1, 256]
  wf := gather_S100000x256_S4096x1_S4096x256_1_0_n_n_0_1_1256_wf
def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S128x256_S256x256_S128x256_1_0_0_1_n_n : DotDims S128x256 S256x256 S128x256 where
  lhsContracting := [1]
  rhsContracting := [0]
  lhsNonContracting := [0]
  rhsNonContracting := [1]
  lhsBatch := []
  rhsBatch := []
  wf := dot_S128x256_S256x256_S128x256_1_0_0_1_n_n_wf

abbrev win0_0 : Pipeline.Window sig grid0 :=
  Pipeline.Window.ofSpec (Memref.whole main_v1) S128x64x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S128x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v14) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v12) S256x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v15) S1x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg9) S256x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v16) S1x1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v17) S128x256.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S4096 : Shape := ⟨1, ![4096]⟩
abbrev S4096x64 : Shape := ⟨2, ![4096, 64]⟩
abbrev S100000x256 : Shape := ⟨2, ![100000, 256]⟩
abbrev S512x256 : Shape := ⟨2, ![512, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S_ : Shape := ⟨0, ![]⟩
abbrev S4096x64x1 : Shape := ⟨3, ![4096, 64, 1]⟩
abbrev S4096x64x256 : Shape := ⟨3, ![4096, 64, 256]⟩
abbrev S4096x1 : Shape := ⟨2, ![4096, 1]⟩
abbrev S4096x256 : Shape := ⟨2, ![4096, 256]⟩
abbrev S4096x1x256 : Shape := ⟨3, ![4096, 1, 256]⟩
abbrev S4096x64x512 : Shape := ⟨3, ![4096, 64, 512]⟩
abbrev S1x1x256 : Shape := ⟨3, ![1, 1, 256]⟩
abbrev S1x1x1 : Shape := ⟨3, ![1, 1, 1]⟩
abbrev S4096x1x1 : Shape := ⟨3, ![4096, 1, 1]⟩

abbrev nBuf : Space → Nat
  | .hbm => 87
  | .vmem => 0
  | .smem => 0
  | _ => 0

abbrev bufTy : (tb : Table) → Fin (tcTables nBuf tb) → BufTy
  | .hbm, ⟨0, _⟩ => ⟨S4096, .i32⟩
  | .hbm, ⟨1, _⟩ => ⟨S4096x64, .i32⟩
  | .hbm, ⟨2, _⟩ => ⟨S100000x256, .f32⟩
  | .hbm, ⟨3, _⟩ => ⟨S512x256, .f32⟩
  | .hbm, ⟨4, _⟩ => ⟨S256, .f32⟩
  | .hbm, ⟨5, _⟩ => ⟨S512x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x1, .f32⟩
  | .hbm, ⟨10, _⟩ => ⟨S1, .f32⟩
  | .hbm, ⟨11, _⟩ => ⟨S_, .i32⟩
  | .hbm, ⟨12, _⟩ => ⟨S4096x64, .i32⟩
  | .hbm, ⟨13, _⟩ => ⟨S4096x64, .i1⟩
  | .hbm, ⟨14, _⟩ => ⟨S_, .i32⟩
  | .hbm, ⟨15, _⟩ => ⟨S4096x64, .i32⟩
  | .hbm, ⟨16, _⟩ => ⟨S4096x64, .i32⟩
  | .hbm, ⟨17, _⟩ => ⟨S4096x64, .i32⟩
  | .hbm, ⟨18, _⟩ => ⟨S4096x64x1, .i32⟩
  | .hbm, ⟨19, _⟩ => ⟨S4096x64x256, .f32⟩
  | .hbm, ⟨20, _⟩ => ⟨S_, .i32⟩
  | .hbm, ⟨21, _⟩ => ⟨S4096, .i32⟩
  | .hbm, ⟨22, _⟩ => ⟨S4096, .i1⟩
  | .hbm, ⟨23, _⟩ => ⟨S_, .i32⟩
  | .hbm, ⟨24, _⟩ => ⟨S4096, .i32⟩
  | .hbm, ⟨25, _⟩ => ⟨S4096, .i32⟩
  | .hbm, ⟨26, _⟩ => ⟨S4096, .i32⟩
  | .hbm, ⟨27, _⟩ => ⟨S4096x1, .i32⟩
  | .hbm, ⟨28, _⟩ => ⟨S4096x256, .f32⟩
  | .hbm, ⟨29, _⟩ => ⟨S4096x1x256, .f32⟩
  | .hbm, ⟨30, _⟩ => ⟨S4096x64x256, .f32⟩
  | .hbm, ⟨31, _⟩ => ⟨S4096x64x512, .f32⟩
  | .hbm, ⟨32, _⟩ => ⟨S4096x64x256, .f32⟩
  | .hbm, ⟨33, _⟩ => ⟨S1x1x256, .f32⟩
  | .hbm, ⟨34, _⟩ => ⟨S4096x64x256, .f32⟩
  | .hbm, ⟨35, _⟩ => ⟨S4096x64x256, .f32⟩
  | .hbm, ⟨36, _⟩ => ⟨S4096x64x256, .f32⟩
  | .hbm, ⟨37, _⟩ => ⟨S4096x64x256, .f32⟩
  | .hbm, ⟨38, _⟩ => ⟨S_, .f32⟩
  | .hbm, ⟨39, _⟩ => ⟨S4096x64x256, .f32⟩
  | .hbm, ⟨40, _⟩ => ⟨S4096x64x256, .f32⟩
  | .hbm, ⟨41, _⟩ => ⟨S_, .f32⟩
  | .hbm, ⟨42, _⟩ => ⟨S4096x64x256, .f32⟩
  | .hbm, ⟨43, _⟩ => ⟨S4096x64x256, .f32⟩
  | .hbm, ⟨44, _⟩ => ⟨S4096x64x256, .f32⟩
  | .hbm, ⟨45, _⟩ => ⟨S_, .f32⟩
  | .hbm, ⟨46, _⟩ => ⟨S4096x64x256, .f32⟩
  | .hbm, ⟨47, _⟩ => ⟨S4096x64x256, .f32⟩
  | .hbm, ⟨48, _⟩ => ⟨S4096x64x256, .f32⟩
  | .hbm, ⟨49, _⟩ => ⟨S4096x64x256, .f32⟩
  | .hbm, ⟨50, _⟩ => ⟨S4096x64x512, .f32⟩
  | .hbm, ⟨51, _⟩ => ⟨S4096x64x256, .f32⟩
  | .hbm, ⟨52, _⟩ => ⟨S1x1x256, .f32⟩
  | .hbm, ⟨53, _⟩ => ⟨S4096x64x256, .f32⟩
  | .hbm, ⟨54, _⟩ => ⟨S4096x64x256, .f32⟩
  | .hbm, ⟨55, _⟩ => ⟨S_, .f32⟩
  | .hbm, ⟨56, _⟩ => ⟨S4096x64x256, .f32⟩
  | .hbm, ⟨57, _⟩ => ⟨S4096x64x256, .f32⟩
  | .hbm, ⟨58, _⟩ => ⟨S4096x64x256, .f32⟩
  | .hbm, ⟨59, _⟩ => ⟨S1x1x256, .f32⟩
  | .hbm, ⟨60, _⟩ => ⟨S4096x64x256, .f32⟩
  | .hbm, ⟨61, _⟩ => ⟨S4096x64x256, .f32⟩
  | .hbm, ⟨62, _⟩ => ⟨S_, .f32⟩
  | .hbm, ⟨63, _⟩ => ⟨S4096x64x256, .f32⟩
  | .hbm, ⟨64, _⟩ => ⟨S4096x64x256, .f32⟩
  | .hbm, ⟨65, _⟩ => ⟨S4096x64x1, .f32⟩
  | .hbm, ⟨66, _⟩ => ⟨S1x1x1, .f32⟩
  | .hbm, ⟨67, _⟩ => ⟨S4096x64x1, .f32⟩
  | .hbm, ⟨68, _⟩ => ⟨S4096x64x1, .f32⟩
  | .hbm, ⟨69, _⟩ => ⟨S_, .f32⟩
  | .hbm, ⟨70, _⟩ => ⟨S4096x1, .f32⟩
  | .hbm, ⟨71, _⟩ => ⟨S_, .f32⟩
  | .hbm, ⟨72, _⟩ => ⟨S4096x1, .f32⟩
  | .hbm, ⟨73, _⟩ => ⟨S4096x1, .f32⟩
  | .hbm, ⟨74, _⟩ => ⟨S4096x1x1, .f32⟩
  | .hbm, ⟨75, _⟩ => ⟨S4096x64x1, .f32⟩
  | .hbm, ⟨76, _⟩ => ⟨S4096x64x1, .f32⟩
  | .hbm, ⟨77, _⟩ => ⟨S4096x64x1, .f32⟩
  | .hbm, ⟨78, _⟩ => ⟨S_, .f32⟩
  | .hbm, ⟨79, _⟩ => ⟨S4096x1, .f32⟩
  | .hbm, ⟨80, _⟩ => ⟨S4096x1x1, .f32⟩
  | .hbm, ⟨81, _⟩ => ⟨S4096x64x1, .f32⟩
  | .hbm, ⟨82, _⟩ => ⟨S4096x64x1, .f32⟩
  | .hbm, ⟨83, _⟩ => ⟨S4096x64x256, .f32⟩
  | .hbm, ⟨84, _⟩ => ⟨S4096x64x256, .f32⟩
  | .hbm, ⟨85, _⟩ => ⟨S_, .f32⟩
  | .hbm, ⟨86, _⟩ => ⟨S4096x256, .f32⟩
  | _, _ => ⟨S4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c_1 : Ref sig .tc := ⟨.hbm, 20, rfl⟩
abbrev main_v7 : Ref sig .tc := ⟨.hbm, 21, rfl⟩
abbrev main_v8 : Ref sig .tc := ⟨.hbm, 22, rfl⟩
abbrev main_c_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst : Ref sig .tc := ⟨.hbm, 38, rfl⟩
abbrev main_v23 : Ref sig .tc := ⟨.hbm, 39, rfl⟩
abbrev main_v24 : Ref sig .tc := ⟨.hbm, 40, rfl⟩
abbrev main_cst_3 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_4 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_call0_cst : Ref sig .tc := ⟨.hbm, 55, rfl⟩
abbrev main_call0_v0 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_call1_cst : Ref sig .tc := ⟨.hbm, 62, rfl⟩
abbrev main_call1_v0 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_5 : Ref sig .tc := ⟨.hbm, 69, rfl⟩
abbrev main_v47 : Ref sig .tc := ⟨.hbm, 70, rfl⟩
abbrev main_cst_6 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_7 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_8 : Ref sig .tc := ⟨.hbm, 85, rfl⟩
abbrev main_v60 : Ref sig .tc := ⟨.hbm, 86, rfl⟩

abbrev nD : Nat := 1
abbrev τ : Topo := Topo.v7x

variable {F : FTy → Type} [FloatOps F]

class Facts₀ : Prop where
  bcast_S_S4096x64 : S_.BroadcastsInDim S4096x64 (![] : Fin 0 → Fin S4096x64.rank)
  bcast_S4096x64_S4096x64x1_0_1 : S4096x64.BroadcastsInDim S4096x64x1 (![0, 1] : Fin 2 → Fin S4096x64x1.rank)
  bcast_S_S4096 : S_.BroadcastsInDim S4096 (![] : Fin 0 → Fin S4096.rank)
  bcast_S4096_S4096x1_0 : S4096.BroadcastsInDim S4096x1 (![0] : Fin 1 → Fin S4096x1.rank)
  bcast_S4096x256_S4096x1x256_0_2 : S4096x256.BroadcastsInDim S4096x1x256 (![0, 2] : Fin 2 → Fin S4096x1x256.rank)
  bcast_S4096x1x256_S4096x64x256_0_1_2 : S4096x1x256.BroadcastsInDim S4096x64x256 (![0, 1, 2] : Fin 3 → Fin S4096x64x256.rank)
  concatenates_S4096x64x256_S4096x64x256_S4096x64x512_d2 : Shape.Concatenates [S4096x64x256, S4096x64x256] S4096x64x512 2
  bcast_S256_S1x1x256_2 : S256.BroadcastsInDim S1x1x256 (![2] : Fin 1 → Fin S1x1x256.rank)
  bcast_S1x1x256_S4096x64x256_0_1_2 : S1x1x256.BroadcastsInDim S4096x64x256 (![0, 1, 2] : Fin 3 → Fin S4096x64x256.rank)
  bcast_S_S4096x64x256 : S_.BroadcastsInDim S4096x64x256 (![] : Fin 0 → Fin S4096x64x256.rank)
  bcast_S1_S1x1x1_2 : S1.BroadcastsInDim S1x1x1 (![2] : Fin 1 → Fin S1x1x1.rank)
  bcast_S1x1x1_S4096x64x1_0_1_2 : S1x1x1.BroadcastsInDim S4096x64x1 (![0, 1, 2] : Fin 3 → Fin S4096x64x1.rank)
  reducesTo_S4096x64x1_S4096x1_d1 : S4096x64x1.ReducesTo [1] S4096x1
  h_S_ : 0 < S_.numel
  bcast_S_S4096x1 : S_.BroadcastsInDim S4096x1 (![] : Fin 0 → Fin S4096x1.rank)
  bcast_S4096x1_S4096x1x1_0_2 : S4096x1.BroadcastsInDim S4096x1x1 (![0, 2] : Fin 2 → Fin S4096x1x1.rank)
  bcast_S4096x1x1_S4096x64x1_0_1_2 : S4096x1x1.BroadcastsInDim S4096x64x1 (![0, 1, 2] : Fin 3 → Fin S4096x64x1.rank)
  bcast_S4096x64x1_S4096x64x256_0_1_2 : S4096x64x1.BroadcastsInDim S4096x64x256 (![0, 1, 2] : Fin 3 → Fin S4096x64x256.rank)
  reducesTo_S4096x64x256_S4096x256_d1 : S4096x64x256.ReducesTo [1] S4096x256
  gather_S100000x256_S4096x64x1_S4096x64x256_2_0_n_n_0_2_1256_wf : GatherDims.WF S100000x256 S4096x64x1 S4096x64x256 [2] [0] [] [0] [] 2 ![1, 256]
  gather_S100000x256_S4096x1_S4096x256_1_0_n_n_0_1_1256_wf : GatherDims.WF S100000x256 S4096x1 S4096x256 [1] [0] [] [0] [] 1 ![1, 256]
  dot_S4096x64x512_S512x256_S4096x64x256_2_0_01_1_n_n_wf : DotDims.WF S4096x64x512 S512x256 S4096x64x256 [2] [0] [0, 1] [1] [] []
  dot_S4096x64x256_S256x256_S4096x64x256_2_0_01_1_n_n_wf : DotDims.WF S4096x64x256 S256x256 S4096x64x256 [2] [0] [0, 1] [1] [] []
  dot_S4096x64x256_S256x1_S4096x64x1_2_0_01_1_n_n_wf : DotDims.WF S4096x64x256 S256x1 S4096x64x1 [2] [0] [0, 1] [1] [] []

variable [Facts₀]

def gather_S100000x256_S4096x64x1_S4096x64x256_2_0_n_n_0_2_1256 : GatherDims S100000x256 S4096x64x1 S4096x64x256 where
  offsetDims := [2]
  collapsedSliceDims := [0]
  operandBatchingDims := []
  startIndicesBatchingDims := []
  startIndexMap := [0]
  indexVectorDim := 2
  sliceSizes := ![1, 256]
  wf := gather_S100000x256_S4096x64x1_S4096x64x256_2_0_n_n_0_2_1256_wf
def gather_S100000x256_S4096x1_S4096x256_1_0_n_n_0_1_1256 : GatherDims S100000x256 S4096x1 S4096x256 where
  offsetDims := [1]
  collapsedSliceDims := [0]
  operandBatchingDims := []
  startIndicesBatchingDims := []
  startIndexMap := [0]
  indexVectorDim := 1
  sliceSizes := ![1, 256]
  wf := gather_S100000x256_S4096x1_S4096x256_1_0_n_n_0_1_1256_wf
def dot_S4096x64x512_S512x256_S4096x64x256_2_0_01_1_n_n : DotDims S4096x64x512 S512x256 S4096x64x256 where
  lhsContracting := [2]
  rhsContracting := [0]
  lhsNonContracting := [0, 1]
  rhsNonContracting := [1]
  lhsBatch := []
  rhsBatch := []
  wf := dot_S4096x64x512_S512x256_S4096x64x256_2_0_01_1_n_n_wf
def dot_S4096x64x256_S256x256_S4096x64x256_2_0_01_1_n_n : DotDims S4096x64x256 S256x256 S4096x64x256 where
  lhsContracting := [2]
  rhsContracting := [0]
  lhsNonContracting := [0, 1]
  rhsNonContracting := [1]
  lhsBatch := []
  rhsBatch := []
  wf := dot_S4096x64x256_S256x256_S4096x64x256_2_0_01_1_n_n_wf
def dot_S4096x64x256_S256x1_S4096x64x1_2_0_01_1_n_n : DotDims S4096x64x256 S256x1 S4096x64x1 where
  lhsContracting := [2]
  rhsContracting := [0]
  lhsNonContracting := [0, 1]
  rhsNonContracting := [1]
  lhsBatch := []
  rhsBatch := []
  wf := dot_S4096x64x256_S256x1_S4096x64x1_2_0_01_1_n_n_wf

class Facts : Prop extends Facts₀ where

variable [Facts]
-- ==== Proof.Spec.lean ====
/-
  The gated-attention aggregation of one graph node over its 64 neighbours, written twice.

  A node has an embedding row U (256 entries) and 64 neighbour rows E k. Both programs compute, per node,
    gate    g k d  = logistic (affine_g [E k ; U] d)
    gated   eg k d = g·E k d + (1 - g)·U d            (the kernel writes it  U d + g·(E k d - U d))
    hidden  h1 k d = relu (affine_1 [eg k ; U] d),  h2 k d = relu (affine_2 (h1 k) d)
    score   s k    = h2 k · a3W + a3b
    weights att k  = exp (s k - max s) / ∑ exp (s k' - max s)
    result  out d  = ∑ k, att k · eg k d.
  The kernel applies an affine layer to the concatenated row [x ; U] as two products, x·W[:256] + U·W[256:]; the
  reference as one product over 512 entries. Over the extended reals the two sums agree always (a finite sum split in
  two); the two spellings of the gated row agree where E, U are real numbers (the gate always is one).
-/
import Idealize.ShloMosaic.PureOps.Ideal
import Idealize.ShloMosaic.PureOps.Ideal.Laws
import Idealize.ShloMosaic.Lib.ValueIdx

noncomputable section

open scoped BigOperators

namespace Cert.Gnn

open Idealize.ShloMosaic Idealize.ShloMosaic.ValueIdx

/-- Entry e of the first half of a 512-long row. -/
def lo (e : Fin 256) : Fin 512 := ⟨e.val, by omega⟩
/-- Entry e of the second half of a 512-long row. -/
def hi (e : Fin 256) : Fin 512 := ⟨256 + e.val, by omega⟩

/-- The concatenated row [a ; b]. -/
def cat (a b : Fin 256 → EReal) (e : Fin 512) : EReal :=
  if h : e.val < 256 then a ⟨e.val, h⟩ else b ⟨e.val - 256, by omega⟩

/-- The largest of 64 scores (the fold of max from -∞). -/
def top (s : Fin 64 → EReal) : EReal := (Finset.univ : Finset (Fin 64)).fold max ⊥ s

/-- Softmax over the 64 neighbours of the scores s, applied to the rows v: entry d of the weighted sum. -/
def attend (s : Fin 64 → EReal) (v : Fin 64 → Fin 256 → EReal) (d : Fin 256) : EReal :=
  ∑ k : Fin 64, Ideal.div (Ideal.exp (s k - top s)) (∑ k' : Fin 64, Ideal.exp (s k' - top s)) * v k d

/-- The second hidden layer and the read-out: the score of neighbour k from its first hidden row. -/
def score (a2W : Fin 256 → Fin 256 → EReal) (a2b a3W : Fin 256 → EReal) (a3b : EReal)
    (h1 : Fin 64 → Fin 256 → EReal) (k : Fin 64) : EReal :=
  (∑ d : Fin 256, max ((∑ e : Fin 256, h1 k e * a2W e d) + a2b d) 0 * a3W d) + a3b

section Node
variable (E : Fin 64 → Fin 256 → EReal) (U : Fin 256 → EReal)

/-- The kernel's affine layer on [X k ; U]: two products and the bias. -/
def splitAff (We Wu : Fin 256 → Fin 256 → EReal) (b : Fin 256 → EReal) (X : Fin 64 → Fin 256 → EReal)
    (k : Fin 64) (d : Fin 256) : EReal :=
  ((∑ e : Fin 256, X k e * We e d) + (∑ e : Fin 256, U e * Wu e d)) + b d

/-- The reference's affine layer on [X k ; U]: one product over 512 entries and the bias. -/
def catAff (W : Fin 512 → Fin 256 → EReal) (b : Fin 256 → EReal) (X : Fin 64 → Fin 256 → EReal)
    (k : Fin 64) (d : Fin 256) : EReal :=
  (∑ e : Fin 512, cat (X k) U e * W e d) + b d

/-- The kernel's gated neighbour row. -/
def kEg (gWe gWu : Fin 256 → Fin 256 → EReal) (gb : Fin 256 → EReal) (k : Fin 64) (d : Fin 256) : EReal :=
  U d + Ideal.logistic (splitAff U gWe gWu gb E k d) * (E k d - U d)

/-- The kernel's first hidden row. -/
def kH1 (gWe gWu : Fin 256 → Fin 256 → EReal) (gb : Fin 256 → EReal) (a1We a1Wu : Fin 256 → Fin 256 → EReal)
    (a1b : Fin 256 → EReal) (k : Fin 64) (d : Fin 256) : EReal :=
  max (splitAff U a1We a1Wu a1b (kEg E U gWe gWu gb) k d) 0

/-- The kernel's result for the node. -/
def kOut (gWe gWu : Fin 256 → Fin 256 → EReal) (gb : Fin 256 → EReal) (a1We a1Wu : Fin 256 → Fin 256 → EReal)
    (a1b : Fin 256 → EReal) (a2W : Fin 256 → Fin 256 → EReal) (a2b a3W : Fin 256 → EReal) (a3b : EReal) (d : Fin 256) : EReal :=
  attend (score a2W a2b a3W a3b (kH1 E U gWe gWu gb a1We a1Wu a1b)) (kEg E U gWe gWu gb) d

/-- The reference's gate. -/
def rGate (gW : Fin 512 → Fin 256 → EReal) (gb : Fin 256 → EReal) (k : Fin 64) (d : Fin 256) : EReal :=
  Ideal.div 1 (1 + Ideal.exp (-(catAff U gW gb E k d)))

/-- The reference's gated neighbour row. -/
def rEg (gW : Fin 512 → Fin 256 → EReal) (gb : Fin 256 → EReal) (k : Fin 64) (d : Fin 256) : EReal :=
  rGate E U gW gb k d * E k d + (1 - rGate E U gW gb k d) * U d

/-- The reference's first hidden row. -/
def rH1 (gW : Fin 512 → Fin 256 → EReal) (gb : Fin 256 → EReal) (a1W : Fin 512 → Fin 256 → EReal)
    (a1b : Fin 256 → EReal) (k : Fin 64) (d : Fin 256) : EReal :=
  max (catAff U a1W a1b (rEg E U gW gb) k d) 0

/-- The reference's result for the node. -/
def rOut (gW : Fin 512 → Fin 256 → EReal) (gb : Fin 256 → EReal) (a1W : Fin 512 → Fin 256 → EReal)
    (a1b : Fin 256 → EReal) (a2W : Fin 256 → Fin 256 → EReal) (a2b a3W : Fin 256 → EReal) (a3b : EReal) (d : Fin 256) : EReal :=
  attend (score a2W a2b a3W a3b (rH1 E U gW gb a1W a1b)) (rEg E U gW gb) d

/-- The first half of [a ; b] is a. -/
theorem cat_lo (a b : Fin 256 → EReal) (e : Fin 256) : cat a b (lo e) = a e := by
  have h : (lo e).val < 256 := by simp [lo]
  unfold cat
  rw [dif_pos h]
  congr 1

/-- The second half of [a ; b] is b. -/
theorem cat_hi (a b : Fin 256 → EReal) (e : Fin 256) : cat a b (hi e) = b e := by
  have h : ¬ (hi e).val < 256 := by simp [hi]
  unfold cat
  rw [dif_neg h]
  congr 1
  apply Fin.ext
  simp [hi]

/-- A sum over 512 entries is the sum over the first half plus the sum over the second half. -/
theorem sum_lo_hi (f : Fin 512 → EReal) :
    (∑ e : Fin 512, f e) = (∑ e : Fin 256, f (lo e)) + ∑ e : Fin 256, f (hi e) := by
  refine (Fin.sum_univ_add (a := 256) (b := 256) f).trans ?_
  congr 1 <;> refine Finset.sum_congr rfl (fun e _ => ?_) <;> congr 1

/-- The one product over 512 entries is the two products over 256 entries. -/
theorem catAff_eq_splitAff (W : Fin 512 → Fin 256 → EReal) (b : Fin 256 → EReal) (X : Fin 64 → Fin 256 → EReal)
    (k : Fin 64) (d : Fin 256) :
    catAff U W b X k d = splitAff U (fun e d => W (lo e) d) (fun e d => W (hi e) d) b X k d := by
  unfold catAff splitAff
  rw [sum_lo_hi]
  simp only [cat_lo, cat_hi]

/-- The logistic of any extended real is a real number. -/
theorem logistic_real (x : EReal) : ∃ γ : ℝ, Ideal.logistic x = (γ : EReal) := by
  induction x using EReal.rec with
  | bot => exact ⟨0, by rw [Ideal.logistic_bot, EReal.coe_zero]⟩
  | coe r => exact ⟨_, Ideal.logistic_coe r⟩
  | top => exact ⟨1, by rw [Ideal.logistic_top, EReal.coe_one]⟩

/-- Over real numbers, u + g·(e - u) = g·e + (1 - g)·u. -/
theorem gated_real (g e u : ℝ) :
    (u : EReal) + (g : EReal) * ((e : EReal) - (u : EReal))
      = (g : EReal) * (e : EReal) + (1 - (g : EReal)) * (u : EReal) := by
  rw [← EReal.coe_sub, ← EReal.coe_mul, ← EReal.coe_add, ← EReal.coe_one, ← EReal.coe_sub, ← EReal.coe_mul,
    ← EReal.coe_mul, ← EReal.coe_add]
  congr 1
  ring

/-- The reference's gate is the logistic of the kernel's affine layer. -/
theorem rGate_eq (gW : Fin 512 → Fin 256 → EReal) (gb : Fin 256 → EReal) (k : Fin 64) (d : Fin 256) :
    rGate E U gW gb k d
      = Ideal.logistic (splitAff U (fun e d => gW (lo e) d) (fun e d => gW (hi e) d) gb E k d) := by
  unfold rGate
  rw [catAff_eq_splitAff]
  rfl

/-- The two gated neighbour rows agree where E and U are real. -/
theorem kEg_eq_rEg (hE : ∀ k e, ∃ r : ℝ, E k e = (r : EReal)) (hU : ∀ e, ∃ r : ℝ, U e = (r : EReal))
    (gW : Fin 512 → Fin 256 → EReal) (gb : Fin 256 → EReal) :
    kEg E U (fun e d => gW (lo e) d) (fun e d => gW (hi e) d) gb = rEg E U gW gb := by
  funext k d
  unfold kEg rEg
  rw [rGate_eq]
  obtain ⟨γ, hγ⟩ := logistic_real (splitAff U (fun e d => gW (lo e) d) (fun e d => gW (hi e) d) gb E k d)
  obtain ⟨e, he⟩ := hE k d
  obtain ⟨u, hu⟩ := hU d
  rw [hγ, he, hu]
  exact gated_real γ e u

/-- The two first hidden rows agree where E and U are real. -/
theorem kH1_eq_rH1 (hE : ∀ k e, ∃ r : ℝ, E k e = (r : EReal)) (hU : ∀ e, ∃ r : ℝ, U e = (r : EReal))
    (gW : Fin 512 → Fin 256 → EReal) (gb : Fin 256 → EReal) (a1W : Fin 512 → Fin 256 → EReal)
    (a1b : Fin 256 → EReal) :
    kH1 E U (fun e d => gW (lo e) d) (fun e d => gW (hi e) d) gb (fun e d => a1W (lo e) d)
        (fun e d => a1W (hi e) d) a1b
      = rH1 E U gW gb a1W a1b := by
  funext k d
  unfold kH1 rH1
  rw [kEg_eq_rEg E U hE hU, catAff_eq_splitAff]

/-- Where the node's own row and its neighbours' rows hold real numbers, the two spellings give one result. -/
theorem kOut_eq_rOut (hE : ∀ k e, ∃ r : ℝ, E k e = (r : EReal)) (hU : ∀ e, ∃ r : ℝ, U e = (r : EReal))
    (gW : Fin 512 → Fin 256 → EReal) (gb : Fin 256 → EReal) (a1W : Fin 512 → Fin 256 → EReal)
    (a1b : Fin 256 → EReal) (a2W : Fin 256 → Fin 256 → EReal) (a2b a3W : Fin 256 → EReal) (a3b : EReal) (d : Fin 256) :
    kOut E U (fun e d => gW (lo e) d) (fun e d => gW (hi e) d) gb (fun e d => a1W (lo e) d) (fun e d => a1W (hi e) d) a1b
        a2W a2b a3W a3b d
      = rOut E U gW gb a1W a1b a2W a2b a3W a3b d := by
  unfold kOut rOut
  rw [kEg_eq_rEg E U hE hU, kH1_eq_rH1 E U hE hU]

end Node

/-! ## The whole arrays -/

/-- The table row a 32-bit index word names: the word read signed and clamped into [0, 99999]. -/
def rowOf (w : BitVec 32) : Fin 100000 := ⟨min w.toInt.toNat 99999, by omega⟩

section Arrays
variable (nodes : IVec ⟨1, ![4096]⟩ 32) (neighs : IVec ⟨2, ![4096, 64]⟩ 32)
  (u2e : (⟨2, ![100000, 256]⟩ : Shape).Idx → EReal)
  (gate_W : (⟨2, ![512, 256]⟩ : Shape).Idx → EReal) (gate_b : (⟨1, ![256]⟩ : Shape).Idx → EReal)
  (att1_W : (⟨2, ![512, 256]⟩ : Shape).Idx → EReal) (att1_b : (⟨1, ![256]⟩ : Shape).Idx → EReal)
  (att2_W : (⟨2, ![256, 256]⟩ : Shape).Idx → EReal) (att2_b : (⟨1, ![256]⟩ : Shape).Idx → EReal)
  (att3_W : (⟨2, ![256, 1]⟩ : Shape).Idx → EReal) (att3_b : (⟨1, ![1]⟩ : Shape).Idx → EReal)

/-- Node n's neighbour rows, gathered from the table. -/
def Erow (n : Fin 4096) (k : Fin 64) (e : Fin 256) : EReal := u2e (ix2 (rowOf (neighs (ix2 n k))) e)
/-- Node n's own row, gathered from the table. -/
def Urow (n : Fin 4096) (e : Fin 256) : EReal := u2e (ix2 (rowOf (nodes (ix1 n))) e)

/-- The kernel's result array as one function of the argument arrays. -/
def Gk : (⟨2, ![4096, 256]⟩ : Shape).Idx → EReal := fun i =>
  kOut (Erow neighs u2e (i 0)) (Urow nodes u2e (i 0))
    (fun e d => gate_W (ix2 (lo e) d)) (fun e d => gate_W (ix2 (hi e) d)) (fun d => gate_b (ix1 d))
    (fun e d => att1_W (ix2 (lo e) d)) (fun e d => att1_W (ix2 (hi e) d)) (fun d => att1_b (ix1 d))
    (fun e d => att2_W (ix2 e d)) (fun d => att2_b (ix1 d)) (fun d => att3_W (ix2 d 0)) (att3_b (ix1 0)) (i 1)

/-- The reference's result array as one function of the argument arrays. -/
def Gr : (⟨2, ![4096, 256]⟩ : Shape).Idx → EReal := fun i =>
  rOut (Erow neighs u2e (i 0)) (Urow nodes u2e (i 0))
    (fun e d => gate_W (ix2 e d)) (fun d => gate_b (ix1 d))
    (fun e d => att1_W (ix2 e d)) (fun d => att1_b (ix1 d))
    (fun e d => att2_W (ix2 e d)) (fun d => att2_b (ix1 d)) (fun d => att3_W (ix2 d 0)) (att3_b (ix1 0)) (i 1)

/-- Over a table of real numbers the two result arrays are one. -/
theorem Gk_eq_Gr (hfin : ∀ i, ∃ r : ℝ, u2e i = (r : EReal)) :
    Gk nodes neighs u2e gate_W gate_b att1_W att1_b att2_W att2_b att3_W att3_b
      = Gr nodes neighs u2e gate_W gate_b att1_W att1_b att2_W att2_b att3_W att3_b := by
  funext i
  unfold Gk Gr
  exact kOut_eq_rOut (Erow neighs u2e (i 0)) (Urow nodes u2e (i 0)) (fun k e => hfin _) (fun e => hfin _)
    (fun e d => gate_W (ix2 e d)) (fun d => gate_b (ix1 d)) (fun e d => att1_W (ix2 e d)) (fun d => att1_b (ix1 d))
    (fun e d => att2_W (ix2 e d)) (fun d => att2_b (ix1 d)) (fun d => att3_W (ix2 d 0)) (att3_b (ix1 0)) (i 1)

end Arrays

end Cert.Gnn

end
-- ==== Proof.PreFacts.lean ====
/-
  What the precondition says of the inputs: every entry of the embedding table is a real number, and every index
  word of nodes and neighs, read as a signed integer, lies in [0, 100000).
-/
import proofs.«424002_j31069793419779_2_alg».proof.Pre_finite_inputs
import Idealize.ShloMosaic.PureOps.Ideal
import Idealize.ShloMosaic.PureOps.Ideal.Laws
import Idealize.ShloMosaic.Lib.ReduceAll
import Idealize.ShloMosaic.Lib.StableHlo.Predicate
import Idealize.ShloMosaic.Lib.ValueIdx

noncomputable section

namespace Cert.PreFacts

open Idealize.ShloMosaic Cert.Pre_finite_inputs

/-- The scalar shape has one index. -/
instance : Subsingleton S_.Idx := ⟨fun a b => funext fun d => d.elim0⟩

/-- The f32 pattern with exponent all ones and fraction zero denotes +∞. -/
theorem inf_bits : Ideal.ofBits .f32 0x7F800000#32 = (⊤ : EReal) := by
  simp [Ideal.ofBits, Ideal.ieee]

/-- An extended real whose absolute value max x (-x) is strictly below +∞ is a real number: it is neither +∞ nor -∞. -/
theorem real_of_abs_lt (x : EReal) (h : Ideal.cmp .olt (max x (-x)) (Ideal.ofBits .f32 0x7F800000#32) = 1#1) :
    ∃ r : ℝ, x = (r : EReal) := by
  rw [inf_bits] at h
  unfold Ideal.cmp at h
  rw [StableHlo.Predicate.ofBool_eq_one_iff] at h
  simp only [decide_eq_true_eq] at h
  induction x using EReal.rec with
  | bot => simp at h
  | coe r => exact ⟨r, rfl⟩
  | top => simp at h

/-- A word that compares signed ≥ 0 and signed < 100000 has its signed value in [0, 100000). -/
theorem range_of_cmpi (w : BitVec 32) (h0 : IntOp.cmpi .sge w 0#32 = 1#1) (h1 : IntOp.cmpi .slt w 100000#32 = 1#1) :
    0 ≤ w.toInt ∧ w.toInt < 100000 := by
  unfold IntOp.cmpi at h0 h1
  rw [StableHlo.Predicate.ofBool_eq_one_iff] at h0 h1
  simp only [BitVec.sle, BitVec.slt, decide_eq_true_eq] at h0 h1
  have e0 : (0#32 : BitVec 32).toInt = 0 := by decide
  have e1 : (100000#32 : BitVec 32).toInt = 100000 := by decide
  rw [e0] at h0; rw [e1] at h1; exact ⟨h0, h1⟩

/-- The precondition's three consequences the proof uses. -/
theorem of_fn [Cert.Pre_finite_inputs.Facts] (a0 : IVec S4096 32) (a1 : IVec S4096x64 32) (a2 : FVec Ideal S100000x256 .f32)
    (a3 : FVec Ideal S512x256 .f32) (a4 : FVec Ideal S256 .f32) (a5 : FVec Ideal S512x256 .f32) (a6 : FVec Ideal S256 .f32)
    (a7 : FVec Ideal S256x256 .f32) (a8 : FVec Ideal S256 .f32) (a9 : FVec Ideal S256x1 .f32) (a10 : FVec Ideal S1 .f32)
    (h : Cert.Pre_finite_inputs.fn (F := Ideal) a0 a1 a2 a3 a4 a5 a6 a7 a8 a9 a10 = fun _ => 1#1) :
    (∀ i, ∃ r : ℝ, a2 i = (r : EReal))
      ∧ (∀ i, 0 ≤ (a0 i).toInt ∧ (a0 i).toInt < 100000)
      ∧ (∀ i, 0 ≤ (a1 i).toInt ∧ (a1 i).toInt < 100000) := by
  have e := congrFun h ValueIdx.ix0
  dsimp only [fn, fn_part1, fn_part2, fn_part3] at e
  change IntOp.andi _ _ = 1#1 at e
  obtain ⟨e, h56⟩ := IntOp.andi_eq_one.1 e
  change IntOp.andi _ _ = 1#1 at e
  obtain ⟨e, h49⟩ := IntOp.andi_eq_one.1 e
  change IntOp.andi _ _ = 1#1 at e
  obtain ⟨e, -⟩ := IntOp.andi_eq_one.1 e
  change IntOp.andi _ _ = 1#1 at e
  obtain ⟨e, -⟩ := IntOp.andi_eq_one.1 e
  change IntOp.andi _ _ = 1#1 at e
  obtain ⟨e, -⟩ := IntOp.andi_eq_one.1 e
  change IntOp.andi _ _ = 1#1 at e
  obtain ⟨e, -⟩ := IntOp.andi_eq_one.1 e
  change IntOp.andi _ _ = 1#1 at e
  obtain ⟨e, -⟩ := IntOp.andi_eq_one.1 e
  change IntOp.andi _ _ = 1#1 at e
  obtain ⟨e, -⟩ := IntOp.andi_eq_one.1 e
  change IntOp.andi _ _ = 1#1 at e
  obtain ⟨e, -⟩ := IntOp.andi_eq_one.1 e
  change IntOp.andi _ _ = 1#1 at e
  obtain ⟨h3, -⟩ := IntOp.andi_eq_one.1 e
  refine ⟨fun i => ?_, fun i => ?_, fun i => ?_⟩
  · have hi := Host.reduce_andi_all _ _ _ _ _ h3 i
    exact real_of_abs_lt (a2 i) hi
  · have hi := Host.reduce_andi_all _ _ _ _ _ h49 i
    change IntOp.andi _ _ = 1#1 at hi
    obtain ⟨hge, hlt⟩ := IntOp.andi_eq_one.1 hi
    exact range_of_cmpi (a0 i) hge hlt
  · have hi := Host.reduce_andi_all _ _ _ _ _ h56 i
    change IntOp.andi _ _ = 1#1 at hi
    obtain ⟨hge, hlt⟩ := IntOp.andi_eq_one.1 hi
    exact range_of_cmpi (a1 i) hge hlt

end Cert.PreFacts

end
-- ==== Proof.KPay3.lean ====
/-
  The first stage of the kernel body at one entry: the gated neighbour row. Entry (p, k, d) of the body's value
  u + sigmoid(e·We + u·Wu + b)·(e - u) is the gated row of neighbour k of node p of the block.
-/
import proofs.«424002_j31069793419779_2_alg».proof.Proof.Gen.KernelIdeal.Skeleton
import proofs.«424002_j31069793419779_2_alg».proof.Proof.Spec
import Idealize.ShloMosaic.PureOps.Ideal.Laws
import Idealize.ShloMosaic.Lib.Pipeline.Value
import Idealize.ShloMosaic.Lib.ValueIdx
import Idealize.ShloMosaic.Lib.ValueLayout

noncomputable section

open scoped BigOperators

namespace Cert.KernelIdeal.KPay

open Cert.KernelIdeal Cert.KernelIdeal.Gen Idealize.ShloMosaic Idealize.ShloMosaic.ValueIdx Cert.Gnn

namespace Pay3

/-- The left operand's index of the 8192-row product keeps the output row. -/
theorem lhs_nbr_0 (i : S8192x256.Idx) (q : dot_S8192x256_S256x256_S8192x256_1_0_0_1_n_n.contr.Idx) :
    (dot_S8192x256_S256x256_S8192x256_1_0_0_1_n_n.lhsIdx i q 0).val = (i 0).val := by
  unfold DotDims.lhsIdx
  rw [dif_neg (show ¬(0 : Fin S8192x256.rank) ∈ dot_S8192x256_S256x256_S8192x256_1_0_0_1_n_n.lhsBatch by decide), dif_pos (show (0 : Fin S8192x256.rank) ∈ dot_S8192x256_S256x256_S8192x256_1_0_0_1_n_n.lhsNonContracting by decide)]
  rfl
/-- The left operand's index of the 8192-row product takes the summation index as its column. -/
theorem lhs_nbr_1 (i : S8192x256.Idx) (q : dot_S8192x256_S256x256_S8192x256_1_0_0_1_n_n.contr.Idx) :
    (dot_S8192x256_S256x256_S8192x256_1_0_0_1_n_n.lhsIdx i q 1).val = (q ⟨0, by decide⟩).val :=
  dot_S8192x256_S256x256_S8192x256_1_0_0_1_n_n.lhsIdx_val_of_single rfl i q
/-- The right operand's index of the 8192-row product takes the summation index as its row. -/
theorem rhs_nbr_0 (i : S8192x256.Idx) (q : dot_S8192x256_S256x256_S8192x256_1_0_0_1_n_n.contr.Idx) :
    (dot_S8192x256_S256x256_S8192x256_1_0_0_1_n_n.rhsIdx i q 0).val = (q ⟨0, by decide⟩).val :=
  dot_S8192x256_S256x256_S8192x256_1_0_0_1_n_n.rhsIdx_val_of_single rfl i q
/-- The right operand's index of the 8192-row product keeps the output column. -/
theorem rhs_nbr_1 (i : S8192x256.Idx) (q : dot_S8192x256_S256x256_S8192x256_1_0_0_1_n_n.contr.Idx) :
    (dot_S8192x256_S256x256_S8192x256_1_0_0_1_n_n.rhsIdx i q 1).val = (i 1).val := by
  unfold DotDims.rhsIdx
  rw [dif_neg (show ¬(1 : Fin S256x256.rank) ∈ dot_S8192x256_S256x256_S8192x256_1_0_0_1_n_n.rhsBatch by decide), dif_pos (show (1 : Fin S256x256.rank) ∈ dot_S8192x256_S256x256_S8192x256_1_0_0_1_n_n.rhsNonContracting by decide)]
  rfl

/-- The 8192-row product into a zero accumulator at (r, d): the sum over e of A (r, e) · B (e, d). -/
theorem matmul_nbr_apply (A : FVec Ideal S8192x256 .bf16) (B : FVec Ideal S256x256 .bf16) (r : Fin 8192) (d : Fin 256) :
    matmul dot_S8192x256_S256x256_S8192x256_1_0_0_1_n_n none A B (constant (F := Ideal) S8192x256 .f32 0x00000000#32) (ix2 r d)
      = ∑ e : Fin 256, A (ix2 r e) * B (ix2 e d) := by
  simp only [matmul]
  rw [Ideal.matmul_constant_zero_apply, ← Equiv.sum_comp (contrEquiv1 dot_S8192x256_S256x256_S8192x256_1_0_0_1_n_n 256 rfl rfl).symm]
  refine Finset.sum_congr rfl fun e _ => ?_
  have hk := contrEquiv1_symm_val dot_S8192x256_S256x256_S8192x256_1_0_0_1_n_n 256 rfl rfl e
  have el : dot_S8192x256_S256x256_S8192x256_1_0_0_1_n_n.lhsIdx (ix2 r d) ((contrEquiv1 dot_S8192x256_S256x256_S8192x256_1_0_0_1_n_n 256 rfl rfl).symm e) = ix2 r e := funext fun a => Fin.ext (by
    match a with
    | ⟨0, _⟩ => exact lhs_nbr_0 _ _
    | ⟨1, _⟩ => exact (lhs_nbr_1 _ _).trans hk)
  have er : dot_S8192x256_S256x256_S8192x256_1_0_0_1_n_n.rhsIdx (ix2 r d) ((contrEquiv1 dot_S8192x256_S256x256_S8192x256_1_0_0_1_n_n 256 rfl rfl).symm e) = ix2 e d := funext fun a => Fin.ext (by
    match a with
    | ⟨0, _⟩ => exact (rhs_nbr_0 _ _).trans hk
    | ⟨1, _⟩ => exact rhs_nbr_1 _ _)
  rw [el, er]

/-- The left operand's index of the 128-row product keeps the output row. -/
theorem lhs_own_0 (i : S128x256.Idx) (q : dot_S128x256_S256x256_S128x256_1_0_0_1_n_n.contr.Idx) :
    (dot_S128x256_S256x256_S128x256_1_0_0_1_n_n.lhsIdx i q 0).val = (i 0).val := by
  unfold DotDims.lhsIdx
  rw [dif_neg (show ¬(0 : Fin S128x256.rank) ∈ dot_S128x256_S256x256_S128x256_1_0_0_1_n_n.lhsBatch by decide), dif_pos (show (0 : Fin S128x256.rank) ∈ dot_S128x256_S256x256_S128x256_1_0_0_1_n_n.lhsNonContracting by decide)]
  rfl
/-- The left operand's index of the 128-row product takes the summation index as its column. -/
theorem lhs_own_1 (i : S128x256.Idx) (q : dot_S128x256_S256x256_S128x256_1_0_0_1_n_n.contr.Idx) :
    (dot_S128x256_S256x256_S128x256_1_0_0_1_n_n.lhsIdx i q 1).val = (q ⟨0, by decide⟩).val :=
  dot_S128x256_S256x256_S128x256_1_0_0_1_n_n.lhsIdx_val_of_single rfl i q
/-- The right operand's index of the 128-row product takes the summation index as its row. -/
theorem rhs_own_0 (i : S128x256.Idx) (q : dot_S128x256_S256x256_S128x256_1_0_0_1_n_n.contr.Idx) :
    (dot_S128x256_S256x256_S128x256_1_0_0_1_n_n.rhsIdx i q 0).val = (q ⟨0, by decide⟩).val :=
  dot_S128x256_S256x256_S128x256_1_0_0_1_n_n.rhsIdx_val_of_single rfl i q
/-- The right operand's index of the 128-row product keeps the output column. -/
theorem rhs_own_1 (i : S128x256.Idx) (q : dot_S128x256_S256x256_S128x256_1_0_0_1_n_n.contr.Idx) :
    (dot_S128x256_S256x256_S128x256_1_0_0_1_n_n.rhsIdx i q 1).val = (i 1).val := by
  unfold DotDims.rhsIdx
  rw [dif_neg (show ¬(1 : Fin S256x256.rank) ∈ dot_S128x256_S256x256_S128x256_1_0_0_1_n_n.rhsBatch by decide), dif_pos (show (1 : Fin S256x256.rank) ∈ dot_S128x256_S256x256_S128x256_1_0_0_1_n_n.rhsNonContracting by decide)]
  rfl

/-- The 128-row product into a zero accumulator at (r, d): the sum over e of A (r, e) · B (e, d). -/
theorem matmul_own_apply (A : FVec Ideal S128x256 .bf16) (B : FVec Ideal S256x256 .bf16) (r : Fin 128) (d : Fin 256) :
    matmul dot_S128x256_S256x256_S128x256_1_0_0_1_n_n none A B (constant (F := Ideal) S128x256 .f32 0x00000000#32) (ix2 r d)
      = ∑ e : Fin 256, A (ix2 r e) * B (ix2 e d) := by
  simp only [matmul]
  rw [Ideal.matmul_constant_zero_apply, ← Equiv.sum_comp (contrEquiv1 dot_S128x256_S256x256_S128x256_1_0_0_1_n_n 256 rfl rfl).symm]
  refine Finset.sum_congr rfl fun e _ => ?_
  have hk := contrEquiv1_symm_val dot_S128x256_S256x256_S128x256_1_0_0_1_n_n 256 rfl rfl e
  have el : dot_S128x256_S256x256_S128x256_1_0_0_1_n_n.lhsIdx (ix2 r d) ((contrEquiv1 dot_S128x256_S256x256_S128x256_1_0_0_1_n_n 256 rfl rfl).symm e) = ix2 r e := funext fun a => Fin.ext (by
    match a with
    | ⟨0, _⟩ => exact lhs_own_0 _ _
    | ⟨1, _⟩ => exact (lhs_own_1 _ _).trans hk)
  have er : dot_S128x256_S256x256_S128x256_1_0_0_1_n_n.rhsIdx (ix2 r d) ((contrEquiv1 dot_S128x256_S256x256_S128x256_1_0_0_1_n_n 256 rfl rfl).symm e) = ix2 e d := funext fun a => Fin.ext (by
    match a with
    | ⟨0, _⟩ => exact (rhs_own_0 _ _).trans hk
    | ⟨1, _⟩ => exact rhs_own_1 _ _)
  rw [el, er]

/-- Entry (p, k, d) of the [8192, 256] rows viewed [128, 64, 256] is entry (64·p + k, d): the view is row-major. -/
theorem cast_rows_to_cube {α : Type} (v : S8192x256.Idx → α) (h : S8192x256.ShapeCasts S128x64x256)
    (p : Fin 128) (k : Fin 64) (d : Fin 256) :
    shapeCast S128x64x256 v h (ix3 p k d) = v (ix2 (⟨64 * p.val + k.val, by omega⟩ : Fin 8192) d) := by
  refine shapeCast_apply v h _ _ ?_
  rw [Shape.rowMajor_val_two, Shape.rowMajor_val_three]
  show (64 * p.val + k.val) * 256 + d.val = (p.val * 64 + k.val) * 256 + d.val
  omega

/-- Entry (64·p + k, e) of the [128, 64, 256] array viewed as [8192, 256] rows is entry (p, k, e). -/
theorem cast_cube_to_rows {α : Type} (v : S128x64x256.Idx → α) (h : S128x64x256.ShapeCasts S8192x256)
    (p : Fin 128) (k : Fin 64) (e : Fin 256) :
    shapeCast S8192x256 v h (ix2 (⟨64 * p.val + k.val, by omega⟩ : Fin 8192) e) = v (ix3 p k e) := by
  refine shapeCast_apply v h _ _ ?_
  rw [Shape.rowMajor_val_two, Shape.rowMajor_val_three]
  show (p.val * 64 + k.val) * 256 + e.val = (64 * p.val + k.val) * 256 + e.val
  omega

/-- Entry (p, 0, d) of a [128, 256] array viewed [128, 1, 256] is entry (p, d). -/
theorem cast_row_to_unit {α : Type} (v : S128x256.Idx → α) (h : S128x256.ShapeCasts S128x1x256)
    (p : Fin 128) (d : Fin 256) :
    shapeCast S128x1x256 v h (ix3 p (0 : Fin 1) d) = v (ix2 p d) := by
  refine shapeCast_apply v h _ _ ?_
  rw [Shape.rowMajor_val_two, Shape.rowMajor_val_three]
  show p.val * 256 + d.val = (p.val * 1 + 0) * 256 + d.val
  omega

/-- A [128, 1, 256] array repeated along 64 neighbours: entry (p, k, d) is entry (p, 0, d). -/
theorem bcast_unit_to_cube {α : Type} (v : S128x1x256.Idx → α) (h : S128x1x256.Broadcasts S128x64x256)
    (p : Fin 128) (k : Fin 64) (d : Fin 256) :
    broadcastTo S128x64x256 v h (ix3 p k d) = v (ix3 p (0 : Fin 1) d) := by
  refine broadcastTo_apply v h _ _ (fun a => ?_)
  match a with
  | ⟨0, _⟩ => show p.val = if (128 : Nat) = 1 then 0 else p.val; rw [if_neg (by decide)]
  | ⟨1, _⟩ => show (0 : Nat) = if (1 : Nat) = 1 then 0 else k.val; rw [if_pos rfl]
  | ⟨2, _⟩ => show d.val = if (256 : Nat) = 1 then 0 else d.val; rw [if_neg (by decide)]

/-- Entry (0, 0, d) of a [1, 256] row viewed [1, 1, 256] is entry (0, d). -/
theorem cast_bias_to_unit {α : Type} (v : S1x256.Idx → α) (h : S1x256.ShapeCasts S1x1x256) (d : Fin 256) :
    shapeCast S1x1x256 v h (ix3 (0 : Fin 1) (0 : Fin 1) d) = v (ix2 (0 : Fin 1) d) := by
  refine shapeCast_apply v h _ _ ?_
  rw [Shape.rowMajor_val_two, Shape.rowMajor_val_three]
  show 0 * 256 + d.val = (0 * 1 + 0) * 256 + d.val
  omega

/-- A [1, 1, 256] row repeated over nodes and neighbours: entry (p, k, d) is entry (0, 0, d). -/
theorem bcast_bias_to_cube {α : Type} (v : S1x1x256.Idx → α) (h : S1x1x256.Broadcasts S128x64x256)
    (p : Fin 128) (k : Fin 64) (d : Fin 256) :
    broadcastTo S128x64x256 v h (ix3 p k d) = v (ix3 (0 : Fin 1) (0 : Fin 1) d) := by
  refine broadcastTo_apply v h _ _ (fun a => ?_)
  match a with
  | ⟨0, _⟩ => show (0 : Nat) = if (1 : Nat) = 1 then 0 else p.val; rw [if_pos rfl]
  | ⟨1, _⟩ => show (0 : Nat) = if (1 : Nat) = 1 then 0 else k.val; rw [if_pos rfl]
  | ⟨2, _⟩ => show d.val = if (256 : Nat) = 1 then 0 else d.val; rw [if_neg (by decide)]

/-- The logistic of a vector at an entry is the logistic of the entry. -/
theorem logistic_apply {s : Shape} {φ : FTy} (v : FVec Ideal s φ) (i : s.Idx) : logistic v i = Ideal.logistic (v i) := rfl

end Pay3

open Pay3

/-- The gated neighbour rows the body computes, at (p, k, d). -/
theorem pay3_apply (x0 : FVec Ideal S128x64x256 .bf16) (x1 : FVec Ideal S128x256 .bf16) (x2 x3 : FVec Ideal S256x256 .bf16)
    (x4 : FVec Ideal S1x256 .f32) (p : Fin 128) (k : Fin 64) (d : Fin 256) :
    k0_pay3 (F := Ideal) x0 x1 x2 x3 x4 (ix3 p k d)
      = kEg (fun k e => x0 (ix3 p k e)) (fun e => x1 (ix2 p e))
          (fun e d => x2 (ix2 e d)) (fun e d => x3 (ix2 e d)) (fun d => x4 (ix2 0 d)) k d := by
  unfold kEg splitAff k0_pay3 k0_pay2
  simp only [shapeCast_self, addf_apply, mulf_apply, subf_apply, extf_apply, logistic_apply,
    bcast_unit_to_cube, bcast_bias_to_cube, cast_row_to_unit, cast_bias_to_unit, cast_rows_to_cube,
    matmul_nbr_apply, matmul_own_apply, cast_cube_to_rows]

end Cert.KernelIdeal.KPay

end
-- ==== Proof.KPay45.lean ====
/-
  The two matrix products of the first attention layer at one entry: the gated rows times the first half of the
  weights, and the node's own row times the second half.
-/
import proofs.«424002_j31069793419779_2_alg».proof.Proof.Gen.KernelIdeal.Skeleton
import proofs.«424002_j31069793419779_2_alg».proof.Proof.Spec
import Idealize.ShloMosaic.PureOps.Ideal.Laws
import Idealize.ShloMosaic.Lib.Pipeline.Value
import Idealize.ShloMosaic.Lib.ValueIdx
import Idealize.ShloMosaic.Lib.ValueLayout

noncomputable section

open scoped BigOperators

namespace Cert.KernelIdeal.KPay

open Cert.KernelIdeal Cert.KernelIdeal.Gen Idealize.ShloMosaic Idealize.ShloMosaic.ValueIdx Cert.Gnn

/-- The left operand's row is the result's row. -/
theorem lhs_big_0 (i : S8192x256.Idx) (q : dot_S8192x256_S256x256_S8192x256_1_0_0_1_n_n.contr.Idx) :
    (dot_S8192x256_S256x256_S8192x256_1_0_0_1_n_n.lhsIdx i q 0).val = (i 0).val := by
  unfold DotDims.lhsIdx
  rw [dif_neg (show ¬(0 : Fin S8192x256.rank) ∈ dot_S8192x256_S256x256_S8192x256_1_0_0_1_n_n.lhsBatch by decide), dif_pos (show (0 : Fin S8192x256.rank) ∈ dot_S8192x256_S256x256_S8192x256_1_0_0_1_n_n.lhsNonContracting by decide)]
  rfl
/-- The left operand's column is the contraction position. -/
theorem lhs_big_1 (i : S8192x256.Idx) (q : dot_S8192x256_S256x256_S8192x256_1_0_0_1_n_n.contr.Idx) :
    (dot_S8192x256_S256x256_S8192x256_1_0_0_1_n_n.lhsIdx i q 1).val = (q ⟨0, by decide⟩).val :=
  dot_S8192x256_S256x256_S8192x256_1_0_0_1_n_n.lhsIdx_val_of_single rfl i q
/-- The right operand's row is the contraction position. -/
theorem rhs_big_0 (i : S8192x256.Idx) (q : dot_S8192x256_S256x256_S8192x256_1_0_0_1_n_n.contr.Idx) :
    (dot_S8192x256_S256x256_S8192x256_1_0_0_1_n_n.rhsIdx i q 0).val = (q ⟨0, by decide⟩).val :=
  dot_S8192x256_S256x256_S8192x256_1_0_0_1_n_n.rhsIdx_val_of_single rfl i q
/-- The right operand's column is the result's column. -/
theorem rhs_big_1 (i : S8192x256.Idx) (q : dot_S8192x256_S256x256_S8192x256_1_0_0_1_n_n.contr.Idx) :
    (dot_S8192x256_S256x256_S8192x256_1_0_0_1_n_n.rhsIdx i q 1).val = (i 1).val := by
  unfold DotDims.rhsIdx
  rw [dif_neg (show ¬(1 : Fin S256x256.rank) ∈ dot_S8192x256_S256x256_S8192x256_1_0_0_1_n_n.rhsBatch by decide), dif_pos (show (1 : Fin S256x256.rank) ∈ dot_S8192x256_S256x256_S8192x256_1_0_0_1_n_n.rhsNonContracting by decide)]
  rfl

/-- The product into a zero accumulator at (r, d): the sum over the shared axis. -/
theorem matmul_big_apply (a : FVec Ideal S8192x256 .bf16) (b : FVec Ideal S256x256 .bf16) (r : Fin 8192) (d : Fin 256) :
    matmul dot_S8192x256_S256x256_S8192x256_1_0_0_1_n_n none a b (constant S8192x256 .f32 0x00000000#32) (ix2 r d) = ∑ e : Fin 256, a (ix2 r e) * b (ix2 e d) := by
  show FloatOps.matmul dot_S8192x256_S256x256_S8192x256_1_0_0_1_n_n none a b (constant (F := Ideal) _ .f32 0x00000000#32) (ix2 r d) = _
  rw [Ideal.matmul_constant_zero_apply, ← Equiv.sum_comp (contrEquiv1 dot_S8192x256_S256x256_S8192x256_1_0_0_1_n_n 256 rfl rfl).symm]
  refine Finset.sum_congr rfl fun e _ => ?_
  have hk := contrEquiv1_symm_val dot_S8192x256_S256x256_S8192x256_1_0_0_1_n_n 256 rfl rfl e
  have el : dot_S8192x256_S256x256_S8192x256_1_0_0_1_n_n.lhsIdx (ix2 r d) ((contrEquiv1 dot_S8192x256_S256x256_S8192x256_1_0_0_1_n_n 256 rfl rfl).symm e) = ix2 r e := funext fun ax => Fin.ext (by
    match ax with
    | ⟨0, _⟩ => exact lhs_big_0 _ _
    | ⟨1, _⟩ => exact (lhs_big_1 _ _).trans hk)
  have er : dot_S8192x256_S256x256_S8192x256_1_0_0_1_n_n.rhsIdx (ix2 r d) ((contrEquiv1 dot_S8192x256_S256x256_S8192x256_1_0_0_1_n_n 256 rfl rfl).symm e) = ix2 e d := funext fun ax => Fin.ext (by
    match ax with
    | ⟨0, _⟩ => exact (rhs_big_0 _ _).trans hk
    | ⟨1, _⟩ => exact rhs_big_1 _ _)
  rw [el, er]

/-- The left operand's row is the result's row. -/
theorem lhs_small_0 (i : S128x256.Idx) (q : dot_S128x256_S256x256_S128x256_1_0_0_1_n_n.contr.Idx) :
    (dot_S128x256_S256x256_S128x256_1_0_0_1_n_n.lhsIdx i q 0).val = (i 0).val := by
  unfold DotDims.lhsIdx
  rw [dif_neg (show ¬(0 : Fin S128x256.rank) ∈ dot_S128x256_S256x256_S128x256_1_0_0_1_n_n.lhsBatch by decide), dif_pos (show (0 : Fin S128x256.rank) ∈ dot_S128x256_S256x256_S128x256_1_0_0_1_n_n.lhsNonContracting by decide)]
  rfl
/-- The left operand's column is the contraction position. -/
theorem lhs_small_1 (i : S128x256.Idx) (q : dot_S128x256_S256x256_S128x256_1_0_0_1_n_n.contr.Idx) :
    (dot_S128x256_S256x256_S128x256_1_0_0_1_n_n.lhsIdx i q 1).val = (q ⟨0, by decide⟩).val :=
  dot_S128x256_S256x256_S128x256_1_0_0_1_n_n.lhsIdx_val_of_single rfl i q
/-- The right operand's row is the contraction position. -/
theorem rhs_small_0 (i : S128x256.Idx) (q : dot_S128x256_S256x256_S128x256_1_0_0_1_n_n.contr.Idx) :
    (dot_S128x256_S256x256_S128x256_1_0_0_1_n_n.rhsIdx i q 0).val = (q ⟨0, by decide⟩).val :=
  dot_S128x256_S256x256_S128x256_1_0_0_1_n_n.rhsIdx_val_of_single rfl i q
/-- The right operand's column is the result's column. -/
theorem rhs_small_1 (i : S128x256.Idx) (q : dot_S128x256_S256x256_S128x256_1_0_0_1_n_n.contr.Idx) :
    (dot_S128x256_S256x256_S128x256_1_0_0_1_n_n.rhsIdx i q 1).val = (i 1).val := by
  unfold DotDims.rhsIdx
  rw [dif_neg (show ¬(1 : Fin S256x256.rank) ∈ dot_S128x256_S256x256_S128x256_1_0_0_1_n_n.rhsBatch by decide), dif_pos (show (1 : Fin S256x256.rank) ∈ dot_S128x256_S256x256_S128x256_1_0_0_1_n_n.rhsNonContracting by decide)]
  rfl

/-- The product into a zero accumulator at (r, d): the sum over the shared axis. -/
theorem matmul_small_apply (a : FVec Ideal S128x256 .bf16) (b : FVec Ideal S256x256 .bf16) (r : Fin 128) (d : Fin 256) :
    matmul dot_S128x256_S256x256_S128x256_1_0_0_1_n_n none a b (constant S128x256 .f32 0x00000000#32) (ix2 r d) = ∑ e : Fin 256, a (ix2 r e) * b (ix2 e d) := by
  show FloatOps.matmul dot_S128x256_S256x256_S128x256_1_0_0_1_n_n none a b (constant (F := Ideal) _ .f32 0x00000000#32) (ix2 r d) = _
  rw [Ideal.matmul_constant_zero_apply, ← Equiv.sum_comp (contrEquiv1 dot_S128x256_S256x256_S128x256_1_0_0_1_n_n 256 rfl rfl).symm]
  refine Finset.sum_congr rfl fun e _ => ?_
  have hk := contrEquiv1_symm_val dot_S128x256_S256x256_S128x256_1_0_0_1_n_n 256 rfl rfl e
  have el : dot_S128x256_S256x256_S128x256_1_0_0_1_n_n.lhsIdx (ix2 r d) ((contrEquiv1 dot_S128x256_S256x256_S128x256_1_0_0_1_n_n 256 rfl rfl).symm e) = ix2 r e := funext fun ax => Fin.ext (by
    match ax with
    | ⟨0, _⟩ => exact lhs_small_0 _ _
    | ⟨1, _⟩ => exact (lhs_small_1 _ _).trans hk)
  have er : dot_S128x256_S256x256_S128x256_1_0_0_1_n_n.rhsIdx (ix2 r d) ((contrEquiv1 dot_S128x256_S256x256_S128x256_1_0_0_1_n_n 256 rfl rfl).symm e) = ix2 e d := funext fun ax => Fin.ext (by
    match ax with
    | ⟨0, _⟩ => exact (rhs_small_0 _ _).trans hk
    | ⟨1, _⟩ => exact rhs_small_1 _ _)
  rw [el, er]

/-- Row 64 p + k of the flattened array: node p's k-th neighbour. -/
def flatRow (p : Fin 128) (k : Fin 64) : Fin 8192 := ⟨64 * p.val + k.val, by have := p.isLt; have := k.isLt; omega⟩

/-- The [128,64,256] array read as [8192,256] has at row 64 p + k what the array has at (p, k). -/
theorem flatten_apply {φ : FTy} (y : FVec Ideal S128x64x256 φ) (h : S128x64x256.ShapeCasts S8192x256)
    (p : Fin 128) (k : Fin 64) (e : Fin 256) :
    shapeCast S8192x256 y h (ix2 (flatRow p k) e) = y (ix3 p k e) :=
  shapeCast_apply y h _ _ (by
    rw [Shape.rowMajor_val_three, Shape.rowMajor_val_two]
    show (p.val * 64 + k.val) * 256 + e.val = (64 * p.val + k.val) * 256 + e.val
    omega)

/-- The [8192,256] array read as [128,64,256] has at (p, k) what the array has at row 64 p + k. -/
theorem unflatten_apply {φ : FTy} (z : FVec Ideal S8192x256 φ) (h : S8192x256.ShapeCasts S128x64x256)
    (p : Fin 128) (k : Fin 64) (d : Fin 256) :
    shapeCast S128x64x256 z h (ix3 p k d) = z (ix2 (flatRow p k) d) :=
  shapeCast_apply z h _ _ (by
    rw [Shape.rowMajor_val_two, Shape.rowMajor_val_three]
    show (64 * p.val + k.val) * 256 + d.val = (p.val * 64 + k.val) * 256 + d.val
    omega)

/-- Any [128,64,256] array, narrowed, flattened, multiplied by a [256,256] matrix into zero and unflattened: at
    (p, k, d) the sum over e of the array at (p, k, e) times the matrix at (e, d). -/
theorem rows_product_apply (y : FVec Ideal S128x64x256 .f32) (w : FVec Ideal S256x256 .bf16)
    (p : Fin 128) (k : Fin 64) (d : Fin 256) :
    shapeCast S128x64x256
      (matmul dot_S8192x256_S256x256_S8192x256_1_0_0_1_n_n none
        (shapeCast S8192x256 (truncf .bf16 y bitsLt_bf16_f32) shapeCasts_S128x64x256_S8192x256)
        (shapeCast S256x256 w shapeCasts_S256x256_S256x256)
        (constant (F := Ideal) S8192x256 .f32 0x00000000#32))
      shapeCasts_S8192x256_S128x64x256 (ix3 p k d)
    = ∑ e : Fin 256, y (ix3 p k e) * w (ix2 e d) := by
  rw [unflatten_apply, matmul_big_apply, shapeCast_self]
  refine Finset.sum_congr rfl fun e _ => ?_
  rw [flatten_apply, truncf_apply]

/-- The gated rows times the neighbour half of the first attention weights, at (p, k, d). -/
theorem pay4_apply (x0 : FVec Ideal S128x64x256 .bf16) (x1 : FVec Ideal S128x256 .bf16) (x2 x3 : FVec Ideal S256x256 .bf16)
    (x4 : FVec Ideal S1x256 .f32) (x5 : FVec Ideal S256x256 .bf16) (p : Fin 128) (k : Fin 64) (d : Fin 256) :
    k0_pay4 (F := Ideal) x0 x1 x2 x3 x4 x5 (ix3 p k d)
      = ∑ e : Fin 256, k0_pay3 (F := Ideal) x0 x1 x2 x3 x4 (ix3 p k e) * x5 (ix2 e d) := by
  unfold k0_pay4
  exact rows_product_apply (k0_pay3 (F := Ideal) x0 x1 x2 x3 x4) x5 p k d

/-- The node's own row times the own-row half of the first attention weights, at (p, d). -/
theorem pay5_apply (x1 : FVec Ideal S128x256 .bf16) (x6 : FVec Ideal S256x256 .bf16) (p : Fin 128) (d : Fin 256) :
    k0_pay5 (F := Ideal) x1 x6 (ix2 p d) = ∑ e : Fin 256, x1 (ix2 p e) * x6 (ix2 e d) := by
  unfold k0_pay5 k0_pay2
  show matmul dot_S128x256_S256x256_S128x256_1_0_0_1_n_n none (shapeCast S128x256 x1 shapeCasts_S128x256_S128x256)
      (shapeCast S256x256 x6 shapeCasts_S256x256_S256x256) (constant (F := Ideal) S128x256 .f32 0x00000000#32) (ix2 p d) = _
  rw [matmul_small_apply, shapeCast_self, shapeCast_self]

end Cert.KernelIdeal.KPay

end
-- ==== Proof.KPay6.lean ====
/-
  The rest of the kernel body at one entry: the two rectified layers, the read-out score, the softmax over the 64
  neighbours and the weighting of the gated rows; and the final sum over the neighbours.
-/
import proofs.«424002_j31069793419779_2_alg».proof.Proof.Gen.KernelIdeal.Skeleton
import proofs.«424002_j31069793419779_2_alg».proof.Proof.Spec
import Idealize.ShloMosaic.PureOps.Ideal.Laws
import Idealize.ShloMosaic.Lib.Pipeline.Value
import Idealize.ShloMosaic.Lib.ValueIdx
import Idealize.ShloMosaic.Lib.ValueLayout

noncomputable section

open scoped BigOperators

namespace Cert.KernelIdeal.KPay

open Cert.KernelIdeal Cert.KernelIdeal.Gen Idealize.ShloMosaic Idealize.ShloMosaic.ValueIdx Cert.Gnn

variable {φ : FTy}

/-- A [128,1,256] array repeated along the neighbours reads its one row. -/
theorem p6_bc_p1d (v : FVec Ideal S128x1x256 φ) (h : S128x1x256.Broadcasts S128x64x256) (p : Fin 128) (k : Fin 64) (d : Fin 256) :
    broadcastTo S128x64x256 v h (ix3 p k d) = v (ix3 p (0 : Fin 1) d) :=
  broadcastTo_apply v h (ix3 p k d) (ix3 p (0 : Fin 1) d) fun ax => match ax with
    | ⟨0, _⟩ => rfl
    | ⟨1, _⟩ => rfl
    | ⟨2, _⟩ => rfl

/-- A [1,1,256] row repeated over nodes and neighbours reads the row. -/
theorem p6_bc_11d (v : FVec Ideal S1x1x256 φ) (h : S1x1x256.Broadcasts S128x64x256) (p : Fin 128) (k : Fin 64) (d : Fin 256) :
    broadcastTo S128x64x256 v h (ix3 p k d) = v (ix3 (0 : Fin 1) (0 : Fin 1) d) :=
  broadcastTo_apply v h (ix3 p k d) (ix3 (0 : Fin 1) (0 : Fin 1) d) fun ax => match ax with
    | ⟨0, _⟩ => rfl
    | ⟨1, _⟩ => rfl
    | ⟨2, _⟩ => rfl

/-- A [128,64,1] column repeated along the last axis reads the column. -/
theorem p6_bc_pk1 (v : FVec Ideal S128x64x1 φ) (h : S128x64x1.Broadcasts S128x64x256) (p : Fin 128) (k : Fin 64) (d : Fin 256) :
    broadcastTo S128x64x256 v h (ix3 p k d) = v (ix3 p k (0 : Fin 1)) :=
  broadcastTo_apply v h (ix3 p k d) (ix3 p k (0 : Fin 1)) fun ax => match ax with
    | ⟨0, _⟩ => rfl
    | ⟨1, _⟩ => rfl
    | ⟨2, _⟩ => rfl

/-- A single number repeated over nodes and neighbours reads the number. -/
theorem p6_bc_111 (v : FVec Ideal S1x1x1 φ) (h : S1x1x1.Broadcasts S128x64x1) (p : Fin 128) (k : Fin 64) (u : Fin 1) :
    broadcastTo S128x64x1 v h (ix3 p k u) = v (ix3 (0 : Fin 1) (0 : Fin 1) (0 : Fin 1)) :=
  broadcastTo_apply v h (ix3 p k u) (ix3 (0 : Fin 1) (0 : Fin 1) (0 : Fin 1)) fun ax => match ax with
    | ⟨0, _⟩ => rfl
    | ⟨1, _⟩ => rfl
    | ⟨2, _⟩ => rfl

/-- A per-node number repeated over the neighbours reads the node's number. -/
theorem p6_bc_p11 (v : FVec Ideal S128x1x1 φ) (h : S128x1x1.Broadcasts S128x64x1) (p : Fin 128) (k : Fin 64) (u : Fin 1) :
    broadcastTo S128x64x1 v h (ix3 p k u) = v (ix3 p (0 : Fin 1) (0 : Fin 1)) :=
  broadcastTo_apply v h (ix3 p k u) (ix3 p (0 : Fin 1) (0 : Fin 1)) fun ax => match ax with
    | ⟨0, _⟩ => rfl
    | ⟨1, _⟩ => rfl
    | ⟨2, _⟩ => rfl

/-- Row 64 p + k of the flattened array: neighbour k of node p. -/
def p6_row (p : Fin 128) (k : Fin 64) : Fin 8192 := ⟨64 * p.val + k.val, by have := p.isLt; have := k.isLt; omega⟩

/-- Flattening [128,64,256] to [8192,256] is row-major: row 64 p + k holds (p, k). -/
theorem p6_flat (v : FVec Ideal S128x64x256 φ) (h : S128x64x256.ShapeCasts S8192x256) (p : Fin 128) (k : Fin 64) (d : Fin 256) :
    shapeCast S8192x256 v h (ix2 (p6_row p k) d) = v (ix3 p k d) :=
  shapeCast_apply v h _ _ (by
    rw [Shape.rowMajor_val_three, Shape.rowMajor_val_two]
    show (p.val * 64 + k.val) * 256 + d.val = (64 * p.val + k.val) * 256 + d.val
    omega)

/-- And back: (p, k) of the unflattened array is row 64 p + k. -/
theorem p6_unflat (w : FVec Ideal S8192x256 φ) (h : S8192x256.ShapeCasts S128x64x256) (p : Fin 128) (k : Fin 64) (d : Fin 256) :
    shapeCast S128x64x256 w h (ix3 p k d) = w (ix2 (p6_row p k) d) :=
  shapeCast_apply w h _ _ (by
    rw [Shape.rowMajor_val_three, Shape.rowMajor_val_two]
    show (64 * p.val + k.val) * 256 + d.val = (p.val * 64 + k.val) * 256 + d.val
    omega)

/-- A unit middle axis added to a [128,256] array. -/
theorem p6_sc_pd_p1d (v : FVec Ideal S128x256 φ) (h : S128x256.ShapeCasts S128x1x256) (p : Fin 128) (u : Fin 1) (d : Fin 256) :
    shapeCast S128x1x256 v h (ix3 p u d) = v (ix2 p d) :=
  shapeCast_apply v h _ _ (by
    have hu : u.val = 0 := by omega
    rw [Shape.rowMajor_val_three, Shape.rowMajor_val_two]
    show p.val * 256 + d.val = (p.val * 1 + u.val) * 256 + d.val
    omega)

/-- A unit leading axis added to a [1,256] row. -/
theorem p6_sc_1d_11d (v : FVec Ideal S1x256 φ) (h : S1x256.ShapeCasts S1x1x256) (u u' : Fin 1) (d : Fin 256) :
    shapeCast S1x1x256 v h (ix3 u u' d) = v (ix2 (0 : Fin 1) d) :=
  shapeCast_apply v h _ _ (by
    have hu : u.val = 0 := by omega
    have hu' : u'.val = 0 := by omega
    rw [Shape.rowMajor_val_three, Shape.rowMajor_val_two]
    show 0 * 256 + d.val = (u.val * 1 + u'.val) * 256 + d.val
    omega)

/-- A [256,1] column read as a [1,1,256] row. -/
theorem p6_sc_d1_11d (v : FVec Ideal S256x1 φ) (h : S256x1.ShapeCasts S1x1x256) (u u' : Fin 1) (d : Fin 256) :
    shapeCast S1x1x256 v h (ix3 u u' d) = v (ix2 d (0 : Fin 1)) :=
  shapeCast_apply v h _ _ (by
    have hu : u.val = 0 := by omega
    have hu' : u'.val = 0 := by omega
    rw [Shape.rowMajor_val_three, Shape.rowMajor_val_two]
    show d.val * 1 + 0 = (u.val * 1 + u'.val) * 256 + d.val
    omega)

/-- A unit axis added to a single number. -/
theorem p6_sc_11_111 (v : FVec Ideal S1x1 φ) (h : S1x1.ShapeCasts S1x1x1) (a b c : Fin 1) :
    shapeCast S1x1x1 v h (ix3 a b c) = v (ix2 (0 : Fin 1) (0 : Fin 1)) :=
  shapeCast_apply v h _ _ (by
    have ha : a.val = 0 := by omega
    have hb : b.val = 0 := by omega
    have hc : c.val = 0 := by omega
    rw [Shape.rowMajor_val_three, Shape.rowMajor_val_two]
    show 0 * 1 + 0 = (a.val * 1 + b.val) * 1 + c.val
    omega)

/-- A unit last axis added to a [128,64] array. -/
theorem p6_sc_pk_pk1 (v : FVec Ideal S128x64 φ) (h : S128x64.ShapeCasts S128x64x1) (p : Fin 128) (k : Fin 64) (u : Fin 1) :
    shapeCast S128x64x1 v h (ix3 p k u) = v (ix2 p k) :=
  shapeCast_apply v h _ _ (by
    have hu : u.val = 0 := by omega
    rw [Shape.rowMajor_val_three, Shape.rowMajor_val_two]
    show p.val * 64 + k.val = (p.val * 64 + k.val) * 1 + u.val
    omega)

/-- A unit last axis added to a [128,1] column. -/
theorem p6_sc_p1_p11 (v : FVec Ideal S128x1 φ) (h : S128x1.ShapeCasts S128x1x1) (p : Fin 128) (u u' : Fin 1) :
    shapeCast S128x1x1 v h (ix3 p u u') = v (ix2 p (0 : Fin 1)) :=
  shapeCast_apply v h _ _ (by
    have hu : u.val = 0 := by omega
    have hu' : u'.val = 0 := by omega
    rw [Shape.rowMajor_val_three, Shape.rowMajor_val_two]
    show p.val * 1 + 0 = (p.val * 1 + u.val) * 1 + u'.val
    omega)

/-- The exponential at an index. -/
theorem p6_exp_apply {s : Shape} (a : FVec Ideal s φ) (i : s.Idx) : exp a i = Ideal.exp (a i) := rfl

/-- The repeated constant zero at an index. -/
theorem p6_zero_apply {s : Shape} (i : s.Idx) :
    broadcast s (Scalar.ofBits (F := Ideal) .f32 0x00000000#32) i = (0 : EReal) := by
  show Ideal.ofBits .f32 0x00000000#32 = 0
  exact Ideal.ofBits_zero_f32

/-- The left operand's row is the result's row. -/
theorem p6_lhs_0 (i : S8192x256.Idx) (q : dot_S8192x256_S256x256_S8192x256_1_0_0_1_n_n.contr.Idx) :
    (dot_S8192x256_S256x256_S8192x256_1_0_0_1_n_n.lhsIdx i q 0).val = (i 0).val := by
  unfold DotDims.lhsIdx
  rw [dif_neg (show ¬(0 : Fin S8192x256.rank) ∈ dot_S8192x256_S256x256_S8192x256_1_0_0_1_n_n.lhsBatch by decide), dif_pos (show (0 : Fin S8192x256.rank) ∈ dot_S8192x256_S256x256_S8192x256_1_0_0_1_n_n.lhsNonContracting by decide)]
  rfl
/-- The left operand's column is the summed position. -/
theorem p6_lhs_1 (i : S8192x256.Idx) (q : dot_S8192x256_S256x256_S8192x256_1_0_0_1_n_n.contr.Idx) :
    (dot_S8192x256_S256x256_S8192x256_1_0_0_1_n_n.lhsIdx i q 1).val = (q ⟨0, by decide⟩).val :=
  dot_S8192x256_S256x256_S8192x256_1_0_0_1_n_n.lhsIdx_val_of_single rfl i q
/-- The right operand's row is the summed position. -/
theorem p6_rhs_0 (i : S8192x256.Idx) (q : dot_S8192x256_S256x256_S8192x256_1_0_0_1_n_n.contr.Idx) :
    (dot_S8192x256_S256x256_S8192x256_1_0_0_1_n_n.rhsIdx i q 0).val = (q ⟨0, by decide⟩).val :=
  dot_S8192x256_S256x256_S8192x256_1_0_0_1_n_n.rhsIdx_val_of_single rfl i q
/-- The right operand's column is the result's column. -/
theorem p6_rhs_1 (i : S8192x256.Idx) (q : dot_S8192x256_S256x256_S8192x256_1_0_0_1_n_n.contr.Idx) :
    (dot_S8192x256_S256x256_S8192x256_1_0_0_1_n_n.rhsIdx i q 1).val = (i 1).val := by
  unfold DotDims.rhsIdx
  rw [dif_neg (show ¬(1 : Fin S256x256.rank) ∈ dot_S8192x256_S256x256_S8192x256_1_0_0_1_n_n.rhsBatch by decide), dif_pos (show (1 : Fin S256x256.rank) ∈ dot_S8192x256_S256x256_S8192x256_1_0_0_1_n_n.rhsNonContracting by decide)]
  rfl

/-- The matrix product into a zero accumulator at (r, d): the sum over the shared axis. -/
theorem p6_matmul_apply (a : FVec Ideal S8192x256 .bf16) (b : FVec Ideal S256x256 .bf16) (r : Fin 8192) (d : Fin 256) :
    matmul dot_S8192x256_S256x256_S8192x256_1_0_0_1_n_n none a b (constant S8192x256 .f32 0x00000000#32) (ix2 r d) = ∑ e : Fin 256, a (ix2 r e) * b (ix2 e d) := by
  show FloatOps.matmul dot_S8192x256_S256x256_S8192x256_1_0_0_1_n_n none a b (constant (F := Ideal) _ .f32 0x00000000#32) (ix2 r d) = _
  rw [Ideal.matmul_constant_zero_apply, ← Equiv.sum_comp (contrEquiv1 dot_S8192x256_S256x256_S8192x256_1_0_0_1_n_n 256 rfl rfl).symm]
  refine Finset.sum_congr rfl fun e _ => ?_
  have hk := contrEquiv1_symm_val dot_S8192x256_S256x256_S8192x256_1_0_0_1_n_n 256 rfl rfl e
  have el : dot_S8192x256_S256x256_S8192x256_1_0_0_1_n_n.lhsIdx (ix2 r d) ((contrEquiv1 dot_S8192x256_S256x256_S8192x256_1_0_0_1_n_n 256 rfl rfl).symm e) = ix2 r e := funext fun ax => Fin.ext (by
    match ax with
    | ⟨0, _⟩ => exact p6_lhs_0 _ _
    | ⟨1, _⟩ => exact (p6_lhs_1 _ _).trans hk)
  have er : dot_S8192x256_S256x256_S8192x256_1_0_0_1_n_n.rhsIdx (ix2 r d) ((contrEquiv1 dot_S8192x256_S256x256_S8192x256_1_0_0_1_n_n 256 rfl rfl).symm e) = ix2 e d := funext fun ax => Fin.ext (by
    match ax with
    | ⟨0, _⟩ => exact (p6_rhs_0 _ _).trans hk
    | ⟨1, _⟩ => exact p6_rhs_1 _ _)
  rw [el, er]

/-- The sum over the last axis of a [128,64,256] array, at (p, k). -/
theorem p6_sum_last (v : FVec Ideal S128x64x256 .f32) (h : S128x64x256.Reduces [2] S128x64) (hφ : FKind.Formats .f32)
    (hacc : (0x00000000#32 : BitVec 32) = 0x00000000#32) (p : Fin 128) (k : Fin 64) :
    multiReduction (F := Ideal) .add [2] S128x64 v 0x00000000#32 h hφ hacc (ix2 p k) = ∑ d : Fin 256, v (ix3 p k d) := by
  refine (Ideal.multiReduction_add_single v 0x00000000#32 h hφ hacc (ix2 p k)).trans ?_
  refine Finset.sum_congr rfl fun d _ => congrArg v (funext fun ax => Fin.ext ?_)
  match ax with
  | ⟨0, _⟩ => rfl
  | ⟨1, _⟩ => rfl
  | ⟨2, _⟩ => rfl

/-- The sum over the middle axis of a [128,64,256] array, at (p, d). -/
theorem p6_sum_mid (v : FVec Ideal S128x64x256 .f32) (h : S128x64x256.Reduces [1] S128x256) (hφ : FKind.Formats .f32)
    (hacc : (0x00000000#32 : BitVec 32) = 0x00000000#32) (p : Fin 128) (d : Fin 256) :
    multiReduction (F := Ideal) .add [1] S128x256 v 0x00000000#32 h hφ hacc (ix2 p d) = ∑ k : Fin 64, v (ix3 p k d) := by
  refine (Ideal.multiReduction_add_single v 0x00000000#32 h hφ hacc (ix2 p d)).trans ?_
  refine Finset.sum_congr rfl fun k _ => congrArg v (funext fun ax => Fin.ext ?_)
  match ax with
  | ⟨0, _⟩ => rfl
  | ⟨1, _⟩ => rfl
  | ⟨2, _⟩ => rfl

/-- The sum over the 64 neighbours of a [128,64,1] array, at (p, 0). -/
theorem p6_sum_nb (v : FVec Ideal S128x64x1 .f32) (h : S128x64x1.Reduces [1] S128x1) (hφ : FKind.Formats .f32)
    (hacc : (0x00000000#32 : BitVec 32) = 0x00000000#32) (p : Fin 128) (u : Fin 1) :
    multiReduction (F := Ideal) .add [1] S128x1 v 0x00000000#32 h hφ hacc (ix2 p u) = ∑ k : Fin 64, v (ix3 p k (0 : Fin 1)) := by
  refine (Ideal.multiReduction_add_single v 0x00000000#32 h hφ hacc (ix2 p u)).trans ?_
  refine Finset.sum_congr rfl fun k _ => congrArg v (funext fun ax => Fin.ext ?_)
  match ax with
  | ⟨0, _⟩ => rfl
  | ⟨1, _⟩ => rfl
  | ⟨2, _⟩ => show u.val = 0; omega

/-- The largest over the 64 neighbours of a [128,64,1] array, at (p, 0): the fold of max from -∞. -/
theorem p6_max_nb (v : FVec Ideal S128x64x1 .f32) (h : S128x64x1.Reduces [1] S128x1) (hφ : FKind.Formats .f32)
    (hacc : (0xFF800000#32 : BitVec 32) = 0xFF800000#32) (p : Fin 128) (u : Fin 1) :
    multiReduction (F := Ideal) .maximumf [1] S128x1 v 0xFF800000#32 h hφ hacc (ix2 p u) = top (fun k => v (ix3 p k (0 : Fin 1))) := by
  refine (Ideal.multiReduction_maximumf_single v 0xFF800000#32 h hφ hacc (ix2 p u)).trans ?_
  have hb : (FloatOps.ofBits (F := Ideal) .f32 0xFF800000#32 : EReal) = ⊥ := by
    show Ideal.ofBits .f32 0xFF800000#32 = ⊥
    simp [Ideal.ofBits, Ideal.ieee]
  rw [hb]
  unfold top
  refine congrArg (Finset.fold max ⊥ · (Finset.univ : Finset (Fin 64))) (funext fun k => ?_)
  refine congrArg v (funext fun ax => Fin.ext ?_)
  match ax with
  | ⟨0, _⟩ => rfl
  | ⟨1, _⟩ => rfl
  | ⟨2, _⟩ => show u.val = 0; omega

/-- The first rectified layer at (p, k, e): the two products added, the bias added, the negative part dropped. -/
theorem p6_h1_apply (v36 : FVec Ideal S128x64x256 .f32) (v37 : FVec Ideal S128x256 .f32) (x7 : FVec Ideal S1x256 .f32)
    (hc1 : S128x256.ShapeCasts S128x1x256) (hb1 : S128x1x256.Broadcasts S128x64x256) (hc2 : S1x256.ShapeCasts S1x256)
    (hc3 : S1x256.ShapeCasts S1x1x256) (hb2 : S1x1x256.Broadcasts S128x64x256)
    (p : Fin 128) (k : Fin 64) (e : Fin 256) :
    maximumf (addf (addf v36 (broadcastTo S128x64x256 (shapeCast S128x1x256 v37 hc1) hb1))
        (broadcastTo S128x64x256 (shapeCast S1x1x256 (shapeCast S1x256 x7 hc2) hc3) hb2))
      (broadcast S128x64x256 (Scalar.ofBits (F := Ideal) .f32 0x00000000#32)) (ix3 p k e)
    = max ((v36 (ix3 p k e) + v37 (ix2 p e)) + x7 (ix2 (0 : Fin 1) e)) 0 := by
  rw [maximumf_apply, addf_apply, addf_apply, p6_bc_p1d, p6_sc_pd_p1d, p6_bc_11d, p6_sc_1d_11d, shapeCast_self,
    p6_zero_apply]

/-- The second rectified layer at (p, k, d), for any first-layer rows y: the rows narrowed, flattened, multiplied by the
    weights, unflattened, the bias added, the negative part dropped. -/
theorem p6_h2_apply (y : FVec Ideal S128x64x256 .f32) (x8 : FVec Ideal S256x256 .bf16) (x9 : FVec Ideal S1x256 .f32)
    (hlt : FTy.bits .bf16 < FTy.bits .f32) (hc1 : S128x64x256.ShapeCasts S8192x256) (hc2 : S256x256.ShapeCasts S256x256)
    (hc3 : S8192x256.ShapeCasts S128x64x256) (hc4 : S1x256.ShapeCasts S1x256) (hc5 : S1x256.ShapeCasts S1x1x256)
    (hb : S1x1x256.Broadcasts S128x64x256) (p : Fin 128) (k : Fin 64) (d : Fin 256) :
    maximumf (addf
        (shapeCast S128x64x256
          (matmul dot_S8192x256_S256x256_S8192x256_1_0_0_1_n_n none (shapeCast S8192x256 (truncf .bf16 y hlt) hc1) (shapeCast S256x256 x8 hc2)
            (constant (F := Ideal) S8192x256 .f32 0x00000000#32)) hc3)
        (broadcastTo S128x64x256 (shapeCast S1x1x256 (shapeCast S1x256 x9 hc4) hc5) hb))
      (broadcast S128x64x256 (Scalar.ofBits (F := Ideal) .f32 0x00000000#32)) (ix3 p k d)
    = max ((∑ e : Fin 256, y (ix3 p k e) * x8 (ix2 e d)) + x9 (ix2 (0 : Fin 1) d)) 0 := by
  rw [maximumf_apply, addf_apply, p6_unflat, p6_matmul_apply, p6_bc_11d, p6_sc_1d_11d, shapeCast_self, p6_zero_apply,
    shapeCast_self]
  refine congrArg (fun t => max (t + x9 (ix2 (0 : Fin 1) d)) 0) (Finset.sum_congr rfl fun e _ => ?_)
  rw [p6_flat, truncf_apply]

/-- The read-out at (p, k, 0), for any second-layer rows z: the rows times the read-out column summed over the last
    axis, plus the read-out bias. -/
theorem p6_score_apply (z : FVec Ideal S128x64x256 .f32) (x10 : FVec Ideal S256x1 .f32) (x11 : FVec Ideal S1x1 .f32)
    (hc1 : S256x1.ShapeCasts S1x1x256) (hb1 : S1x1x256.Broadcasts S128x64x256) (hr : S128x64x256.Reduces [2] S128x64)
    (hφ : FKind.Formats .f32) (hacc : (0x00000000#32 : BitVec 32) = 0x00000000#32) (hc2 : S128x64.ShapeCasts S128x64x1)
    (hc3 : S1x1.ShapeCasts S1x1) (hc4 : S1x1.ShapeCasts S1x1x1) (hb2 : S1x1x1.Broadcasts S128x64x1)
    (p : Fin 128) (k : Fin 64) (u : Fin 1) :
    addf
      (shapeCast S128x64x1
        (multiReduction (F := Ideal) .add [2] S128x64 (mulf z (broadcastTo S128x64x256 (shapeCast S1x1x256 x10 hc1) hb1))
          0x00000000#32 hr hφ hacc) hc2)
      (broadcastTo S128x64x1 (shapeCast S1x1x1 (shapeCast S1x1 x11 hc3) hc4) hb2) (ix3 p k u)
    = (∑ d : Fin 256, z (ix3 p k d) * x10 (ix2 d (0 : Fin 1))) + x11 (ix2 (0 : Fin 1) (0 : Fin 1)) := by
  rw [addf_apply, p6_sc_pk_pk1, p6_sum_last, p6_bc_111, p6_sc_11_111, shapeCast_self]
  refine congrArg (fun t => t + x11 (ix2 (0 : Fin 1) (0 : Fin 1))) (Finset.sum_congr rfl fun d _ => ?_)
  rw [mulf_apply, p6_bc_11d, p6_sc_d1_11d]

/-- A score column less its largest entry over the 64 neighbours, at (p, k, 0). -/
theorem p6_shift_apply (sc : FVec Ideal S128x64x1 .f32) (hr : S128x64x1.Reduces [1] S128x1) (hφ : FKind.Formats .f32)
    (hacc : (0xFF800000#32 : BitVec 32) = 0xFF800000#32) (hc : S128x1.ShapeCasts S128x1x1)
    (hb : S128x1x1.Broadcasts S128x64x1) (p : Fin 128) (k : Fin 64) (u : Fin 1) :
    exp (subf sc (broadcastTo S128x64x1
        (shapeCast S128x1x1 (multiReduction (F := Ideal) .maximumf [1] S128x1 sc 0xFF800000#32 hr hφ hacc) hc) hb)) (ix3 p k u)
    = Ideal.exp (sc (ix3 p k u) - top (fun k' => sc (ix3 p k' (0 : Fin 1)))) := by
  rw [p6_exp_apply, subf_apply, p6_bc_p11, p6_sc_p1_p11, p6_max_nb]

/-- The softmax weight over the 64 neighbours, repeated along the last axis, at (p, k, d), for any score column. -/
theorem p6_softmax_apply (sc : FVec Ideal S128x64x1 .f32) (hr : S128x64x1.Reduces [1] S128x1) (hφ : FKind.Formats .f32)
    (hacc : (0xFF800000#32 : BitVec 32) = 0xFF800000#32) (hc : S128x1.ShapeCasts S128x1x1)
    (hb : S128x1x1.Broadcasts S128x64x1) (hφ' : FKind.Formats .f32) (hacc' : (0x00000000#32 : BitVec 32) = 0x00000000#32)
    (hb' : S128x64x1.Broadcasts S128x64x256) (p : Fin 128) (k : Fin 64) (d : Fin 256) :
    broadcastTo S128x64x256
      (divf
        (exp (subf sc (broadcastTo S128x64x1
          (shapeCast S128x1x1 (multiReduction (F := Ideal) .maximumf [1] S128x1 sc 0xFF800000#32 hr hφ hacc) hc) hb)))
        (broadcastTo S128x64x1
          (shapeCast S128x1x1
            (multiReduction (F := Ideal) .add [1] S128x1
              (exp (subf sc (broadcastTo S128x64x1
                (shapeCast S128x1x1 (multiReduction (F := Ideal) .maximumf [1] S128x1 sc 0xFF800000#32 hr hφ hacc) hc) hb)))
              0x00000000#32 hr hφ' hacc') hc) hb)) hb' (ix3 p k d)
    = Ideal.div (Ideal.exp (sc (ix3 p k (0 : Fin 1)) - top (fun k' => sc (ix3 p k' (0 : Fin 1)))))
        (∑ k' : Fin 64, Ideal.exp (sc (ix3 p k' (0 : Fin 1)) - top (fun k'' => sc (ix3 p k'' (0 : Fin 1))))) := by
  rw [p6_bc_pk1, divf_apply, p6_shift_apply, p6_bc_p11, p6_sc_p1_p11, p6_sum_nb]
  refine congrArg (Ideal.div _) (Finset.sum_congr rfl fun k' _ => ?_)
  rw [p6_shift_apply]

/-- A softmax weight depends only on the scores: equal score columns give equal weights. -/
theorem p6_softmax_congr (sc : FVec Ideal S128x64x1 .f32) (s : Fin 64 → EReal) (p : Fin 128) (k : Fin 64)
    (h : ∀ k' : Fin 64, sc (ix3 p k' (0 : Fin 1)) = s k') :
    Ideal.div (Ideal.exp (sc (ix3 p k (0 : Fin 1)) - top (fun k' => sc (ix3 p k' (0 : Fin 1)))))
        (∑ k' : Fin 64, Ideal.exp (sc (ix3 p k' (0 : Fin 1)) - top (fun k'' => sc (ix3 p k'' (0 : Fin 1)))))
      = Ideal.div (Ideal.exp (s k - top s)) (∑ k' : Fin 64, Ideal.exp (s k' - top s)) := by
  have hs : (fun k' => sc (ix3 p k' (0 : Fin 1))) = s := funext h
  rw [hs, h k]
  refine congrArg (Ideal.div _) (Finset.sum_congr rfl fun k' _ => ?_)
  rw [h k']

/-- The softmax weight of neighbour k of node p times a given row array's entry, at (p, k, d): the body's last
    product, for ANY gated rows v28 and first-layer products v36, v37. -/
theorem pay6_apply (v28 v36 : FVec Ideal S128x64x256 .f32) (v37 : FVec Ideal S128x256 .f32) (x7 : FVec Ideal S1x256 .f32)
    (x8 : FVec Ideal S256x256 .bf16) (x9 : FVec Ideal S1x256 .f32) (x10 : FVec Ideal S256x1 .f32) (x11 : FVec Ideal S1x1 .f32)
    (p : Fin 128) (k : Fin 64) (d : Fin 256) :
    k0_pay6 (F := Ideal) v28 v36 v37 x7 x8 x9 x10 x11 (ix3 p k d)
      = Ideal.div
          (Ideal.exp (score (fun e d => x8 (ix2 e d)) (fun d => x9 (ix2 0 d)) (fun d => x10 (ix2 d 0)) (x11 (ix2 0 0))
              (fun k e => max ((v36 (ix3 p k e) + v37 (ix2 p e)) + x7 (ix2 0 e)) 0) k
            - top (score (fun e d => x8 (ix2 e d)) (fun d => x9 (ix2 0 d)) (fun d => x10 (ix2 d 0)) (x11 (ix2 0 0))
              (fun k e => max ((v36 (ix3 p k e) + v37 (ix2 p e)) + x7 (ix2 0 e)) 0))))
          (∑ k' : Fin 64, Ideal.exp (score (fun e d => x8 (ix2 e d)) (fun d => x9 (ix2 0 d)) (fun d => x10 (ix2 d 0)) (x11 (ix2 0 0))
              (fun k e => max ((v36 (ix3 p k e) + v37 (ix2 p e)) + x7 (ix2 0 e)) 0) k'
            - top (score (fun e d => x8 (ix2 e d)) (fun d => x9 (ix2 0 d)) (fun d => x10 (ix2 d 0)) (x11 (ix2 0 0))
              (fun k e => max ((v36 (ix3 p k e) + v37 (ix2 p e)) + x7 (ix2 0 e)) 0))))
        * v28 (ix3 p k d) := by
  unfold k0_pay6
  refine (mulf_apply _ _ _).trans ?_
  rw [p6_softmax_apply]
  refine congrArg (fun t => t * v28 (ix3 p k d)) (p6_softmax_congr _ _ p k fun k' => ?_)
  rw [p6_score_apply]
  unfold score
  refine congrArg (fun t => t + x11 (ix2 0 0)) (Finset.sum_congr rfl fun d' _ => ?_)
  rw [p6_h2_apply]
  refine congrArg (fun t => max (t + x9 (ix2 0 d')) 0 * x10 (ix2 d' 0)) (Finset.sum_congr rfl fun e _ => ?_)
  rw [p6_h1_apply]

/-- The final sum over the 64 neighbours, at (p, d). -/
theorem pay1_apply (v82 : FVec Ideal S128x64x256 .f32) (p : Fin 128) (d : Fin 256) :
    k0_pay1 (F := Ideal) v82 (ix2 p d) = ∑ k : Fin 64, v82 (ix3 p k d) := by
  unfold k0_pay1
  exact p6_sum_mid v82 _ _ _ p d

end Cert.KernelIdeal.KPay

end
-- ==== Proof.KPay.lean ====
/-
  The kernel body's arithmetic at one entry of its output block: row p, column d of what the body stores is the
  gated-attention aggregation of node p of the block, computed from row p of the two row blocks and the weights.
-/
import proofs.«424002_j31069793419779_2_alg».proof.Proof.Gen.KernelIdeal.Skeleton
import proofs.«424002_j31069793419779_2_alg».proof.Proof.Spec
import proofs.«424002_j31069793419779_2_alg».proof.Proof.KPay3
import proofs.«424002_j31069793419779_2_alg».proof.Proof.KPay45
import proofs.«424002_j31069793419779_2_alg».proof.Proof.KPay6
import Idealize.ShloMosaic.PureOps.Ideal.Laws
import Idealize.ShloMosaic.Lib.Pipeline.Value
import Idealize.ShloMosaic.Lib.ValueIdx
import Idealize.ShloMosaic.Lib.ValueLayout

noncomputable section

open scoped BigOperators

namespace Cert.KernelIdeal.KPay

open Cert.KernelIdeal Cert.KernelIdeal.Gen Idealize.ShloMosaic Idealize.ShloMosaic.ValueIdx Cert.Gnn

/-- The body's stored value at (p, d). -/
theorem pay_apply (x0 : FVec Ideal S128x64x256 .bf16) (x1 : FVec Ideal S128x256 .bf16) (x2 x3 : FVec Ideal S256x256 .bf16)
    (x4 : FVec Ideal S1x256 .f32) (x5 x6 : FVec Ideal S256x256 .bf16) (x7 : FVec Ideal S1x256 .f32)
    (x8 : FVec Ideal S256x256 .bf16) (x9 : FVec Ideal S1x256 .f32) (x10 : FVec Ideal S256x1 .f32) (x11 : FVec Ideal S1x1 .f32)
    (p : Fin 128) (d : Fin 256) :
    k0_pay1 (F := Ideal) (k0_pay6 (k0_pay3 x0 x1 x2 x3 x4) (k0_pay4 x0 x1 x2 x3 x4 x5) (k0_pay5 x1 x6) x7 x8 x9 x10 x11) (ix2 p d)
      = kOut (fun k e => x0 (ix3 p k e)) (fun e => x1 (ix2 p e))
          (fun e d => x2 (ix2 e d)) (fun e d => x3 (ix2 e d)) (fun d => x4 (ix2 0 d))
          (fun e d => x5 (ix2 e d)) (fun e d => x6 (ix2 e d)) (fun d => x7 (ix2 0 d))
          (fun e d => x8 (ix2 e d)) (fun d => x9 (ix2 0 d)) (fun d => x10 (ix2 d 0)) (x11 (ix2 0 0)) d := by
  rw [pay1_apply]
  unfold kOut attend
  refine Finset.sum_congr rfl fun k _ => ?_
  rw [pay6_apply, pay3_apply]
  have hH : (fun (k : Fin 64) (e : Fin 256) =>
        max ((k0_pay4 (F := Ideal) x0 x1 x2 x3 x4 x5 (ix3 p k e) + k0_pay5 (F := Ideal) x1 x6 (ix2 p e)) + x7 (ix2 0 e)) 0)
      = kH1 (fun k e => x0 (ix3 p k e)) (fun e => x1 (ix2 p e))
          (fun e d => x2 (ix2 e d)) (fun e d => x3 (ix2 e d)) (fun d => x4 (ix2 0 d))
          (fun e d => x5 (ix2 e d)) (fun e d => x6 (ix2 e d)) (fun d => x7 (ix2 0 d)) := by
    funext k e
    unfold kH1 splitAff
    rw [pay4_apply, pay5_apply]
    refine congrArg (fun t => max ((t + ∑ e' : Fin 256, x1 (ix2 p e') * x6 (ix2 e' e)) + x7 (ix2 0 e)) 0)
      (Finset.sum_congr rfl fun e' _ => ?_)
    rw [pay3_apply]
  rw [hH]

end Cert.KernelIdeal.KPay

end
-- ==== Proof.LibGatherScatterRows.lean ====
/-
  A row-gather and an accumulating row-scatter, read at an index.

  A table of N rows and C columns is read through a column of E integer index words: result row e is the
  table's row at the e-th word, the word read as a signed integer and clamped into [0, N - 1]. In the other
  direction E update rows are added into a table of N rows: update row e lands in the row its word names,
  the word read as a signed integer and NOT clamped, and is dropped when that row is outside [0, N). Both
  facts are stated for arbitrary extents, from the dimension numbers alone. The scatter of E scalars into a
  vector of N entries is the same with the column axis left out.
-/
import Idealize.ShloMosaic.PureOps.Ideal
import Idealize.ShloMosaic.PureOps.Ideal.Laws
import Idealize.ShloMosaic.Lib.ValueIdx
import Idealize.ShloMosaic.Lib.ValueIdxRank1

noncomputable section

open scoped BigOperators

namespace Cert.LibRows

open Idealize.ShloMosaic Idealize.ShloMosaic.ValueIdx

/-! ## Where an index word lands -/

/-- The entry of an axis of extent N that a 32-bit index word names when it is read as a signed integer
    and not clamped: the integer itself when it lies in [0, N), and nothing otherwise. -/
def landIx (N : Nat) (w : BitVec 32) : Option (Fin N) :=
  if h : 0 ≤ w.toInt ∧ w.toInt < N then some ⟨w.toInt.toNat, by omega⟩ else none

/-! ## Indices from coordinates are equal exactly when the coordinates are -/

/-- Two rank-2 indices built from coordinates are equal exactly when both coordinates are. -/
theorem ix2_inj {n0 n1 : Nat} (a a' : Fin n0) (b b' : Fin n1) : ix2 a b = ix2 a' b' ↔ a = a' ∧ b = b' := by
  constructor
  · intro h
    exact ⟨congrFun h 0, congrFun h 1⟩
  · rintro ⟨rfl, rfl⟩; rfl

/-- Two rank-1 indices built from a coordinate are equal exactly when the coordinates are. -/
theorem ix1_inj {n : Nat} (a a' : Fin n) : ix1 a = ix1 a' ↔ a = a' := by
  constructor
  · intro h
    exact congrFun h 0
  · rintro rfl; rfl

/-! ## The gather -/

/-- A row gather read at (e, j): the table's entry in column j of the row the e-th start index names, that
    index read as a signed integer and clamped into [0, N - 1]. -/
theorem gather_rows {α : Type} {N E C w : Nat} (hN : 0 < N) (d : GatherDims ⟨2, ![N, C]⟩ ⟨2, ![E, 1]⟩ ⟨2, ![E, C]⟩)
    (hoff : d.offsetDims = [1]) (hcoll : d.collapsedSliceDims = [0]) (hob : d.operandBatchingDims = []) (hsb : d.startIndicesBatchingDims = [])
    (hsim : d.startIndexMap = [0]) (hivd : d.indexVectorDim = 1)
    (x : (⟨2, ![N, C]⟩ : Shape).Idx → α) (idx : IVec ⟨2, ![E, 1]⟩ w) (e : Fin E) (j : Fin C) :
    Host.gather d x idx (ix2 e j) = x (ix2 ⟨min (idx (ix2 e 0)).toInt.toNat (N - 1), by omega⟩ j) := by
  have hsl : d.sliceSizes 0 = 1 := d.slice_collapsed 0 (by rw [hcoll]; exact List.mem_singleton.mpr rfl)
  obtain ⟨od, cs, ob, sb, sim, ivd, ss, wf⟩ := d
  simp only at hoff hcoll hob hsb hsim hivd hsl
  subst hoff hcoll hob hsb hsim hivd
  unfold Host.gather
  congr 1
  funext a
  apply Fin.ext
  match a with
  | ⟨0, _⟩ =>
    -- the row axis: collapsed, so only the clamped start index counts, and the slice there has one row
    show GatherDims.start _ _ _ _ + GatherDims.batchCoord _ _ _ + GatherDims.offCoord _ _ _ = min (idx (ix2 e 0)).toInt.toNat (N - 1)
    rw [GatherDims.batchCoord_eq_zero _ _ _ List.not_mem_nil,
        GatherDims.offCoord_eq_zero _ _ _ (fun h => ((GatherDims.mem_sKept _ _).mp h).1 (List.mem_singleton.mpr rfl))]
    simp only [Nat.add_zero]
    unfold GatherDims.start
    split
    · show min (idx _).toInt.toNat (N - ss 0) = _
      rw [hsl]
      congr 3
      congr 1
      -- the start index of result (e, j) is read at (e, 0)
      funext b
      apply Fin.ext
      match b with
      | ⟨0, _⟩ => rfl
      | ⟨1, _⟩ => rfl
    · next hn => exact absurd (List.mem_singleton.mpr rfl) hn
  | ⟨1, _⟩ =>
    -- the column axis: no start index, no batching; the offset coordinate is the result's column
    show 0 + 0 + j.val = j.val
    omega

/-! ## Where an update of the row scatter lands -/

section Rows
variable {N E C : Nat} (d : ScatterDims ⟨2, ![N, C]⟩ ⟨2, ![E, 1]⟩ ⟨2, ![E, C]⟩)
    (huw : d.updateWindowDims = [1]) (hiw : d.insertedWindowDims = [0]) (hsd : d.scatterDimsToOperandDims = [0]) (hivd : d.indexVectorDim = 1)
include huw hiw hsd hivd

/-- On the row axis the window of update (e, j') starts at the e-th index word, read signed. -/
theorem rows_start0 (idx : IVec ⟨2, ![E, 1]⟩ 32) (e : Fin E) (j' : Fin C) :
    d.start (ix2 e j') idx 0 = (idx (ix2 e 0)).toInt := by
  obtain ⟨uw, iw, sd, ivd, wf⟩ := d
  simp only at huw hiw hsd hivd
  subst huw hiw hsd hivd
  unfold ScatterDims.start
  split
  · congr 2
    funext b
    apply Fin.ext
    match b with
    | ⟨0, _⟩ => rfl
    | ⟨1, _⟩ => rfl
  · next hn => exact absurd (List.mem_singleton.mpr rfl) hn

/-- On the column axis the window starts at 0: no index word names that axis. -/
theorem rows_start1 (idx : IVec ⟨2, ![E, 1]⟩ 32) (e : Fin E) (j' : Fin C) :
    d.start (ix2 e j') idx 1 = 0 := by
  obtain ⟨uw, iw, sd, ivd, wf⟩ := d
  simp only at huw hiw hsd hivd
  subst huw hiw hsd hivd
  rfl

/-- The row axis is an inserted one: the window coordinate there is 0. -/
theorem rows_window0 (e : Fin E) (j' : Fin C) : d.window (ix2 e j') 0 = 0 := by
  obtain ⟨uw, iw, sd, ivd, wf⟩ := d
  simp only at huw hiw hsd hivd
  subst huw hiw hsd hivd
  rfl

/-- On the column axis the window coordinate is the update's column. -/
theorem rows_window1 (e : Fin E) (j' : Fin C) : d.window (ix2 e j') 1 = j'.val := by
  obtain ⟨uw, iw, sd, ivd, wf⟩ := d
  simp only at huw hiw hsd hivd
  subst huw hiw hsd hivd
  rfl

/-- Update (e, j') lands in column j' of the row its index word names, and nowhere when that row is
    outside [0, N). -/
theorem rows_resultIdx (idx : IVec ⟨2, ![E, 1]⟩ 32) (e : Fin E) (j' : Fin C) :
    d.resultIdx? (ix2 e j') idx = (landIx N (idx (ix2 e 0))).map (fun n => ix2 n j') := by
  have h0 := rows_start0 d huw hiw hsd hivd idx e j'
  have h1 := rows_start1 d huw hiw hsd hivd idx e j'
  have w0 := rows_window0 d huw hiw hsd hivd e j'
  have w1 := rows_window1 d huw hiw hsd hivd e j'
  unfold ScatterDims.resultIdx? landIx
  by_cases h : 0 ≤ (idx (ix2 e 0)).toInt ∧ (idx (ix2 e 0)).toInt < N
  · -- in range on both axes: the column always is
    have hall : ∀ a : Fin 2, 0 ≤ d.start (ix2 e j') idx a + d.window (ix2 e j') a
        ∧ d.start (ix2 e j') idx a + d.window (ix2 e j') a < (⟨2, ![N, C]⟩ : Shape).size a := by
      intro a
      match a with
      | ⟨0, _⟩ =>
        show 0 ≤ d.start (ix2 e j') idx 0 + d.window (ix2 e j') 0 ∧ d.start (ix2 e j') idx 0 + d.window (ix2 e j') 0 < (N : Int)
        rw [h0, w0]; omega
      | ⟨1, _⟩ =>
        show 0 ≤ d.start (ix2 e j') idx 1 + d.window (ix2 e j') 1 ∧ d.start (ix2 e j') idx 1 + d.window (ix2 e j') 1 < (C : Int)
        rw [h1, w1]; have := j'.isLt; omega
    rw [dif_pos hall, dif_pos h]
    simp only [Option.map_some]
    congr 1
    funext a
    apply Fin.ext
    match a with
    | ⟨0, _⟩ =>
      show (d.start (ix2 e j') idx 0 + d.window (ix2 e j') 0).toNat = (idx (ix2 e 0)).toInt.toNat
      rw [h0, w0]; simp
    | ⟨1, _⟩ =>
      show (d.start (ix2 e j') idx 1 + d.window (ix2 e j') 1).toNat = j'.val
      rw [h1, w1]; simp
  · -- out of range on the row axis: the update is dropped
    have hnall : ¬ ∀ a : Fin 2, 0 ≤ d.start (ix2 e j') idx a + d.window (ix2 e j') a
        ∧ d.start (ix2 e j') idx a + d.window (ix2 e j') a < (⟨2, ![N, C]⟩ : Shape).size a := by
      intro hall
      have := hall 0
      rw [h0, w0] at this
      apply h
      have h' : (0:Int) ≤ (idx (ix2 e 0)).toInt + ((0:Nat):Int) ∧ (idx (ix2 e 0)).toInt + ((0:Nat):Int) < (N : Int) := this
      omega
    rw [dif_neg hnall, dif_neg h]
    rfl

end Rows

/-! ## Where an update of the scalar scatter lands -/

section Vec
variable {N E : Nat} (d : ScatterDims ⟨1, ![N]⟩ ⟨2, ![E, 1]⟩ ⟨1, ![E]⟩)
    (huw : d.updateWindowDims = []) (hiw : d.insertedWindowDims = [0]) (hsd : d.scatterDimsToOperandDims = [0]) (hivd : d.indexVectorDim = 1)
include huw hiw hsd hivd

/-- The window of update e starts at the e-th index word, read signed. -/
theorem vec_start0 (idx : IVec ⟨2, ![E, 1]⟩ 32) (e : Fin E) :
    d.start (ix1 e) idx 0 = (idx (ix2 e 0)).toInt := by
  obtain ⟨uw, iw, sd, ivd, wf⟩ := d
  simp only at huw hiw hsd hivd
  subst huw hiw hsd hivd
  unfold ScatterDims.start
  split
  · congr 2
    funext b
    apply Fin.ext
    match b with
    | ⟨0, _⟩ => rfl
    | ⟨1, _⟩ => rfl
  · next hn => exact absurd (List.mem_singleton.mpr rfl) hn

/-- The one axis is an inserted one: the window coordinate there is 0. -/
theorem vec_window0 (e : Fin E) : d.window (ix1 e) 0 = 0 := by
  obtain ⟨uw, iw, sd, ivd, wf⟩ := d
  simp only at huw hiw hsd hivd
  subst huw hiw hsd hivd
  rfl

/-- Update e lands at the entry its index word names, and nowhere when that is outside [0, N). -/
theorem vec_resultIdx (idx : IVec ⟨2, ![E, 1]⟩ 32) (e : Fin E) :
    d.resultIdx? (ix1 e) idx = (landIx N (idx (ix2 e 0))).map ix1 := by
  have h0 := vec_start0 d huw hiw hsd hivd idx e
  have w0 := vec_window0 d huw hiw hsd hivd e
  unfold ScatterDims.resultIdx? landIx
  by_cases h : 0 ≤ (idx (ix2 e 0)).toInt ∧ (idx (ix2 e 0)).toInt < N
  · have hall : ∀ a : Fin 1, 0 ≤ d.start (ix1 e) idx a + d.window (ix1 e) a
        ∧ d.start (ix1 e) idx a + d.window (ix1 e) a < (⟨1, ![N]⟩ : Shape).size a := by
      intro a
      match a with
      | ⟨0, _⟩ =>
        show 0 ≤ d.start (ix1 e) idx 0 + d.window (ix1 e) 0 ∧ d.start (ix1 e) idx 0 + d.window (ix1 e) 0 < (N : Int)
        rw [h0, w0]; omega
    rw [dif_pos hall, dif_pos h]
    simp only [Option.map_some]
    congr 1
    funext a
    apply Fin.ext
    match a with
    | ⟨0, _⟩ =>
      show (d.start (ix1 e) idx 0 + d.window (ix1 e) 0).toNat = (idx (ix2 e 0)).toInt.toNat
      rw [h0, w0]; simp
  · have hnall : ¬ ∀ a : Fin 1, 0 ≤ d.start (ix1 e) idx a + d.window (ix1 e) a
        ∧ d.start (ix1 e) idx a + d.window (ix1 e) a < (⟨1, ![N]⟩ : Shape).size a := by
      intro hall
      have := hall 0
      rw [h0, w0] at this
      apply h
      have h' : (0:Int) ≤ (idx (ix2 e 0)).toInt + ((0:Nat):Int) ∧ (idx (ix2 e 0)).toInt + ((0:Nat):Int) < (N : Int) := this
      omega
    rw [dif_neg hnall, dif_neg h]
    rfl

end Vec

/-! ## The scatters read at an index -/

/-- An accumulating row scatter read at (n, j): the table's entry plus the sum, over the update rows e whose
    index word lands in row n (read signed, not clamped, dropped outside [0, N)), of the update's entry (e, j). -/
theorem scatterAdd_rows {N E C : Nat} (d : ScatterDims ⟨2, ![N, C]⟩ ⟨2, ![E, 1]⟩ ⟨2, ![E, C]⟩)
    (huw : d.updateWindowDims = [1]) (hiw : d.insertedWindowDims = [0]) (hsd : d.scatterDimsToOperandDims = [0]) (hivd : d.indexVectorDim = 1)
    (x : (⟨2, ![N, C]⟩ : Shape).Idx → EReal) (idx : IVec ⟨2, ![E, 1]⟩ 32) (upd : (⟨2, ![E, C]⟩ : Shape).Idx → EReal) (n : Fin N) (j : Fin C) :
    Ideal.hostScatterAdd d x idx upd (ix2 n j)
      = x (ix2 n j) + ∑ e ∈ Finset.univ.filter (fun e : Fin E => landIx N (idx (ix2 e 0)) = some n), upd (ix2 e j) := by
  -- update (e, j') lands at (n, j) exactly when its word lands in row n and j' = j
  have key : ∀ (e : Fin E) (j' : Fin C), d.resultIdx? (ix2 e j') idx = some (ix2 n j)
      ↔ (landIx N (idx (ix2 e 0)) = some n ∧ j' = j) := by
    intro e j'
    rw [rows_resultIdx d huw hiw hsd hivd idx e j']
    cases hL : landIx N (idx (ix2 e 0)) with
    | none => simp
    | some m => simp only [Option.map_some, Option.some.injEq, ix2_inj]
  unfold Ideal.hostScatterAdd
  congr 1
  -- the sum over the update indices as a double sum; for each e the inner sum keeps at most the term j' = j
  rw [Finset.sum_filter, sum_idx2, Finset.sum_filter]
  refine Finset.sum_congr rfl fun e _ => ?_
  by_cases hl : landIx N (idx (ix2 e 0)) = some n
  · rw [if_pos hl, Finset.sum_eq_single j]
    · rw [if_pos ((key e j).2 ⟨hl, rfl⟩)]
    · intro j' _ hne
      rw [if_neg (fun h => hne ((key e j').1 h).2)]
    · intro h; exact absurd (Finset.mem_univ _) h
  · rw [if_neg hl]
    apply Finset.sum_eq_zero
    intro j' _
    rw [if_neg (fun h => hl ((key e j').1 h).1)]

/-- An accumulating scatter of scalars into a vector, read at n: the vector's entry plus the sum of the
    updates e whose index word lands at n (read signed, not clamped, dropped outside [0, N)). -/
theorem scatterAdd_vec {N E : Nat} (d : ScatterDims ⟨1, ![N]⟩ ⟨2, ![E, 1]⟩ ⟨1, ![E]⟩)
    (huw : d.updateWindowDims = []) (hiw : d.insertedWindowDims = [0]) (hsd : d.scatterDimsToOperandDims = [0]) (hivd : d.indexVectorDim = 1)
    (x : (⟨1, ![N]⟩ : Shape).Idx → EReal) (idx : IVec ⟨2, ![E, 1]⟩ 32) (upd : (⟨1, ![E]⟩ : Shape).Idx → EReal) (n : Fin N) :
    Ideal.hostScatterAdd d x idx upd (ix1 n)
      = x (ix1 n) + ∑ e ∈ Finset.univ.filter (fun e : Fin E => landIx N (idx (ix2 e 0)) = some n), upd (ix1 e) := by
  have key : ∀ (e : Fin E), d.resultIdx? (ix1 e) idx = some (ix1 n)
      ↔ landIx N (idx (ix2 e 0)) = some n := by
    intro e
    rw [vec_resultIdx d huw hiw hsd hivd idx e]
    cases hL : landIx N (idx (ix2 e 0)) with
    | none => simp
    | some m => simp only [Option.map_some, Option.some.injEq, ix1_inj]
  unfold Ideal.hostScatterAdd
  congr 1
  -- a rank-1 index is its coordinate: re-index the sum over the updates by e
  rw [Finset.sum_filter, Finset.sum_filter, ← Equiv.sum_comp (idxEquiv1 (n := E)).symm]
  refine Finset.sum_congr rfl fun e _ => ?_
  show (if d.resultIdx? (ix1 e) idx = some (ix1 n) then upd (ix1 e) else 0) = _
  by_cases hl : landIx N (idx (ix2 e 0)) = some n
  · rw [if_pos hl, if_pos ((key e).2 hl)]
  · rw [if_neg hl, if_neg (fun h => hl ((key e).1 h))]

/-- The row scatter as the host's accumulating scatter states it over the extended reals. -/
theorem scatterAdd_rows' {φ : FTy} {N E C : Nat} (d : ScatterDims ⟨2, ![N, C]⟩ ⟨2, ![E, 1]⟩ ⟨2, ![E, C]⟩)
    (huw : d.updateWindowDims = [1]) (hiw : d.insertedWindowDims = [0]) (hsd : d.scatterDimsToOperandDims = [0]) (hivd : d.indexVectorDim = 1)
    (x : FVec Ideal ⟨2, ![N, C]⟩ φ) (idx : IVec ⟨2, ![E, 1]⟩ 32) (upd : FVec Ideal ⟨2, ![E, C]⟩ φ) (n : Fin N) (j : Fin C) :
    Host.scatterAdd (F := Ideal) d x idx upd (ix2 n j)
      = x (ix2 n j) + ∑ e ∈ Finset.univ.filter (fun e : Fin E => landIx N (idx (ix2 e 0)) = some n), upd (ix2 e j) :=
  scatterAdd_rows d huw hiw hsd hivd x idx upd n j

/-- The scalar scatter as the host's accumulating scatter states it over the extended reals. -/
theorem scatterAdd_vec' {φ : FTy} {N E : Nat} (d : ScatterDims ⟨1, ![N]⟩ ⟨2, ![E, 1]⟩ ⟨1, ![E]⟩)
    (huw : d.updateWindowDims = []) (hiw : d.insertedWindowDims = [0]) (hsd : d.scatterDimsToOperandDims = [0]) (hivd : d.indexVectorDim = 1)
    (x : FVec Ideal ⟨1, ![N]⟩ φ) (idx : IVec ⟨2, ![E, 1]⟩ 32) (upd : FVec Ideal ⟨1, ![E]⟩ φ) (n : Fin N) :
    Host.scatterAdd (F := Ideal) d x idx upd (ix1 n)
      = x (ix1 n) + ∑ e ∈ Finset.univ.filter (fun e : Fin E => landIx N (idx (ix2 e 0)) = some n), upd (ix1 e) :=
  scatterAdd_vec d huw hiw hsd hivd x idx upd n

end Cert.LibRows

end
-- ==== Proof.KHost.lean ====
/-
  The arrays the kernel's twelve input windows stage, as functions of the program's arguments: the two gathered
  row arrays (the fill of jnp.take never fires where the index words are in range), the four halves of the two
  512-row weight matrices, the third weight matrix, and the biases re-laid as one-row matrices.
-/
import proofs.«424002_j31069793419779_2_alg».proof.Proof.Gen.KernelIdeal.Frame
import proofs.«424002_j31069793419779_2_alg».proof.Proof.Spec
import proofs.«424002_j31069793419779_2_alg».proof.Proof.LibGatherScatterRows
import Idealize.ShloMosaic.Lib.StableHlo.Run
import Idealize.ShloMosaic.Lib.StableHlo.Predicate
import Idealize.ShloMosaic.Lib.Pipeline.Value
import Idealize.ShloMosaic.Lib.ValueIdx
import Idealize.ShloMosaic.Lib.ValueLayout

noncomputable section

namespace Cert.KernelIdeal.KHost

open Cert.KernelIdeal Cert.KernelIdeal.Gen Idealize.ShloMosaic Idealize.ShloMosaic.TcCoe Idealize.SL.Sem
open Idealize.ShloMosaic.ValueIdx Cert.Gnn

variable (m : (ℓ : Loc nD τ sig) → Buf (Elt Ideal) ℓ)

abbrev aNodes (c : Dev nD) : IVec S4096 32 := m ((c : Thread nD τ).loc main_arg0)
abbrev aNeighs (c : Dev nD) : IVec S4096x64 32 := m ((c : Thread nD τ).loc main_arg1)
abbrev aU2e (c : Dev nD) : S100000x256.Idx → EReal := m ((c : Thread nD τ).loc main_arg2)
abbrev aGateW (c : Dev nD) : S512x256.Idx → EReal := m ((c : Thread nD τ).loc main_arg3)
abbrev aGateB (c : Dev nD) : S256.Idx → EReal := m ((c : Thread nD τ).loc main_arg4)
abbrev aAtt1W (c : Dev nD) : S512x256.Idx → EReal := m ((c : Thread nD τ).loc main_arg5)
abbrev aAtt1B (c : Dev nD) : S256.Idx → EReal := m ((c : Thread nD τ).loc main_arg6)
abbrev aAtt2W (c : Dev nD) : S256x256.Idx → EReal := m ((c : Thread nD τ).loc main_arg7)
abbrev aAtt2B (c : Dev nD) : S256.Idx → EReal := m ((c : Thread nD τ).loc main_arg8)
abbrev aAtt3W (c : Dev nD) : S256x1.Idx → EReal := m ((c : Thread nD τ).loc main_arg9)
abbrev aAtt3B (c : Dev nD) : S1.Idx → EReal := m ((c : Thread nD τ).loc main_arg10)

/-! ## Index words in range: the wrap-around and the fill of a row take never fire -/

/-- A word that reads non-negative is not below zero. -/
theorem cmpi_slt_zero (w : BitVec 32) (h0 : 0 ≤ w.toInt) : IntOp.cmpi .slt w 0#32 = 0#1 := by
  have hz : (0#32 : BitVec 32).toInt = 0 := by decide
  have hb : w.slt 0#32 = false := by
    simp only [BitVec.slt, hz, decide_eq_false_iff_not, not_lt]
    exact h0
  show BitVec.ofBool (w.slt 0#32) = 0#1
  rw [hb]
  rfl

/-- The wrap-around of negative index words leaves a non-negative word as it is. -/
theorem wrap_eq (w : BitVec 32) (h0 : 0 ≤ w.toInt) :
    Scalar.select (IntOp.cmpi .slt w 0#32) (IntOp.addi w 100000#32) w = w := by
  rw [cmpi_slt_zero w h0, select_zero]

/-- Both range tests pass on a word in [0, 100000). -/
theorem inrange_eq (w : BitVec 32) (h0 : 0 ≤ w.toInt) (h1 : w.toInt < 100000) :
    IntOp.andi (IntOp.cmpi .sge w 0#32) (IntOp.cmpi .sle w 99999#32) = 1#1 := by
  have hz : (0#32 : BitVec 32).toInt = 0 := by decide
  have hm : (99999#32 : BitVec 32).toInt = 99999 := by decide
  have ha : (0#32 : BitVec 32).sle w = true := by
    simp only [BitVec.sle, hz, decide_eq_true_eq]
    exact h0
  have hb : w.sle 99999#32 = true := by
    simp only [BitVec.sle, hm, decide_eq_true_eq]
    omega
  show IntOp.andi (BitVec.ofBool ((0#32 : BitVec 32).sle w)) (BitVec.ofBool (w.sle 99999#32)) = 1#1
  rw [ha, hb]
  decide

/-- A left fold of the bitwise and, from 1, over bits that are all 1 is 1. -/
theorem foldl_andi_ones {ι : Type} (x : ι → BitVec 1) (hx : ∀ i, x i = 1#1) (L : List ι) :
    L.foldl (fun r i => IntOp.andi r (x i)) 1#1 = 1#1 := by
  induction L with
  | nil => rfl
  | cons a L ih =>
    show L.foldl (fun r i => IntOp.andi r (x i)) (IntOp.andi 1#1 (x a)) = 1#1
    rw [hx a, show IntOp.andi 1#1 1#1 = 1#1 from by decide]
    exact ih

/-- An and-reduction, from 1, of a mask that is 1 everywhere is 1 everywhere. -/
theorem reduce_andi_ones {s t u : Shape} {axes : List (Fin s.rank)} (x : IVec s 1) (init : u.Idx → BitVec 1)
    (h : s.ReducesTo axes t) (hu : 0 < u.numel) (hx : ∀ i, x i = 1#1) (hi : ∀ i, init i = 1#1) (j : t.Idx) :
    Host.reduce IntOp.andi x init h hu j = 1#1 := by
  rw [Host.reduce_eq_foldl, hi]
  exact foldl_andi_ones x hx _

/-- A row gather through a rank-3 column of start indices, read at (a, b, j): the table's entry in column j of the
    row the (a, b)-th start index names, that index read as a signed integer and clamped into [0, N - 1]. -/
theorem gather_rows3 {α : Type} {N A B C w : Nat} (hN : 0 < N) (d : GatherDims ⟨2, ![N, C]⟩ ⟨3, ![A, B, 1]⟩ ⟨3, ![A, B, C]⟩)
    (hoff : d.offsetDims = [2]) (hcoll : d.collapsedSliceDims = [0]) (hob : d.operandBatchingDims = []) (hsb : d.startIndicesBatchingDims = [])
    (hsim : d.startIndexMap = [0]) (hivd : d.indexVectorDim = 2)
    (x : (⟨2, ![N, C]⟩ : Shape).Idx → α) (idx : IVec ⟨3, ![A, B, 1]⟩ w) (a : Fin A) (b : Fin B) (j : Fin C) :
    Host.gather d x idx (ix3 a b j) = x (ix2 ⟨min (idx (ix3 a b 0)).toInt.toNat (N - 1), by omega⟩ j) := by
  have hsl : d.sliceSizes 0 = 1 := d.slice_collapsed 0 (by rw [hcoll]; exact List.mem_singleton.mpr rfl)
  obtain ⟨od, cs, ob, sb, sim, ivd, ss, wf⟩ := d
  simp only at hoff hcoll hob hsb hsim hivd hsl
  subst hoff hcoll hob hsb hsim hivd
  unfold Host.gather
  congr 1
  funext a'
  apply Fin.ext
  match a' with
  | ⟨0, _⟩ =>
    -- the row axis: collapsed, so only the clamped start index counts, and the slice there has one row
    show GatherDims.start _ _ _ _ + GatherDims.batchCoord _ _ _ + GatherDims.offCoord _ _ _ = min (idx (ix3 a b 0)).toInt.toNat (N - 1)
    rw [GatherDims.batchCoord_eq_zero _ _ _ List.not_mem_nil,
        GatherDims.offCoord_eq_zero _ _ _ (fun h => ((GatherDims.mem_sKept _ _).mp h).1 (List.mem_singleton.mpr rfl))]
    simp only [Nat.add_zero]
    unfold GatherDims.start
    split
    · show min (idx _).toInt.toNat (N - ss 0) = _
      rw [hsl]
      congr 3
      congr 1
      -- the start index of result (a, b, j) is read at (a, b, 0)
      funext b'
      apply Fin.ext
      match b' with
      | ⟨0, _⟩ => rfl
      | ⟨1, _⟩ => rfl
      | ⟨2, _⟩ => rfl
    · next hn => exact absurd (List.mem_singleton.mpr rfl) hn
  | ⟨1, _⟩ =>
    -- the column axis: no start index, no batching; the offset coordinate is the result's column
    show 0 + 0 + j.val = j.val
    omega

/-! ## The two gathered arrays as the host operations compute them -/

/-- Window 0's array as the host operations compute it from the arguments. -/
theorem V_v1_eq (c : Dev nD) : (V m c main_v1 : S4096x64x256.Idx → EReal) = (truncf (F := Ideal) .bf16 (select (broadcastInDim S4096x64x256 ![0, 1] bcast_S4096x64_S4096x64x256_0_1 (Host.reduce IntOp.andi (andi (cmpi .sge (broadcastInDim S4096x64x1 ![0, 1] bcast_S4096x64_S4096x64x1_0_1 (select (cmpi .slt (aNeighs m c) (broadcastInDim S4096x64 ![] bcast_S_S4096x64 (constantI S_ 32 0#32))) (addi (aNeighs m c) (broadcastInDim S4096x64 ![] bcast_S_S4096x64 (constantI S_ 32 100000#32))) (aNeighs m c))) (broadcastInDim S4096x64x1 ![] bcast_S_S4096x64x1 (constantI S_ 32 0#32))) (cmpi .sle (broadcastInDim S4096x64x1 ![0, 1] bcast_S4096x64_S4096x64x1_0_1 (select (cmpi .slt (aNeighs m c) (broadcastInDim S4096x64 ![] bcast_S_S4096x64 (constantI S_ 32 0#32))) (addi (aNeighs m c) (broadcastInDim S4096x64 ![] bcast_S_S4096x64 (constantI S_ 32 100000#32))) (aNeighs m c))) (broadcastInDim S4096x64x1 ![0, 1, 2] bcast_S1x1x1_S4096x64x1_0_1_2 (broadcastInDim S1x1x1 ![2] bcast_S1_S1x1x1_2 (constantI S1 32 99999#32))))) (constantI S_ 1 1#1) reducesTo_S4096x64x1_S4096x64_d2 h_S_)) (Host.gather gather_S100000x256_S4096x64x1_S4096x64x256_2_0_n_n_0_2_1256 (aU2e m c) (broadcastInDim S4096x64x1 ![0, 1] bcast_S4096x64_S4096x64x1_0_1 (select (cmpi .slt (aNeighs m c) (broadcastInDim S4096x64 ![] bcast_S_S4096x64 (constantI S_ 32 0#32))) (addi (aNeighs m c) (broadcastInDim S4096x64 ![] bcast_S_S4096x64 (constantI S_ 32 100000#32))) (aNeighs m c)))) (broadcastInDim S4096x64x256 ![] bcast_S_S4096x64x256 (constant (F := Ideal) S_ .f32 0x7FC00000#32)) : S4096x64x256.Idx → EReal) bitsLt_bf16_f32 : S4096x64x256.Idx → EReal) := by
  dsimp only [Gen.V]
  simp only [Gen.hostOps0, Gen.hostOps0_1, Gen.hostOps0_2, Gen.hostOps0_3, List.flatten_cons, List.flatten_nil, List.append_nil, List.cons_append, List.nil_append]
  after_results_simp
  try simp only [StableHlo.TRef.toBuf, StableHlo.TRef.ofBuf, cast_eq]
  all_goals rfl

/-- Window 1's array as the host operations compute it from the arguments. -/
theorem V_v3_eq (c : Dev nD) : (V m c main_v3 : S4096x256.Idx → EReal) = (truncf (F := Ideal) .bf16 (select (broadcastInDim S4096x256 ![0] bcast_S4096_S4096x256_0 (Host.reduce IntOp.andi (andi (cmpi .sge (broadcastInDim S4096x1 ![0] bcast_S4096_S4096x1_0 (select (cmpi .slt (aNodes m c) (broadcastInDim S4096 ![] bcast_S_S4096 (constantI S_ 32 0#32))) (addi (aNodes m c) (broadcastInDim S4096 ![] bcast_S_S4096 (constantI S_ 32 100000#32))) (aNodes m c))) (broadcastInDim S4096x1 ![] bcast_S_S4096x1 (constantI S_ 32 0#32))) (cmpi .sle (broadcastInDim S4096x1 ![0] bcast_S4096_S4096x1_0 (select (cmpi .slt (aNodes m c) (broadcastInDim S4096 ![] bcast_S_S4096 (constantI S_ 32 0#32))) (addi (aNodes m c) (broadcastInDim S4096 ![] bcast_S_S4096 (constantI S_ 32 100000#32))) (aNodes m c))) (broadcastInDim S4096x1 ![0, 1] bcast_S1x1_S4096x1_0_1 (broadcastInDim S1x1 ![1] bcast_S1_S1x1_1 (constantI S1 32 99999#32))))) (constantI S_ 1 1#1) reducesTo_S4096x1_S4096_d1 h_S_)) (Host.gather gather_S100000x256_S4096x1_S4096x256_1_0_n_n_0_1_1256 (aU2e m c) (broadcastInDim S4096x1 ![0] bcast_S4096_S4096x1_0 (select (cmpi .slt (aNodes m c) (broadcastInDim S4096 ![] bcast_S_S4096 (constantI S_ 32 0#32))) (addi (aNodes m c) (broadcastInDim S4096 ![] bcast_S_S4096 (constantI S_ 32 100000#32))) (aNodes m c)))) (broadcastInDim S4096x256 ![] bcast_S_S4096x256 (constant (F := Ideal) S_ .f32 0x7FC00000#32)) : S4096x256.Idx → EReal) bitsLt_bf16_f32 : S4096x256.Idx → EReal) := by
  dsimp only [Gen.V]
  simp only [Gen.hostOps0, Gen.hostOps0_1, Gen.hostOps0_2, Gen.hostOps0_3, List.flatten_cons, List.flatten_nil, List.append_nil, List.cons_append, List.nil_append]
  after_results_simp
  try simp only [StableHlo.TRef.toBuf, StableHlo.TRef.ofBuf, cast_eq]
  all_goals rfl

/-! ## The twelve windows' arrays read at an index -/

/-- Window 0's array: the neighbours' rows. -/
theorem V_v1 (c : Dev nD) (hr : ∀ i, 0 ≤ (aNeighs m c i).toInt ∧ (aNeighs m c i).toInt < 100000) (n : Fin 4096) (k : Fin 64) (e : Fin 256) :
    (V m c main_v1 : S4096x64x256.Idx → EReal) (ix3 n k e) = Erow (aNeighs m c) (aU2e m c) n k e := by
  -- the start index at (i, j, 0) is the (i, j)-th word itself
  have hidx : ∀ i : S4096x64x1.Idx, (broadcastInDim S4096x64x1 ![0, 1] bcast_S4096x64_S4096x64x1_0_1 (select (cmpi .slt (aNeighs m c) (broadcastInDim S4096x64 ![] bcast_S_S4096x64 (constantI S_ 32 0#32))) (addi (aNeighs m c) (broadcastInDim S4096x64 ![] bcast_S_S4096x64 (constantI S_ 32 100000#32))) (aNeighs m c))) i = aNeighs m c (ix2 (i 0) (i 1)) := by
    intro i
    have hb : (broadcastInDim S4096x64x1 ![0, 1] bcast_S4096x64_S4096x64x1_0_1 (select (cmpi .slt (aNeighs m c) (broadcastInDim S4096x64 ![] bcast_S_S4096x64 (constantI S_ 32 0#32))) (addi (aNeighs m c) (broadcastInDim S4096x64 ![] bcast_S_S4096x64 (constantI S_ 32 100000#32))) (aNeighs m c))) i = (select (cmpi .slt (aNeighs m c) (broadcastInDim S4096x64 ![] bcast_S_S4096x64 (constantI S_ 32 0#32))) (addi (aNeighs m c) (broadcastInDim S4096x64 ![] bcast_S_S4096x64 (constantI S_ 32 100000#32))) (aNeighs m c)) (ix2 (i 0) (i 1)) :=
      broadcastInDim_apply _ _ _ i (ix2 (i 0) (i 1)) (fun a => by
        match a with
        | ⟨0, _⟩ => rfl
        | ⟨1, _⟩ => rfl)
    rw [hb]
    exact wrap_eq _ (hr _).1
  -- so the mask is 1 everywhere
  have hm : ∀ i : S4096x64x1.Idx, (andi (cmpi .sge (broadcastInDim S4096x64x1 ![0, 1] bcast_S4096x64_S4096x64x1_0_1 (select (cmpi .slt (aNeighs m c) (broadcastInDim S4096x64 ![] bcast_S_S4096x64 (constantI S_ 32 0#32))) (addi (aNeighs m c) (broadcastInDim S4096x64 ![] bcast_S_S4096x64 (constantI S_ 32 100000#32))) (aNeighs m c))) (broadcastInDim S4096x64x1 ![] bcast_S_S4096x64x1 (constantI S_ 32 0#32))) (cmpi .sle (broadcastInDim S4096x64x1 ![0, 1] bcast_S4096x64_S4096x64x1_0_1 (select (cmpi .slt (aNeighs m c) (broadcastInDim S4096x64 ![] bcast_S_S4096x64 (constantI S_ 32 0#32))) (addi (aNeighs m c) (broadcastInDim S4096x64 ![] bcast_S_S4096x64 (constantI S_ 32 100000#32))) (aNeighs m c))) (broadcastInDim S4096x64x1 ![0, 1, 2] bcast_S1x1x1_S4096x64x1_0_1_2 (broadcastInDim S1x1x1 ![2] bcast_S1_S1x1x1_2 (constantI S1 32 99999#32))))) i = 1#1 := by
    intro i
    show IntOp.andi (IntOp.cmpi .sge ((broadcastInDim S4096x64x1 ![0, 1] bcast_S4096x64_S4096x64x1_0_1 (select (cmpi .slt (aNeighs m c) (broadcastInDim S4096x64 ![] bcast_S_S4096x64 (constantI S_ 32 0#32))) (addi (aNeighs m c) (broadcastInDim S4096x64 ![] bcast_S_S4096x64 (constantI S_ 32 100000#32))) (aNeighs m c))) i) 0#32) (IntOp.cmpi .sle ((broadcastInDim S4096x64x1 ![0, 1] bcast_S4096x64_S4096x64x1_0_1 (select (cmpi .slt (aNeighs m c) (broadcastInDim S4096x64 ![] bcast_S_S4096x64 (constantI S_ 32 0#32))) (addi (aNeighs m c) (broadcastInDim S4096x64 ![] bcast_S_S4096x64 (constantI S_ 32 100000#32))) (aNeighs m c))) i) 99999#32) = 1#1
    rw [hidx i]
    exact inrange_eq _ (hr _).1 (hr _).2
  rw [V_v1_eq m c, truncf_apply, select_apply]
  have hred : ∀ j, Host.reduce IntOp.andi (andi (cmpi .sge (broadcastInDim S4096x64x1 ![0, 1] bcast_S4096x64_S4096x64x1_0_1 (select (cmpi .slt (aNeighs m c) (broadcastInDim S4096x64 ![] bcast_S_S4096x64 (constantI S_ 32 0#32))) (addi (aNeighs m c) (broadcastInDim S4096x64 ![] bcast_S_S4096x64 (constantI S_ 32 100000#32))) (aNeighs m c))) (broadcastInDim S4096x64x1 ![] bcast_S_S4096x64x1 (constantI S_ 32 0#32))) (cmpi .sle (broadcastInDim S4096x64x1 ![0, 1] bcast_S4096x64_S4096x64x1_0_1 (select (cmpi .slt (aNeighs m c) (broadcastInDim S4096x64 ![] bcast_S_S4096x64 (constantI S_ 32 0#32))) (addi (aNeighs m c) (broadcastInDim S4096x64 ![] bcast_S_S4096x64 (constantI S_ 32 100000#32))) (aNeighs m c))) (broadcastInDim S4096x64x1 ![0, 1, 2] bcast_S1x1x1_S4096x64x1_0_1_2 (broadcastInDim S1x1x1 ![2] bcast_S1_S1x1x1_2 (constantI S1 32 99999#32))))) (constantI S_ 1 1#1) reducesTo_S4096x64x1_S4096x64_d2 h_S_ j = 1#1 :=
    reduce_andi_ones _ _ _ _ hm (fun _ => rfl)
  generalize Host.reduce IntOp.andi (andi (cmpi .sge (broadcastInDim S4096x64x1 ![0, 1] bcast_S4096x64_S4096x64x1_0_1 (select (cmpi .slt (aNeighs m c) (broadcastInDim S4096x64 ![] bcast_S_S4096x64 (constantI S_ 32 0#32))) (addi (aNeighs m c) (broadcastInDim S4096x64 ![] bcast_S_S4096x64 (constantI S_ 32 100000#32))) (aNeighs m c))) (broadcastInDim S4096x64x1 ![] bcast_S_S4096x64x1 (constantI S_ 32 0#32))) (cmpi .sle (broadcastInDim S4096x64x1 ![0, 1] bcast_S4096x64_S4096x64x1_0_1 (select (cmpi .slt (aNeighs m c) (broadcastInDim S4096x64 ![] bcast_S_S4096x64 (constantI S_ 32 0#32))) (addi (aNeighs m c) (broadcastInDim S4096x64 ![] bcast_S_S4096x64 (constantI S_ 32 100000#32))) (aNeighs m c))) (broadcastInDim S4096x64x1 ![0, 1, 2] bcast_S1x1x1_S4096x64x1_0_1_2 (broadcastInDim S1x1x1 ![2] bcast_S1_S1x1x1_2 (constantI S1 32 99999#32))))) (constantI S_ 1 1#1) reducesTo_S4096x64x1_S4096x64_d2 h_S_ = X at hred ⊢
  have hb : broadcastInDim S4096x64x256 ![0, 1] bcast_S4096x64_S4096x64x256_0_1 X (ix3 n k e) = X (ix2 n k) :=
    broadcastInDim_apply _ _ _ (ix3 n k e) (ix2 n k) (fun a => by
      match a with
      | ⟨0, _⟩ => rfl
      | ⟨1, _⟩ => rfl)
  rw [hb, hred, select_one, gather_rows3 (by decide) gather_S100000x256_S4096x64x1_S4096x64x256_2_0_n_n_0_2_1256 rfl rfl rfl rfl rfl rfl]
  have h0 : (broadcastInDim S4096x64x1 ![0, 1] bcast_S4096x64_S4096x64x1_0_1 (select (cmpi .slt (aNeighs m c) (broadcastInDim S4096x64 ![] bcast_S_S4096x64 (constantI S_ 32 0#32))) (addi (aNeighs m c) (broadcastInDim S4096x64 ![] bcast_S_S4096x64 (constantI S_ 32 100000#32))) (aNeighs m c))) (ix3 n k 0) = aNeighs m c (ix2 n k) := hidx (ix3 n k 0)
  have hrow : (⟨min ((broadcastInDim S4096x64x1 ![0, 1] bcast_S4096x64_S4096x64x1_0_1 (select (cmpi .slt (aNeighs m c) (broadcastInDim S4096x64 ![] bcast_S_S4096x64 (constantI S_ 32 0#32))) (addi (aNeighs m c) (broadcastInDim S4096x64 ![] bcast_S_S4096x64 (constantI S_ 32 100000#32))) (aNeighs m c))) (ix3 n k 0)).toInt.toNat (100000 - 1), by omega⟩ : Fin 100000) = rowOf (aNeighs m c (ix2 n k)) := by
    apply Fin.ext
    show min ((broadcastInDim S4096x64x1 ![0, 1] bcast_S4096x64_S4096x64x1_0_1 (select (cmpi .slt (aNeighs m c) (broadcastInDim S4096x64 ![] bcast_S_S4096x64 (constantI S_ 32 0#32))) (addi (aNeighs m c) (broadcastInDim S4096x64 ![] bcast_S_S4096x64 (constantI S_ 32 100000#32))) (aNeighs m c))) (ix3 n k 0)).toInt.toNat (100000 - 1) = min (aNeighs m c (ix2 n k)).toInt.toNat 99999
    rw [h0]
  exact congrArg (fun r => aU2e m c (ix2 r e)) hrow

/-- Window 1's array: the nodes' own rows. -/
theorem V_v3 (c : Dev nD) (hr : ∀ i, 0 ≤ (aNodes m c i).toInt ∧ (aNodes m c i).toInt < 100000) (n : Fin 4096) (e : Fin 256) :
    (V m c main_v3 : S4096x256.Idx → EReal) (ix2 n e) = Urow (aNodes m c) (aU2e m c) n e := by
  -- the start index of row i is the i-th word itself
  have hidx : ∀ i : S4096x1.Idx, (broadcastInDim S4096x1 ![0] bcast_S4096_S4096x1_0 (select (cmpi .slt (aNodes m c) (broadcastInDim S4096 ![] bcast_S_S4096 (constantI S_ 32 0#32))) (addi (aNodes m c) (broadcastInDim S4096 ![] bcast_S_S4096 (constantI S_ 32 100000#32))) (aNodes m c))) i = aNodes m c (ix1 (i 0)) := by
    intro i
    have hb : (broadcastInDim S4096x1 ![0] bcast_S4096_S4096x1_0 (select (cmpi .slt (aNodes m c) (broadcastInDim S4096 ![] bcast_S_S4096 (constantI S_ 32 0#32))) (addi (aNodes m c) (broadcastInDim S4096 ![] bcast_S_S4096 (constantI S_ 32 100000#32))) (aNodes m c))) i = (select (cmpi .slt (aNodes m c) (broadcastInDim S4096 ![] bcast_S_S4096 (constantI S_ 32 0#32))) (addi (aNodes m c) (broadcastInDim S4096 ![] bcast_S_S4096 (constantI S_ 32 100000#32))) (aNodes m c)) (ix1 (i 0)) :=
      broadcastInDim_apply _ _ _ i (ix1 (i 0)) (fun a => by
        match a with
        | ⟨0, _⟩ => rfl)
    rw [hb]
    exact wrap_eq _ (hr _).1
  -- so the mask is 1 everywhere
  have hm : ∀ i : S4096x1.Idx, (andi (cmpi .sge (broadcastInDim S4096x1 ![0] bcast_S4096_S4096x1_0 (select (cmpi .slt (aNodes m c) (broadcastInDim S4096 ![] bcast_S_S4096 (constantI S_ 32 0#32))) (addi (aNodes m c) (broadcastInDim S4096 ![] bcast_S_S4096 (constantI S_ 32 100000#32))) (aNodes m c))) (broadcastInDim S4096x1 ![] bcast_S_S4096x1 (constantI S_ 32 0#32))) (cmpi .sle (broadcastInDim S4096x1 ![0] bcast_S4096_S4096x1_0 (select (cmpi .slt (aNodes m c) (broadcastInDim S4096 ![] bcast_S_S4096 (constantI S_ 32 0#32))) (addi (aNodes m c) (broadcastInDim S4096 ![] bcast_S_S4096 (constantI S_ 32 100000#32))) (aNodes m c))) (broadcastInDim S4096x1 ![0, 1] bcast_S1x1_S4096x1_0_1 (broadcastInDim S1x1 ![1] bcast_S1_S1x1_1 (constantI S1 32 99999#32))))) i = 1#1 := by
    intro i
    show IntOp.andi (IntOp.cmpi .sge ((broadcastInDim S4096x1 ![0] bcast_S4096_S4096x1_0 (select (cmpi .slt (aNodes m c) (broadcastInDim S4096 ![] bcast_S_S4096 (constantI S_ 32 0#32))) (addi (aNodes m c) (broadcastInDim S4096 ![] bcast_S_S4096 (constantI S_ 32 100000#32))) (aNodes m c))) i) 0#32) (IntOp.cmpi .sle ((broadcastInDim S4096x1 ![0] bcast_S4096_S4096x1_0 (select (cmpi .slt (aNodes m c) (broadcastInDim S4096 ![] bcast_S_S4096 (constantI S_ 32 0#32))) (addi (aNodes m c) (broadcastInDim S4096 ![] bcast_S_S4096 (constantI S_ 32 100000#32))) (aNodes m c))) i) 99999#32) = 1#1
    rw [hidx i]
    exact inrange_eq _ (hr _).1 (hr _).2
  rw [V_v3_eq m c, truncf_apply, select_apply]
  have hred : ∀ j, Host.reduce IntOp.andi (andi (cmpi .sge (broadcastInDim S4096x1 ![0] bcast_S4096_S4096x1_0 (select (cmpi .slt (aNodes m c) (broadcastInDim S4096 ![] bcast_S_S4096 (constantI S_ 32 0#32))) (addi (aNodes m c) (broadcastInDim S4096 ![] bcast_S_S4096 (constantI S_ 32 100000#32))) (aNodes m c))) (broadcastInDim S4096x1 ![] bcast_S_S4096x1 (constantI S_ 32 0#32))) (cmpi .sle (broadcastInDim S4096x1 ![0] bcast_S4096_S4096x1_0 (select (cmpi .slt (aNodes m c) (broadcastInDim S4096 ![] bcast_S_S4096 (constantI S_ 32 0#32))) (addi (aNodes m c) (broadcastInDim S4096 ![] bcast_S_S4096 (constantI S_ 32 100000#32))) (aNodes m c))) (broadcastInDim S4096x1 ![0, 1] bcast_S1x1_S4096x1_0_1 (broadcastInDim S1x1 ![1] bcast_S1_S1x1_1 (constantI S1 32 99999#32))))) (constantI S_ 1 1#1) reducesTo_S4096x1_S4096_d1 h_S_ j = 1#1 :=
    reduce_andi_ones _ _ _ _ hm (fun _ => rfl)
  generalize Host.reduce IntOp.andi (andi (cmpi .sge (broadcastInDim S4096x1 ![0] bcast_S4096_S4096x1_0 (select (cmpi .slt (aNodes m c) (broadcastInDim S4096 ![] bcast_S_S4096 (constantI S_ 32 0#32))) (addi (aNodes m c) (broadcastInDim S4096 ![] bcast_S_S4096 (constantI S_ 32 100000#32))) (aNodes m c))) (broadcastInDim S4096x1 ![] bcast_S_S4096x1 (constantI S_ 32 0#32))) (cmpi .sle (broadcastInDim S4096x1 ![0] bcast_S4096_S4096x1_0 (select (cmpi .slt (aNodes m c) (broadcastInDim S4096 ![] bcast_S_S4096 (constantI S_ 32 0#32))) (addi (aNodes m c) (broadcastInDim S4096 ![] bcast_S_S4096 (constantI S_ 32 100000#32))) (aNodes m c))) (broadcastInDim S4096x1 ![0, 1] bcast_S1x1_S4096x1_0_1 (broadcastInDim S1x1 ![1] bcast_S1_S1x1_1 (constantI S1 32 99999#32))))) (constantI S_ 1 1#1) reducesTo_S4096x1_S4096_d1 h_S_ = X at hred ⊢
  have hb : broadcastInDim S4096x256 ![0] bcast_S4096_S4096x256_0 X (ix2 n e) = X (ix1 n) :=
    broadcastInDim_apply _ _ _ (ix2 n e) (ix1 n) (fun a => by
      match a with
      | ⟨0, _⟩ => rfl)
  rw [hb, hred, select_one, Cert.LibRows.gather_rows (by decide) gather_S100000x256_S4096x1_S4096x256_1_0_n_n_0_1_1256 rfl rfl rfl rfl rfl rfl]
  have h0 : (broadcastInDim S4096x1 ![0] bcast_S4096_S4096x1_0 (select (cmpi .slt (aNodes m c) (broadcastInDim S4096 ![] bcast_S_S4096 (constantI S_ 32 0#32))) (addi (aNodes m c) (broadcastInDim S4096 ![] bcast_S_S4096 (constantI S_ 32 100000#32))) (aNodes m c))) (ix2 n 0) = aNodes m c (ix1 n) := hidx (ix2 n 0)
  have hrow : (⟨min ((broadcastInDim S4096x1 ![0] bcast_S4096_S4096x1_0 (select (cmpi .slt (aNodes m c) (broadcastInDim S4096 ![] bcast_S_S4096 (constantI S_ 32 0#32))) (addi (aNodes m c) (broadcastInDim S4096 ![] bcast_S_S4096 (constantI S_ 32 100000#32))) (aNodes m c))) (ix2 n 0)).toInt.toNat (100000 - 1), by omega⟩ : Fin 100000) = rowOf (aNodes m c (ix1 n)) := by
    apply Fin.ext
    show min ((broadcastInDim S4096x1 ![0] bcast_S4096_S4096x1_0 (select (cmpi .slt (aNodes m c) (broadcastInDim S4096 ![] bcast_S_S4096 (constantI S_ 32 0#32))) (addi (aNodes m c) (broadcastInDim S4096 ![] bcast_S_S4096 (constantI S_ 32 100000#32))) (aNodes m c))) (ix2 n 0)).toInt.toNat (100000 - 1) = min (aNodes m c (ix1 n)).toInt.toNat 99999
    rw [h0]
  exact congrArg (fun r => aU2e m c (ix2 r e)) hrow

/-- Window 2's array: the first 256 rows of gate_W. -/
theorem V_v5 (c : Dev nD) (e d : Fin 256) : (V m c main_v5 : S256x256.Idx → EReal) (ix2 e d) = aGateW m c (ix2 (lo e) d) := by
  have e1 : (V m c main_v5 : S256x256.Idx → EReal) = (truncf (F := Ideal) .bf16 (extractStridedSlice S256x256 ![0, 0] (m ((c : Thread nD τ).loc main_arg3) : S512x256.Idx → EReal) slices_S512x256_S256x256_0_0 : S256x256.Idx → EReal) bitsLt_bf16_f32 : S256x256.Idx → EReal) := by
    dsimp only [Gen.V]
    simp only [Gen.hostOps0, Gen.hostOps0_1, Gen.hostOps0_2, Gen.hostOps0_3, List.flatten_cons, List.flatten_nil, List.append_nil, List.cons_append, List.nil_append]
    after_results
    all_goals rfl
  rw [e1]
  show extractStridedSlice S256x256 ![0, 0] (m ((c : Thread nD τ).loc main_arg3) : S512x256.Idx → EReal) slices_S512x256_S256x256_0_0 (ix2 e d) = _
  refine extractStridedSlice_apply _ _ _ _ (ix2 (lo e) d) (fun a => ?_)
  match a with
  | ⟨0, _⟩ => show (lo e).val = 0 + e.val; simp [lo]
  | ⟨1, _⟩ => show d.val = 0 + d.val; omega
/-- Window 3's array: the last 256 rows of gate_W. -/
theorem V_v7 (c : Dev nD) (e d : Fin 256) : (V m c main_v7 : S256x256.Idx → EReal) (ix2 e d) = aGateW m c (ix2 (hi e) d) := by
  have e1 : (V m c main_v7 : S256x256.Idx → EReal) = (truncf (F := Ideal) .bf16 (extractStridedSlice S256x256 ![256, 0] (m ((c : Thread nD τ).loc main_arg3) : S512x256.Idx → EReal) slices_S512x256_S256x256_256_0 : S256x256.Idx → EReal) bitsLt_bf16_f32 : S256x256.Idx → EReal) := by
    dsimp only [Gen.V]
    simp only [Gen.hostOps0, Gen.hostOps0_1, Gen.hostOps0_2, Gen.hostOps0_3, List.flatten_cons, List.flatten_nil, List.append_nil, List.cons_append, List.nil_append]
    after_results
    all_goals rfl
  rw [e1]
  show extractStridedSlice S256x256 ![256, 0] (m ((c : Thread nD τ).loc main_arg3) : S512x256.Idx → EReal) slices_S512x256_S256x256_256_0 (ix2 e d) = _
  refine extractStridedSlice_apply _ _ _ _ (ix2 (hi e) d) (fun a => ?_)
  match a with
  | ⟨0, _⟩ => show (hi e).val = 256 + e.val; simp [hi]
  | ⟨1, _⟩ => show d.val = 0 + d.val; omega
/-- Window 4's array: gate_b as one row. -/
theorem V_v13 (c : Dev nD) (d : Fin 256) : (V m c main_v13 : S1x256.Idx → EReal) (ix2 0 d) = aGateB m c (ix1 d) := by
  have e1 : (V m c main_v13 : S1x256.Idx → EReal) = (shapeCast S1x256 (m ((c : Thread nD τ).loc main_arg4) : S256.Idx → EReal) shapeCasts_S256_S1x256 : S1x256.Idx → EReal) := by
    dsimp only [Gen.V]
    simp only [Gen.hostOps0, Gen.hostOps0_1, Gen.hostOps0_2, Gen.hostOps0_3, List.flatten_cons, List.flatten_nil, List.append_nil, List.cons_append, List.nil_append]
    after_results
    all_goals rfl
  rw [e1]
  exact shapeCast_a_1a_apply _ _ 0 d
/-- Window 5's array: the first 256 rows of att1_W. -/
theorem V_v9 (c : Dev nD) (e d : Fin 256) : (V m c main_v9 : S256x256.Idx → EReal) (ix2 e d) = aAtt1W m c (ix2 (lo e) d) := by
  have e1 : (V m c main_v9 : S256x256.Idx → EReal) = (truncf (F := Ideal) .bf16 (extractStridedSlice S256x256 ![0, 0] (m ((c : Thread nD τ).loc main_arg5) : S512x256.Idx → EReal) slices_S512x256_S256x256_0_0 : S256x256.Idx → EReal) bitsLt_bf16_f32 : S256x256.Idx → EReal) := by
    dsimp only [Gen.V]
    simp only [Gen.hostOps0, Gen.hostOps0_1, Gen.hostOps0_2, Gen.hostOps0_3, List.flatten_cons, List.flatten_nil, List.append_nil, List.cons_append, List.nil_append]
    after_results
    all_goals rfl
  rw [e1]
  show extractStridedSlice S256x256 ![0, 0] (m ((c : Thread nD τ).loc main_arg5) : S512x256.Idx → EReal) slices_S512x256_S256x256_0_0 (ix2 e d) = _
  refine extractStridedSlice_apply _ _ _ _ (ix2 (lo e) d) (fun a => ?_)
  match a with
  | ⟨0, _⟩ => show (lo e).val = 0 + e.val; simp [lo]
  | ⟨1, _⟩ => show d.val = 0 + d.val; omega
/-- Window 6's array: the last 256 rows of att1_W. -/
theorem V_v11 (c : Dev nD) (e d : Fin 256) : (V m c main_v11 : S256x256.Idx → EReal) (ix2 e d) = aAtt1W m c (ix2 (hi e) d) := by
  have e1 : (V m c main_v11 : S256x256.Idx → EReal) = (truncf (F := Ideal) .bf16 (extractStridedSlice S256x256 ![256, 0] (m ((c : Thread nD τ).loc main_arg5) : S512x256.Idx → EReal) slices_S512x256_S256x256_256_0 : S256x256.Idx → EReal) bitsLt_bf16_f32 : S256x256.Idx → EReal) := by
    dsimp only [Gen.V]
    simp only [Gen.hostOps0, Gen.hostOps0_1, Gen.hostOps0_2, Gen.hostOps0_3, List.flatten_cons, List.flatten_nil, List.append_nil, List.cons_append, List.nil_append]
    after_results
    all_goals rfl
  rw [e1]
  show extractStridedSlice S256x256 ![256, 0] (m ((c : Thread nD τ).loc main_arg5) : S512x256.Idx → EReal) slices_S512x256_S256x256_256_0 (ix2 e d) = _
  refine extractStridedSlice_apply _ _ _ _ (ix2 (hi e) d) (fun a => ?_)
  match a with
  | ⟨0, _⟩ => show (hi e).val = 256 + e.val; simp [hi]
  | ⟨1, _⟩ => show d.val = 0 + d.val; omega
/-- Window 7's array: att1_b as one row. -/
theorem V_v14 (c : Dev nD) (d : Fin 256) : (V m c main_v14 : S1x256.Idx → EReal) (ix2 0 d) = aAtt1B m c (ix1 d) := by
  have e1 : (V m c main_v14 : S1x256.Idx → EReal) = (shapeCast S1x256 (m ((c : Thread nD τ).loc main_arg6) : S256.Idx → EReal) shapeCasts_S256_S1x256 : S1x256.Idx → EReal) := by
    dsimp only [Gen.V]
    simp only [Gen.hostOps0, Gen.hostOps0_1, Gen.hostOps0_2, Gen.hostOps0_3, List.flatten_cons, List.flatten_nil, List.append_nil, List.cons_append, List.nil_append]
    after_results
    all_goals rfl
  rw [e1]
  exact shapeCast_a_1a_apply _ _ 0 d
/-- Window 8's array: att2_W. -/
theorem V_v12 (c : Dev nD) (e d : Fin 256) : (V m c main_v12 : S256x256.Idx → EReal) (ix2 e d) = aAtt2W m c (ix2 e d) := by
  have e1 : (V m c main_v12 : S256x256.Idx → EReal) = (truncf (F := Ideal) .bf16 (m ((c : Thread nD τ).loc main_arg7) : S256x256.Idx → EReal) bitsLt_bf16_f32 : S256x256.Idx → EReal) := by
    dsimp only [Gen.V]
    simp only [Gen.hostOps0, Gen.hostOps0_1, Gen.hostOps0_2, Gen.hostOps0_3, List.flatten_cons, List.flatten_nil, List.append_nil, List.cons_append, List.nil_append]
    after_results
    all_goals rfl
  rw [e1]
  rfl
/-- Window 9's array: att2_b as one row. -/
theorem V_v15 (c : Dev nD) (d : Fin 256) : (V m c main_v15 : S1x256.Idx → EReal) (ix2 0 d) = aAtt2B m c (ix1 d) := by
  have e1 : (V m c main_v15 : S1x256.Idx → EReal) = (shapeCast S1x256 (m ((c : Thread nD τ).loc main_arg8) : S256.Idx → EReal) shapeCasts_S256_S1x256 : S1x256.Idx → EReal) := by
    dsimp only [Gen.V]
    simp only [Gen.hostOps0, Gen.hostOps0_1, Gen.hostOps0_2, Gen.hostOps0_3, List.flatten_cons, List.flatten_nil, List.append_nil, List.cons_append, List.nil_append]
    after_results
    all_goals rfl
  rw [e1]
  exact shapeCast_a_1a_apply _ _ 0 d
/-- Window 10's array: att3_W itself. -/
theorem V_arg9 (c : Dev nD) (d : Fin 256) : (V m c main_arg9 : S256x1.Idx → EReal) (ix2 d 0) = aAtt3W m c (ix2 d 0) := by
  rw [Gen.V_main_arg9 m c]
/-- Window 11's array: att3_b as a one-by-one matrix. -/
theorem V_v16 (c : Dev nD) : (V m c main_v16 : S1x1.Idx → EReal) (ix2 0 0) = aAtt3B m c (ix1 0) := by
  have e1 : (V m c main_v16 : S1x1.Idx → EReal) = (shapeCast S1x1 (m ((c : Thread nD τ).loc main_arg10) : S1.Idx → EReal) shapeCasts_S1_S1x1 : S1x1.Idx → EReal) := by
    dsimp only [Gen.V]
    simp only [Gen.hostOps0, Gen.hostOps0_1, Gen.hostOps0_2, Gen.hostOps0_3, List.flatten_cons, List.flatten_nil, List.append_nil, List.cons_append, List.nil_append]
    after_results
    all_goals rfl
  rw [e1]
  exact shapeCast_a_1a_apply _ _ 0 0

end Cert.KernelIdeal.KHost

end
-- ==== Proof.KValue.lean ====
/-
  The kernel's result array after the run. Grid point t handles the 128 nodes 128·t … 128·t + 127: it stages rows
  128·t + p of the two gathered row arrays and the whole weight arrays, and writes back, at row p and column d of
  its output block, the gated-attention aggregation of node 128·t + p. The 32 blocks tile the 4096 rows, so the array
  ends holding that aggregation at every (n, d).
-/
import proofs.«424002_j31069793419779_2_alg».proof.Proof.Gen.KernelIdeal.Value
import proofs.«424002_j31069793419779_2_alg».proof.Proof.KPay
import proofs.«424002_j31069793419779_2_alg».proof.Proof.KHost
import proofs.«424002_j31069793419779_2_alg».proof.Proof.Spec
import Idealize.ShloMosaic.Lib.Pipeline.Value
import Idealize.ShloMosaic.Lib.ValueIdx

set_option maxRecDepth 16384

noncomputable section

namespace Cert.KernelIdeal.KValue

open Cert.KernelIdeal Cert.KernelIdeal.Gen Cert.KernelIdeal.Value Cert.KernelIdeal.KHost Cert.KernelIdeal.KPay
open Idealize.ShloMosaic Idealize.ShloMosaic.TcCoe Idealize.SL.Sem Idealize.ShloMosaic.ValueIdx Cert.Gnn
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The aggregation of every node, from the argument arrays as the program was launched with them. -/
abbrev result (c : Dev nD) : S4096x256.Idx → EReal :=
  Gk (aNodes m c) (aNeighs m c) (aU2e m c) (aGateW m c) (aGateB m c) (aAtt1W m c) (aAtt1B m c) (aAtt2W m c)
    (aAtt2B m c) (aAtt3W m c) (aAtt3B m c)

/-- The index maps over the grid: the two row windows move with the output along the rows; every weight window
    stays at block (0, 0). -/
theorem idx_facts : ∀ t : Fin cfg0.N,
    win0_0.index t (0 : Fin 3) = win0_12.index t (0 : Fin 2) ∧ win0_0.index t (1 : Fin 3) = 0 ∧ win0_0.index t (2 : Fin 3) = 0
    ∧ win0_1.index t (0 : Fin 2) = win0_12.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) ≤ 31 ∧ win0_12.index t (1 : Fin 2) = 0 :=
  (by decide +kernel : ∀ t : Fin grid0.N, _)

/-- Every block row of the output is some point's. -/
theorem idx_onto : ∀ q : Fin 32, ∃ t : Fin cfg0.N, win0_12.index t = ![q.val, 0] :=
  (by decide +kernel : ∀ q : Fin 32, ∃ t : Fin grid0.N, win0_12.index t = ![q.val, 0])

/-! A window's block at a point is its array read through the block's rectangle. -/

theorem blk0_apply (c : Dev nD) (t : Fin cfg0.N) (j : ((cfg0.win 0).xblock (cfg0.grid.coords t)).Idx) :
    iblk m c 0 t j = V m c main_v1 (((cfg0.win 0).blk t).view.emb j) := rfl
theorem blk1_apply (c : Dev nD) (t : Fin cfg0.N) (j : ((cfg0.win 1).xblock (cfg0.grid.coords t)).Idx) :
    iblk m c 1 t j = V m c main_v3 (((cfg0.win 1).blk t).view.emb j) := rfl
theorem blk2_apply (c : Dev nD) (t : Fin cfg0.N) (j : ((cfg0.win 2).xblock (cfg0.grid.coords t)).Idx) :
    iblk m c 2 t j = V m c main_v5 (((cfg0.win 2).blk t).view.emb j) := rfl
theorem blk3_apply (c : Dev nD) (t : Fin cfg0.N) (j : ((cfg0.win 3).xblock (cfg0.grid.coords t)).Idx) :
    iblk m c 3 t j = V m c main_v7 (((cfg0.win 3).blk t).view.emb j) := rfl
theorem blk4_apply (c : Dev nD) (t : Fin cfg0.N) (j : ((cfg0.win 4).xblock (cfg0.grid.coords t)).Idx) :
    iblk m c 4 t j = V m c main_v13 (((cfg0.win 4).blk t).view.emb j) := rfl
theorem blk5_apply (c : Dev nD) (t : Fin cfg0.N) (j : ((cfg0.win 5).xblock (cfg0.grid.coords t)).Idx) :
    iblk m c 5 t j = V m c main_v9 (((cfg0.win 5).blk t).view.emb j) := rfl
theorem blk6_apply (c : Dev nD) (t : Fin cfg0.N) (j : ((cfg0.win 6).xblock (cfg0.grid.coords t)).Idx) :
    iblk m c 6 t j = V m c main_v11 (((cfg0.win 6).blk t).view.emb j) := rfl
theorem blk7_apply (c : Dev nD) (t : Fin cfg0.N) (j : ((cfg0.win 7).xblock (cfg0.grid.coords t)).Idx) :
    iblk m c 7 t j = V m c main_v14 (((cfg0.win 7).blk t).view.emb j) := rfl
theorem blk8_apply (c : Dev nD) (t : Fin cfg0.N) (j : ((cfg0.win 8).xblock (cfg0.grid.coords t)).Idx) :
    iblk m c 8 t j = V m c main_v12 (((cfg0.win 8).blk t).view.emb j) := rfl
theorem blk9_apply (c : Dev nD) (t : Fin cfg0.N) (j : ((cfg0.win 9).xblock (cfg0.grid.coords t)).Idx) :
    iblk m c 9 t j = V m c main_v15 (((cfg0.win 9).blk t).view.emb j) := rfl
theorem blk10_apply (c : Dev nD) (t : Fin cfg0.N) (j : ((cfg0.win 10).xblock (cfg0.grid.coords t)).Idx) :
    iblk m c 10 t j = V m c main_arg9 (((cfg0.win 10).blk t).view.emb j) := rfl
theorem blk11_apply (c : Dev nD) (t : Fin cfg0.N) (j : ((cfg0.win 11).xblock (cfg0.grid.coords t)).Idx) :
    iblk m c 11 t j = V m c main_v16 (((cfg0.win 11).blk t).view.emb j) := rfl

/-- What point t writes back is block t of the aggregation. -/
theorem flushed_eq (c : Dev nD)
    (hn : ∀ i, 0 ≤ (aNodes m c i).toInt ∧ (aNodes m c i).toInt < 100000)
    (hg : ∀ i, 0 ≤ (aNeighs m c i).toInt ∧ (aNeighs m c i).toInt < 100000) (t : Fin cfg0.N) :
    (dats m 0 c).flushed 12 t = ((cfg0.win 12).blk t).view.read (Elt Ideal) (result m c) := by
  rw [flushed12]
  unfold out0_12
  rw [View.canon_unit_zero hz2]
  simp only [View.ld_unit_zero (S := S128x64x256) hz3, View.ld_unit_zero (S := S128x256) hz2,
    View.ld_unit_zero (S := S256x256) hz2, View.ld_unit_zero (S := S1x256) hz2, View.ld_unit_zero (S := S256x1) hz2,
    View.ld_unit_zero (S := S1x1) hz2]
  obtain ⟨e00, e01, e02, e10, e11, e20, e21, e30, e31, e40, e41, e50, e51, e60, e61, e70, e71, e80, e81, e90, e91,
    ea0, ea1, eb0, eb1, ec0, ec1⟩ := idx_facts t
  funext y
  obtain ⟨p, d, rfl⟩ : ∃ (p : Fin 128) (d : Fin 256), y = ix2 p d := ⟨y 0, y 1, eq_ix2 y⟩
  show k0_pay1 (F := Ideal) (k0_pay6 (k0_pay3 (iblk m c 0 t) (iblk m c 1 t) (iblk m c 2 t) (iblk m c 3 t) (iblk m c 4 t))
          (k0_pay4 (iblk m c 0 t) (iblk m c 1 t) (iblk m c 2 t) (iblk m c 3 t) (iblk m c 4 t) (iblk m c 5 t))
          (k0_pay5 (iblk m c 1 t) (iblk m c 6 t)) (iblk m c 7 t) (iblk m c 8 t) (iblk m c 9 t) (iblk m c 10 t)
          (iblk m c 11 t)) (ix2 p d) = result m c (((cfg0.win 12).blk t).view.emb (ix2 p d))
  refine (pay_apply (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t) p d).trans ?_
  have hp : p.val < 128 := p.isLt
  have hd : d.val < 256 := d.isLt
  -- the node this row of the block belongs to
  obtain ⟨n, hnv⟩ : ∃ n : Fin 4096, n.val = win0_12.index t (0 : Fin 2) * 128 + p.val :=
    ⟨⟨win0_12.index t (0 : Fin 2) * 128 + p.val, by omega⟩, rfl⟩
  have hemb : ((cfg0.win 12).blk t).view.emb (ix2 p d) = ix2 n d := by
    funext x; apply Fin.ext
    match x with
    | ⟨0, _⟩ => show win0_12.index t (0 : Fin 2) * 128 + 1 * p.val = n.val; omega
    | ⟨1, _⟩ => show win0_12.index t (1 : Fin 2) * 256 + 1 * d.val = d.val; omega
  rw [hemb]
  -- the two row blocks are rows of the gathered arrays
  have h0 : (fun (k : Fin 64) (e : Fin 256) => iblk m c 0 t (ix3 p k e)) = Erow (aNeighs m c) (aU2e m c) n := by
    funext k e
    have hk : k.val < 64 := k.isLt
    have hee : e.val < 256 := e.isLt
    have he : ((cfg0.win 0).blk t).view.emb (ix3 p k e) = ix3 n k e := by
      funext x; apply Fin.ext
      match x with
      | ⟨0, _⟩ => show win0_0.index t (0 : Fin 3) * 128 + 1 * p.val = n.val; omega
      | ⟨1, _⟩ => show win0_0.index t (1 : Fin 3) * 64 + 1 * k.val = k.val; omega
      | ⟨2, _⟩ => show win0_0.index t (2 : Fin 3) * 256 + 1 * e.val = e.val; omega
    refine (blk0_apply m c t (ix3 p k e)).trans ?_
    rw [he]
    exact V_v1 m c hg n k e
  have h1 : (fun (e : Fin 256) => iblk m c 1 t (ix2 p e)) = Urow (aNodes m c) (aU2e m c) n := by
    funext e
    have hee : e.val < 256 := e.isLt
    have he : ((cfg0.win 1).blk t).view.emb (ix2 p e) = ix2 n e := by
      funext x; apply Fin.ext
      match x with
      | ⟨0, _⟩ => show win0_1.index t (0 : Fin 2) * 128 + 1 * p.val = n.val; omega
      | ⟨1, _⟩ => show win0_1.index t (1 : Fin 2) * 256 + 1 * e.val = e.val; omega
    refine (blk1_apply m c t (ix2 p e)).trans ?_
    rw [he]
    exact V_v3 m c hn n e
  -- the weight blocks are the whole weight arrays
  have h2 : (fun (a b : Fin 256) => iblk m c 2 t (ix2 a b)) = fun a b => aGateW m c (ix2 (lo a) b) := by
    funext a b
    have he : ((cfg0.win 2).blk t).view.emb (ix2 a b) = ix2 a b := by
      funext x; apply Fin.ext
      match x with
      | ⟨0, _⟩ => show win0_2.index t (0 : Fin 2) * 256 + 1 * a.val = a.val; omega
      | ⟨1, _⟩ => show win0_2.index t (1 : Fin 2) * 256 + 1 * b.val = b.val; omega
    refine (blk2_apply m c t (ix2 a b)).trans ?_
    rw [he]
    exact V_v5 m c a b
  have h3 : (fun (a b : Fin 256) => iblk m c 3 t (ix2 a b)) = fun a b => aGateW m c (ix2 (hi a) b) := by
    funext a b
    have he : ((cfg0.win 3).blk t).view.emb (ix2 a b) = ix2 a b := by
      funext x; apply Fin.ext
      match x with
      | ⟨0, _⟩ => show win0_3.index t (0 : Fin 2) * 256 + 1 * a.val = a.val; omega
      | ⟨1, _⟩ => show win0_3.index t (1 : Fin 2) * 256 + 1 * b.val = b.val; omega
    refine (blk3_apply m c t (ix2 a b)).trans ?_
    rw [he]
    exact V_v7 m c a b
  have h4 : (fun (b : Fin 256) => iblk m c 4 t (ix2 0 b)) = fun b => aGateB m c (ix1 b) := by
    funext b
    have he : ((cfg0.win 4).blk t).view.emb (ix2 (0 : Fin 1) b) = ix2 0 b := by
      funext x; apply Fin.ext
      match x with
      | ⟨0, _⟩ => show win0_4.index t (0 : Fin 2) * 1 + 1 * 0 = 0; omega
      | ⟨1, _⟩ => show win0_4.index t (1 : Fin 2) * 256 + 1 * b.val = b.val; omega
    refine (blk4_apply m c t (ix2 (0 : Fin 1) b)).trans ?_
    rw [he]
    exact V_v13 m c b
  have h5 : (fun (a b : Fin 256) => iblk m c 5 t (ix2 a b)) = fun a b => aAtt1W m c (ix2 (lo a) b) := by
    funext a b
    have he : ((cfg0.win 5).blk t).view.emb (ix2 a b) = ix2 a b := by
      funext x; apply Fin.ext
      match x with
      | ⟨0, _⟩ => show win0_5.index t (0 : Fin 2) * 256 + 1 * a.val = a.val; omega
      | ⟨1, _⟩ => show win0_5.index t (1 : Fin 2) * 256 + 1 * b.val = b.val; omega
    refine (blk5_apply m c t (ix2 a b)).trans ?_
    rw [he]
    exact V_v9 m c a b
  have h6 : (fun (a b : Fin 256) => iblk m c 6 t (ix2 a b)) = fun a b => aAtt1W m c (ix2 (hi a) b) := by
    funext a b
    have he : ((cfg0.win 6).blk t).view.emb (ix2 a b) = ix2 a b := by
      funext x; apply Fin.ext
      match x with
      | ⟨0, _⟩ => show win0_6.index t (0 : Fin 2) * 256 + 1 * a.val = a.val; omega
      | ⟨1, _⟩ => show win0_6.index t (1 : Fin 2) * 256 + 1 * b.val = b.val; omega
    refine (blk6_apply m c t (ix2 a b)).trans ?_
    rw [he]
    exact V_v11 m c a b
  have h7 : (fun (b : Fin 256) => iblk m c 7 t (ix2 0 b)) = fun b => aAtt1B m c (ix1 b) := by
    funext b
    have he : ((cfg0.win 7).blk t).view.emb (ix2 (0 : Fin 1) b) = ix2 0 b := by
      funext x; apply Fin.ext
      match x with
      | ⟨0, _⟩ => show win0_7.index t (0 : Fin 2) * 1 + 1 * 0 = 0; omega
      | ⟨1, _⟩ => show win0_7.index t (1 : Fin 2) * 256 + 1 * b.val = b.val; omega
    refine (blk7_apply m c t (ix2 (0 : Fin 1) b)).trans ?_
    rw [he]
    exact V_v14 m c b
  have h8 : (fun (a b : Fin 256) => iblk m c 8 t (ix2 a b)) = fun a b => aAtt2W m c (ix2 a b) := by
    funext a b
    have he : ((cfg0.win 8).blk t).view.emb (ix2 a b) = ix2 a b := by
      funext x; apply Fin.ext
      match x with
      | ⟨0, _⟩ => show win0_8.index t (0 : Fin 2) * 256 + 1 * a.val = a.val; omega
      | ⟨1, _⟩ => show win0_8.index t (1 : Fin 2) * 256 + 1 * b.val = b.val; omega
    refine (blk8_apply m c t (ix2 a b)).trans ?_
    rw [he]
    exact V_v12 m c a b
  have h9 : (fun (b : Fin 256) => iblk m c 9 t (ix2 0 b)) = fun b => aAtt2B m c (ix1 b) := by
    funext b
    have he : ((cfg0.win 9).blk t).view.emb (ix2 (0 : Fin 1) b) = ix2 0 b := by
      funext x; apply Fin.ext
      match x with
      | ⟨0, _⟩ => show win0_9.index t (0 : Fin 2) * 1 + 1 * 0 = 0; omega
      | ⟨1, _⟩ => show win0_9.index t (1 : Fin 2) * 256 + 1 * b.val = b.val; omega
    refine (blk9_apply m c t (ix2 (0 : Fin 1) b)).trans ?_
    rw [he]
    exact V_v15 m c b
  have h10 : (fun (a : Fin 256) => iblk m c 10 t (ix2 a 0)) = fun a => aAtt3W m c (ix2 a 0) := by
    funext a
    have he : ((cfg0.win 10).blk t).view.emb (ix2 a (0 : Fin 1)) = ix2 a 0 := by
      funext x; apply Fin.ext
      match x with
      | ⟨0, _⟩ => show win0_10.index t (0 : Fin 2) * 256 + 1 * a.val = a.val; omega
      | ⟨1, _⟩ => show win0_10.index t (1 : Fin 2) * 1 + 1 * 0 = 0; omega
    refine (blk10_apply m c t (ix2 a (0 : Fin 1))).trans ?_
    rw [he]
    exact V_arg9 m c a
  have h11 : iblk m c 11 t (ix2 0 0) = aAtt3B m c (ix1 0) := by
    have he : ((cfg0.win 11).blk t).view.emb (ix2 (0 : Fin 1) (0 : Fin 1)) = ix2 0 0 := by
      funext x; apply Fin.ext
      match x with
      | ⟨0, _⟩ => show win0_11.index t (0 : Fin 2) * 1 + 1 * 0 = 0; omega
      | ⟨1, _⟩ => show win0_11.index t (1 : Fin 2) * 1 + 1 * 0 = 0; omega
    refine (blk11_apply m c t (ix2 (0 : Fin 1) (0 : Fin 1))).trans ?_
    rw [he]
    exact V_v16 m c
  rw [h0, h1, h2, h3, h4, h5, h6, h7, h8, h9, h10, h11]
  rfl

/-- An index of the result array is in point t's block iff each coordinate is in the block's range on its axis. -/
theorem mem_blk (t : Fin cfg0.N) (i : S4096x256.Idx) :
    i ∈ ((cfg0.win 12).blk t).view.set ↔ ∀ a : Fin 2, win0_12.index t a * S128x256.size a ≤ (i a).val ∧ (i a).val < win0_12.index t a * S128x256.size a + S128x256.size a := by
  show i ∈ ((View.whole main_v17).slice (win0_12.rect t)).set ↔ _
  rw [View.set_slice_whole, Rect.mem_set_unit]
  exact Iff.rfl

/-- The 32 blocks of 128 rows cover the 4096 rows: row r lies in the block of point r / 128. -/
theorem cover (i : S4096x256.Idx) : ∃ t : Fin cfg0.N, (cfg0.win 12).flush t = true ∧ i ∈ ((cfg0.win 12).blk t).view.set := by
  have hi0 : (i 0).val < 4096 := (i 0).isLt
  have hi1 : (i 1).val < 256 := (i 1).isLt
  obtain ⟨t, ht⟩ := idx_onto ⟨(i 0).val / 128, by omega⟩
  have q0 : win0_12.index t (0 : Fin 2) = (i 0).val / 128 := congrFun ht 0
  have q1 : win0_12.index t (1 : Fin 2) = 0 := congrFun ht 1
  refine ⟨t, flush0_12 t, ?_⟩
  rw [mem_blk]
  intro a
  match a with
  | ⟨0, _⟩ => show win0_12.index t (0 : Fin 2) * 128 ≤ (i 0).val ∧ (i 0).val < win0_12.index t (0 : Fin 2) * 128 + 128; omega
  | ⟨1, _⟩ => show win0_12.index t (1 : Fin 2) * 256 ≤ (i 1).val ∧ (i 1).val < win0_12.index t (1 : Fin 2) * 256 + 256; omega

/-- The result array after the run is the aggregation of every node. -/
theorem final (c : Dev nD)
    (hn : ∀ i, 0 ≤ (aNodes m c i).toInt ∧ (aNodes m c i).toInt < 100000)
    (hg : ∀ i, 0 ≤ (aNeighs m c i).toInt ∧ (aNeighs m c i).toInt < 100000) :
    (dats m 0 c).arrAt 12 cfg0.N = result m c :=
  (dats m 0 c).arrAt_eq_of_cover 12 (result m c) (fun t _ => flushed_eq m c hn hg t) cover

/-- The kernel's run, with the result array named: the aggregation of every node, the arguments unchanged. -/
theorem run (hn : ∀ c i, 0 ≤ (aNodes m c i).toInt ∧ (aNodes m c i).toInt < 100000)
    (hg : ∀ c i, 0 ≤ (aNeighs m c i).toInt ∧ (aNeighs m c i).toInt < 100000) :
    θ_run defs (onTc (τ := τ) (main (F := Ideal))) ⟨m, fun _ => 0, ρ⟩ fun r => ∀ c : Dev nD,
      r.2.mem ((c : Thread nD τ).loc main_v17) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final m c (hn c) (hg c)), (h c).2⟩) (run_blocks m ρ)

end Cert.KernelIdeal.KValue

end
-- ==== Proof.RValueA.lean ====
/-
  The first half of the reference, read one operation at a time: the two gathers, the gate and the gated
  neighbour rows, where the index words are in range.
-/
import proofs.«424002_j31069793419779_2_alg».proof.Proof.Gen.ReferenceIdeal.Read
import proofs.«424002_j31069793419779_2_alg».proof.Proof.Spec
import proofs.«424002_j31069793419779_2_alg».proof.Proof.LibGatherScatterRows
import Idealize.ShloMosaic.PureOps.Ideal.Laws
import Idealize.ShloMosaic.Lib.StableHlo.Predicate
import Idealize.ShloMosaic.Lib.Pipeline.Value
import Idealize.ShloMosaic.Lib.ValueIdx

noncomputable section

open scoped BigOperators

namespace Cert.ReferenceIdeal.RefValue

open Cert.ReferenceIdeal Cert.ReferenceIdeal.Gen Cert.ReferenceIdeal.Read Idealize.ShloMosaic Idealize.ShloMosaic.ValueIdx Cert.Gnn

/-- A row gather through a rank-3 array [A, B, 1] of index words, read at (a, b, j): the table's entry in column j of
    the row the word at (a, b) names, read as a signed integer and clamped into [0, N - 1]. -/
theorem gather_rows3 {α : Type} {N A B C w : Nat} (hN : 0 < N)
    (d : GatherDims ⟨2, ![N, C]⟩ ⟨3, ![A, B, 1]⟩ ⟨3, ![A, B, C]⟩)
    (hoff : d.offsetDims = [2]) (hcoll : d.collapsedSliceDims = [0]) (hob : d.operandBatchingDims = [])
    (hsb : d.startIndicesBatchingDims = []) (hsim : d.startIndexMap = [0]) (hivd : d.indexVectorDim = 2)
    (x : (⟨2, ![N, C]⟩ : Shape).Idx → α) (idx : IVec ⟨3, ![A, B, 1]⟩ w) (a : Fin A) (b : Fin B) (j : Fin C) :
    Host.gather d x idx (ix3 a b j) = x (ix2 ⟨min (idx (ix3 a b 0)).toInt.toNat (N - 1), by omega⟩ j) := by
  have hsl : d.sliceSizes 0 = 1 := d.slice_collapsed 0 (by rw [hcoll]; exact List.mem_singleton.mpr rfl)
  obtain ⟨od, cs, ob, sb, sim, ivd, ss, wf⟩ := d
  simp only at hoff hcoll hob hsb hsim hivd hsl
  subst hoff hcoll hob hsb hsim hivd
  unfold Host.gather
  congr 1
  funext c
  apply Fin.ext
  match c with
  | ⟨0, _⟩ =>
    -- the row axis: collapsed, so only the clamped start index counts, and the slice there has one row
    show GatherDims.start _ _ _ _ + GatherDims.batchCoord _ _ _ + GatherDims.offCoord _ _ _ = min (idx (ix3 a b 0)).toInt.toNat (N - 1)
    rw [GatherDims.batchCoord_eq_zero _ _ _ List.not_mem_nil,
        GatherDims.offCoord_eq_zero _ _ _ (fun h => ((GatherDims.mem_sKept _ _).mp h).1 (List.mem_singleton.mpr rfl))]
    simp only [Nat.add_zero]
    unfold GatherDims.start
    split
    · show min (idx _).toInt.toNat (N - ss 0) = _
      rw [hsl]
      congr 3
      congr 1
      -- the start index of result (a, b, j) is read at (a, b, 0)
      funext e
      apply Fin.ext
      match e with
      | ⟨0, _⟩ => rfl
      | ⟨1, _⟩ => rfl
      | ⟨2, _⟩ => rfl
    · next hn => exact absurd (List.mem_singleton.mpr rfl) hn
  | ⟨1, _⟩ =>
    -- the column axis: no start index, no batching; the offset coordinate is the result's column
    show 0 + 0 + j.val = j.val
    omega

/-- A non-negative index word is not below zero, so the wrap of a negative index leaves it alone. -/
theorem wrap_eq (w : BitVec 32) (h : 0 ≤ w.toInt) :
    Scalar.select (IntOp.cmpi .slt w 0#32) (IntOp.addi w 100000#32) w = w := by
  have hc : IntOp.cmpi .slt w 0#32 = 0#1 := by
    unfold IntOp.cmpi
    have : w.slt 0#32 = false := by
      simp only [BitVec.slt, BitVec.toInt_zero, decide_eq_false_iff_not, not_lt]
      exact h
    rw [this]; rfl
  rw [hc, select_zero]

/-- The wrapped node words are the node words. -/
theorem v11_eq (x0 : IVec S4096 32) (h0 : ∀ i, 0 ≤ (x0 i).toInt ∧ (x0 i).toInt < 100000) (i : S4096.Idx) :
    val_main_v11 (F := Ideal) x0 i = x0 i := by
  rw [val_main_v11_apply, val_main_v8_apply, val_main_v7_apply, val_main_c_1_apply, val_main_v10_apply,
    val_main_v9_apply, val_main_c_2_apply]
  exact wrap_eq _ (h0 i).1

/-- The node's own row broadcast over its neighbours, at (n, k, d). -/
theorem ref_u (x0 : IVec S4096 32) (x2 : FVec Ideal S100000x256 .f32)
    (h0 : ∀ i, 0 ≤ (x0 i).toInt ∧ (x0 i).toInt < 100000) (n : Fin 4096) (k : Fin 64) (d : Fin 256) :
    val_main_v15 (F := Ideal) x0 x2 (ix3 n k d) = Urow x0 x2 n d := by
  rw [val_main_v15_apply, val_main_v14_apply]
  have e : idx_main_v14 (idx_main_v15 (ix3 n k d)) = ix2 n d :=
    funext fun a => Fin.ext (by match a with | ⟨0, _⟩ => rfl | ⟨1, _⟩ => rfl)
  rw [e]
  unfold val_main_v13
  rw [Cert.LibRows.gather_rows (by decide) _ rfl rfl rfl rfl rfl rfl]
  have e2 : idx_main_v12 (ix2 n 0) = ix1 n :=
    funext fun a => Fin.ext (by match a with | ⟨0, _⟩ => rfl)
  have hw : val_main_v12 (F := Ideal) x0 (ix2 n 0) = x0 (ix1 n) := by
    rw [val_main_v12_apply, e2, v11_eq x0 h0]
  unfold Urow rowOf
  congr 2
  apply Fin.ext
  show min (BitVec.toInt (val_main_v12 (F := Ideal) x0 (ix2 n 0))).toNat (100000 - 1) = min (x0 (ix1 n)).toInt.toNat 99999
  rw [hw]

/-- The wrapped neighbour words are the neighbour words. -/
theorem v4_eq (x1 : IVec S4096x64 32) (h1 : ∀ i, 0 ≤ (x1 i).toInt ∧ (x1 i).toInt < 100000) (i : S4096x64.Idx) :
    val_main_v4 (F := Ideal) x1 i = x1 i := by
  rw [val_main_v4_apply, val_main_v1_apply, val_main_v0_apply, val_main_c_apply, val_main_v3_apply,
    val_main_v2_apply, val_main_c_0_apply]
  exact wrap_eq _ (h1 i).1

/-- The neighbours' gathered rows, at (n, k, d). -/
theorem ref_e (x1 : IVec S4096x64 32) (x2 : FVec Ideal S100000x256 .f32)
    (h1 : ∀ i, 0 ≤ (x1 i).toInt ∧ (x1 i).toInt < 100000) (n : Fin 4096) (k : Fin 64) (d : Fin 256) :
    val_main_v6 (F := Ideal) x1 x2 (ix3 n k d) = Erow x1 x2 n k d := by
  unfold val_main_v6
  rw [gather_rows3 (by decide) _ rfl rfl rfl rfl rfl rfl]
  have e2 : idx_main_v5 (ix3 n k 0) = ix2 n k :=
    funext fun a => Fin.ext (by match a with | ⟨0, _⟩ => rfl | ⟨1, _⟩ => rfl)
  have hw : val_main_v5 (F := Ideal) x1 (ix3 n k 0) = x1 (ix2 n k) := by
    rw [val_main_v5_apply, e2, v4_eq x1 h1]
  unfold Erow rowOf
  congr 2
  apply Fin.ext
  show min (BitVec.toInt (val_main_v5 (F := Ideal) x1 (ix3 n k 0))).toNat (100000 - 1) = min (x1 (ix2 n k)).toInt.toNat 99999
  rw [hw]

/-- The concatenated row [E k ; U] of node n, at entry e of its 512. -/
theorem ref_cat (x0 : IVec S4096 32) (x1 : IVec S4096x64 32) (x2 : FVec Ideal S100000x256 .f32)
    (h0 : ∀ i, 0 ≤ (x0 i).toInt ∧ (x0 i).toInt < 100000) (h1 : ∀ i, 0 ≤ (x1 i).toInt ∧ (x1 i).toInt < 100000)
    (n : Fin 4096) (k : Fin 64) (e : Fin 512) :
    val_main_v16 (F := Ideal) x0 x1 x2 (ix3 n k e) = cat (Erow x1 x2 n k) (Urow x0 x2 n) e := by
  unfold val_main_v16 cat
  by_cases h : e.val < 256
  · rw [dif_pos h]
    rw [concatenate_pair_apply_left (t := S4096x64x512) (s₁ := S4096x64x256) (s₂ := S4096x64x256) 2 _ _ _
      (ix3 n k e) rfl (ix3 n k (⟨e.val, h⟩ : Fin 256))
      (fun b => by match b with | ⟨0, _⟩ => rfl | ⟨1, _⟩ => rfl | ⟨2, _⟩ => rfl)]
    exact ref_e x1 x2 h1 n k ⟨e.val, h⟩
  · rw [dif_neg h]
    rw [concatenate_pair_apply_right (t := S4096x64x512) (s₁ := S4096x64x256) (s₂ := S4096x64x256) 2 _ _ _
      (ix3 n k e) rfl rfl (ix3 n k (⟨e.val - 256, by omega⟩ : Fin 256))
      (fun b hb => by match b with | ⟨0, _⟩ => rfl | ⟨1, _⟩ => rfl | ⟨2, _⟩ => exact absurd rfl hb)
      (by show e.val - 256 + 256 = e.val; omega)]
    exact ref_u x0 x2 h0 n k ⟨e.val - 256, by omega⟩

/-- The product of [E k ; U] with the gate's weights, at (n, k, d). -/
theorem ref_dot (x0 : IVec S4096 32) (x1 : IVec S4096x64 32) (x2 : FVec Ideal S100000x256 .f32)
    (x3 : FVec Ideal S512x256 .f32)
    (h0 : ∀ i, 0 ≤ (x0 i).toInt ∧ (x0 i).toInt < 100000) (h1 : ∀ i, 0 ≤ (x1 i).toInt ∧ (x1 i).toInt < 100000)
    (n : Fin 4096) (k : Fin 64) (d : Fin 256) :
    val_main_v17 (F := Ideal) x0 x1 x2 x3 (ix3 n k d)
      = ∑ e : Fin 512, cat (Erow x1 x2 n k) (Urow x0 x2 n) e * x3 (ix2 e d) := by
  rw [val_main_v17_apply]
  refine Finset.sum_congr rfl fun e _ => ?_
  have el : lidx_main_v17 (ix3 n k d) e = ix3 n k e :=
    funext fun a => Fin.ext (by match a with | ⟨0, _⟩ => rfl | ⟨1, _⟩ => rfl | ⟨2, _⟩ => rfl)
  have er : ridx_main_v17 (ix3 n k d) e = ix2 e d :=
    funext fun a => Fin.ext (by match a with | ⟨0, _⟩ => rfl | ⟨1, _⟩ => rfl)
  rw [el, er, ref_cat x0 x1 x2 h0 h1 n k e]

/-- The gate's affine layer, at (n, k, d). -/
theorem ref_aff (x0 : IVec S4096 32) (x1 : IVec S4096x64 32) (x2 : FVec Ideal S100000x256 .f32)
    (x3 : FVec Ideal S512x256 .f32) (x4 : FVec Ideal S256 .f32)
    (h0 : ∀ i, 0 ≤ (x0 i).toInt ∧ (x0 i).toInt < 100000) (h1 : ∀ i, 0 ≤ (x1 i).toInt ∧ (x1 i).toInt < 100000)
    (n : Fin 4096) (k : Fin 64) (d : Fin 256) :
    val_main_v20 (F := Ideal) x0 x1 x2 x3 x4 (ix3 n k d)
      = catAff (Urow x0 x2 n) (fun e d => x3 (ix2 e d)) (fun d => x4 (ix1 d)) (Erow x1 x2 n) k d := by
  have eb : idx_main_v18 (idx_main_v19 (ix3 n k d)) = ix1 d :=
    funext fun a => Fin.ext (by match a with | ⟨0, _⟩ => rfl)
  rw [val_main_v20_apply, ref_dot x0 x1 x2 x3 h0 h1, val_main_v19_apply, val_main_v18_apply, eb]
  rfl

/-- The literal 1.0. -/
theorem one_f32 : Ideal.ofBits .f32 0x3F800000#32 = 1 := by
  simp [Ideal.ofBits, Ideal.ieee, -EReal.coe_mul]; norm_num

/-- The gate, at (n, k, d). -/
theorem ref_gate (x0 : IVec S4096 32) (x1 : IVec S4096x64 32) (x2 : FVec Ideal S100000x256 .f32)
    (x3 : FVec Ideal S512x256 .f32) (x4 : FVec Ideal S256 .f32)
    (h0 : ∀ i, 0 ≤ (x0 i).toInt ∧ (x0 i).toInt < 100000) (h1 : ∀ i, 0 ≤ (x1 i).toInt ∧ (x1 i).toInt < 100000)
    (n : Fin 4096) (k : Fin 64) (d : Fin 256) :
    val_main_v26 (F := Ideal) x0 x1 x2 x3 x4 (ix3 n k d)
      = rGate (Erow x1 x2 n) (Urow x0 x2 n) (fun e d => x3 (ix2 e d)) (fun d => x4 (ix1 d)) k d := by
  rw [val_main_v26_apply, val_main_v25_apply, val_main_cst_3_apply, val_main_v24_apply, val_main_v23_apply,
    val_main_cst_apply, val_main_v22_apply, val_main_v21_apply, ref_aff x0 x1 x2 x3 x4 h0 h1]
  simp only [Ideal.hostDivf_def, Ideal.addf_def, Ideal.hostUnary_exp_def, Ideal.hostNegf_def, Ideal.negf_def,
    Ideal.ofBits_def, one_f32]
  rfl

/-- The reference's gated neighbour rows, at (n, k, d). -/
theorem ref_eg (x0 : IVec S4096 32) (x1 : IVec S4096x64 32) (x2 : FVec Ideal S100000x256 .f32)
    (x3 : FVec Ideal S512x256 .f32) (x4 : FVec Ideal S256 .f32)
    (h0 : ∀ i, 0 ≤ (x0 i).toInt ∧ (x0 i).toInt < 100000) (h1 : ∀ i, 0 ≤ (x1 i).toInt ∧ (x1 i).toInt < 100000)
    (n : Fin 4096) (k : Fin 64) (d : Fin 256) :
    val_main_v31 (F := Ideal) x0 x1 x2 x3 x4 (ix3 n k d)
      = rEg (Erow x1 x2 n) (Urow x0 x2 n) (fun e d => x3 (ix2 e d)) (fun d => x4 (ix1 d)) k d := by
  rw [val_main_v31_apply, val_main_v27_apply, val_main_v30_apply, val_main_v29_apply, val_main_v28_apply,
    val_main_cst_4_apply, ref_gate x0 x1 x2 x3 x4 h0 h1, ref_e x1 x2 h1, ref_u x0 x2 h0]
  simp only [Ideal.addf_def, Ideal.mulf_def, Ideal.subf_def, Ideal.ofBits_def, one_f32]
  rfl

end Cert.ReferenceIdeal.RefValue

end
-- ==== Proof.RValue.lean ====
/-
  The reference's result array, read one operation at a time, is the reference's spelling of the gated-attention
  aggregation of every node, where the index words are in range.
-/
import proofs.«424002_j31069793419779_2_alg».proof.Proof.Gen.ReferenceIdeal.Read
import proofs.«424002_j31069793419779_2_alg».proof.Proof.Spec
import proofs.«424002_j31069793419779_2_alg».proof.Proof.RValueA
import proofs.«424002_j31069793419779_2_alg».proof.Proof.LibGatherScatterRows
import Idealize.ShloMosaic.PureOps.Ideal.Laws
import Idealize.ShloMosaic.Lib.StableHlo.Predicate
import Idealize.ShloMosaic.Lib.Pipeline.Value
import Idealize.ShloMosaic.Lib.ValueIdx

noncomputable section

open scoped BigOperators

namespace Cert.ReferenceIdeal.RefValue

open Cert.ReferenceIdeal Cert.ReferenceIdeal.Gen Cert.ReferenceIdeal.Read Idealize.ShloMosaic Idealize.ShloMosaic.ValueIdx Cert.Gnn

section Stages
variable (x0 : IVec S4096 32) (x1 : IVec S4096x64 32) (x2 : FVec Ideal S100000x256 .f32)
    (x3 : FVec Ideal S512x256 .f32) (x4 : FVec Ideal S256 .f32) (x5 : FVec Ideal S512x256 .f32) (x6 : FVec Ideal S256 .f32)
    (x7 : FVec Ideal S256x256 .f32) (x8 : FVec Ideal S256 .f32) (x9 : FVec Ideal S256x1 .f32) (x10 : FVec Ideal S1 .f32)
    (h0 : ∀ i, 0 ≤ (x0 i).toInt ∧ (x0 i).toInt < 100000) (h1 : ∀ i, 0 ≤ (x1 i).toInt ∧ (x1 i).toInt < 100000)
include h0 h1

/-- The joined row [gated neighbour row ; own row] at (n, k, e). -/
theorem ref_cat2 (n : Fin 4096) (k : Fin 64) (e : Fin 512) :
    val_main_v32 (F := Ideal) x0 x1 x2 x3 x4 (ix3 n k e)
      = cat (rEg (Erow x1 x2 n) (Urow x0 x2 n) (fun e d => x3 (ix2 e d)) (fun d => x4 (ix1 d)) k) (Urow x0 x2 n) e := by
  unfold val_main_v32 cat
  by_cases h : e.val < 256
  · rw [dif_pos h]
    rw [concatenate_pair_apply_left 2 _ _ concatenates_S4096x64x256_S4096x64x256_S4096x64x512_d2 (ix3 n k e) rfl
      (ix3 n k (⟨e.val, h⟩ : Fin 256))
      (fun b => by match b with | ⟨0, _⟩ => rfl | ⟨1, _⟩ => rfl | ⟨2, _⟩ => rfl)]
    exact ref_eg x0 x1 x2 x3 x4 h0 h1 n k ⟨e.val, h⟩
  · rw [dif_neg h]
    rw [concatenate_pair_apply_right 2 _ _ concatenates_S4096x64x256_S4096x64x256_S4096x64x512_d2 (ix3 n k e) rfl rfl
      (ix3 n k (⟨e.val - 256, by omega⟩ : Fin 256))
      (fun b hb => by match b with | ⟨0, _⟩ => rfl | ⟨1, _⟩ => rfl | ⟨2, _⟩ => exact absurd rfl hb)
      (by show (e.val - 256) + 256 = e.val; omega)]
    exact ref_u x0 x2 h0 n k ⟨e.val - 256, by omega⟩

/-- The first attention layer before its relu, at (n, k, d). -/
theorem ref_a1 (n : Fin 4096) (k : Fin 64) (d : Fin 256) :
    val_main_v36 (F := Ideal) x0 x1 x2 x3 x4 x5 x6 (ix3 n k d)
      = catAff (Urow x0 x2 n) (fun e d => x5 (ix2 e d)) (fun d => x6 (ix1 d))
          (rEg (Erow x1 x2 n) (Urow x0 x2 n) (fun e d => x3 (ix2 e d)) (fun d => x4 (ix1 d))) k d := by
  rw [val_main_v36_apply, val_main_v33_apply, val_main_v35_apply, val_main_v34_apply]
  unfold catAff
  simp only [Ideal.addf_def]
  congr 1
  · refine Finset.sum_congr rfl fun e _ => ?_
    have e1 : lidx_main_v33 (ix3 n k d) e = ix3 n k e :=
      funext fun a => Fin.ext (by match a with | ⟨0, _⟩ => rfl | ⟨1, _⟩ => rfl | ⟨2, _⟩ => rfl)
    have e2 : ridx_main_v33 (ix3 n k d) e = ix2 e d :=
      funext fun a => Fin.ext (by match a with | ⟨0, _⟩ => rfl | ⟨1, _⟩ => rfl)
    rw [e1, e2, ref_cat2 x0 x1 x2 x3 x4 h0 h1]
  · exact congrArg x6 (funext fun a => Fin.ext (by match a with | ⟨0, _⟩ => rfl))

/-- The first hidden row, at (n, k, d). -/
theorem ref_h1 (n : Fin 4096) (k : Fin 64) (d : Fin 256) :
    val_main_v37 (F := Ideal) x0 x1 x2 x3 x4 x5 x6 (ix3 n k d)
      = rH1 (Erow x1 x2 n) (Urow x0 x2 n) (fun e d => x3 (ix2 e d)) (fun d => x4 (ix1 d))
          (fun e d => x5 (ix2 e d)) (fun d => x6 (ix1 d)) k d := by
  rw [val_main_v37_apply, val_main_call0_v0_apply, val_main_call0_cst_apply, ref_a1 x0 x1 x2 x3 x4 x5 x6 h0 h1]
  simp only [Ideal.maximumf_def, Ideal.ofBits_def, Ideal.ofBits_zero_f32]
  rfl

/-- The second hidden row, at (n, k, d). -/
theorem ref_h2 (n : Fin 4096) (k : Fin 64) (d : Fin 256) :
    val_main_v42 (F := Ideal) x0 x1 x2 x3 x4 x5 x6 x7 x8 (ix3 n k d)
      = max ((∑ e : Fin 256, rH1 (Erow x1 x2 n) (Urow x0 x2 n) (fun e d => x3 (ix2 e d)) (fun d => x4 (ix1 d))
          (fun e d => x5 (ix2 e d)) (fun d => x6 (ix1 d)) k e * x7 (ix2 e d)) + x8 (ix1 d)) 0 := by
  rw [val_main_v42_apply, val_main_call1_v0_apply, val_main_call1_cst_apply, val_main_v41_apply, val_main_v38_apply,
    val_main_v40_apply, val_main_v39_apply]
  simp only [Ideal.maximumf_def, Ideal.addf_def, Ideal.ofBits_def, Ideal.ofBits_zero_f32]
  congr 2
  · refine Finset.sum_congr rfl fun e _ => ?_
    have e1 : lidx_main_v38 (ix3 n k d) e = ix3 n k e :=
      funext fun a => Fin.ext (by match a with | ⟨0, _⟩ => rfl | ⟨1, _⟩ => rfl | ⟨2, _⟩ => rfl)
    have e2 : ridx_main_v38 (ix3 n k d) e = ix2 e d :=
      funext fun a => Fin.ext (by match a with | ⟨0, _⟩ => rfl | ⟨1, _⟩ => rfl)
    rw [e1, e2, ref_h1 x0 x1 x2 x3 x4 x5 x6 h0 h1]
  · exact congrArg x8 (funext fun a => Fin.ext (by match a with | ⟨0, _⟩ => rfl))

/-- The score of neighbour k of node n. -/
theorem ref_score (n : Fin 4096) (k : Fin 64) :
    val_main_v46 (F := Ideal) x0 x1 x2 x3 x4 x5 x6 x7 x8 x9 x10 (ix3 n k (0 : Fin 1))
      = score (fun e d => x7 (ix2 e d)) (fun d => x8 (ix1 d)) (fun d => x9 (ix2 d 0)) (x10 (ix1 0))
          (rH1 (Erow x1 x2 n) (Urow x0 x2 n) (fun e d => x3 (ix2 e d)) (fun d => x4 (ix1 d))
            (fun e d => x5 (ix2 e d)) (fun d => x6 (ix1 d))) k := by
  rw [val_main_v46_apply, val_main_v43_apply, val_main_v45_apply, val_main_v44_apply]
  unfold score
  simp only [Ideal.addf_def]
  congr 1
  · refine Finset.sum_congr rfl fun d _ => ?_
    have e1 : lidx_main_v43 (ix3 n k (0 : Fin 1)) d = ix3 n k d :=
      funext fun a => Fin.ext (by match a with | ⟨0, _⟩ => rfl | ⟨1, _⟩ => rfl | ⟨2, _⟩ => rfl)
    have e2 : ridx_main_v43 (ix3 n k (0 : Fin 1)) d = ix2 d (0 : Fin 1) :=
      funext fun a => Fin.ext (by match a with | ⟨0, _⟩ => rfl | ⟨1, _⟩ => rfl)
    rw [e1, e2, ref_h2 x0 x1 x2 x3 x4 x5 x6 x7 x8 h0 h1]
  · exact congrArg x10 (funext fun a => Fin.ext (by match a with | ⟨0, _⟩ => rfl))

omit h0 h1 in
/-- The reduced index (n, 0) with neighbour k put back is (n, k, 0). -/
theorem lift_top (h : S4096x64x1.Reduces [1] S4096x1) (n : Fin 4096) (k : Fin (S4096x64x1.size 1)) :
    h.lift (ix2 n (0 : Fin 1)) k = ix3 n (⟨k.val, k.isLt⟩ : Fin 64) (0 : Fin 1) := by
  funext c; apply Fin.ext
  fin_cases c <;> rfl

omit h0 h1 in
/-- The 32-bit float word of -∞ is the least extended real. -/
theorem neg_inf : Ideal.ofBits .f32 0xFF800000#32 = (⊥ : EReal) := by simp [Ideal.ofBits, Ideal.ieee]

/-- The largest score of node n. -/
theorem ref_top (n : Fin 4096) :
    val_main_v49 (F := Ideal) x0 x1 x2 x3 x4 x5 x6 x7 x8 x9 x10 (ix2 n (0 : Fin 1))
      = top (score (fun e d => x7 (ix2 e d)) (fun d => x8 (ix1 d)) (fun d => x9 (ix2 d 0)) (x10 (ix1 0))
          (rH1 (Erow x1 x2 n) (Urow x0 x2 n) (fun e d => x3 (ix2 e d)) (fun d => x4 (ix1 d))
            (fun e d => x5 (ix2 e d)) (fun d => x6 (ix1 d)))) := by
  have h : S4096x64x1.Reduces [1] S4096x1 := by decide
  rw [val_main_v49_apply, val_main_v48_apply, val_main_cst_6_apply]
  unfold val_main_v47
  rw [Host.reduce_eq_fold_single FloatOps.maximumf _ _ reducesTo_S4096x64x1_S4096x1_d1 h h_S_, val_main_cst_5_apply]
  simp only [Ideal.maximumf_def, Ideal.ofBits_def, neg_inf, bot_le, max_eq_right]
  unfold top
  have hf : (val_main_v46 (F := Ideal) x0 x1 x2 x3 x4 x5 x6 x7 x8 x9 x10 ∘ h.lift (ix2 n (0 : Fin 1)))
      = score (fun e d => x7 (ix2 e d)) (fun d => x8 (ix1 d)) (fun d => x9 (ix2 d 0)) (x10 (ix1 0))
          (rH1 (Erow x1 x2 n) (Urow x0 x2 n) (fun e d => x3 (ix2 e d)) (fun d => x4 (ix1 d))
            (fun e d => x5 (ix2 e d)) (fun d => x6 (ix1 d))) := by
    funext k
    show val_main_v46 (F := Ideal) x0 x1 x2 x3 x4 x5 x6 x7 x8 x9 x10 (h.lift (ix2 n (0 : Fin 1)) k) = _
    rw [lift_top h n k]
    exact ref_score x0 x1 x2 x3 x4 x5 x6 x7 x8 x9 x10 h0 h1 n k
  rw [hf]
  rfl

/-- The exponential of a score less the largest, at (n, k). -/
theorem ref_exp (n : Fin 4096) (k : Fin 64) :
    val_main_v53 (F := Ideal) x0 x1 x2 x3 x4 x5 x6 x7 x8 x9 x10 (ix3 n k (0 : Fin 1))
      = Ideal.exp ((score (fun e d => x7 (ix2 e d)) (fun d => x8 (ix1 d)) (fun d => x9 (ix2 d 0)) (x10 (ix1 0))
          (rH1 (Erow x1 x2 n) (Urow x0 x2 n) (fun e d => x3 (ix2 e d)) (fun d => x4 (ix1 d)) (fun e d => x5 (ix2 e d)) (fun d => x6 (ix1 d)))) k
        - top (score (fun e d => x7 (ix2 e d)) (fun d => x8 (ix1 d)) (fun d => x9 (ix2 d 0)) (x10 (ix1 0))
          (rH1 (Erow x1 x2 n) (Urow x0 x2 n) (fun e d => x3 (ix2 e d)) (fun d => x4 (ix1 d)) (fun e d => x5 (ix2 e d)) (fun d => x6 (ix1 d))))) := by
  rw [val_main_v53_apply, val_main_v52_apply, val_main_v51_apply, val_main_v50_apply]
  have e1 : idx_main_v50 (idx_main_v51 (ix3 n k (0 : Fin 1))) = ix2 n (0 : Fin 1) :=
    funext fun a => Fin.ext (by match a with | ⟨0, _⟩ => rfl | ⟨1, _⟩ => rfl)
  rw [e1, ref_score x0 x1 x2 x3 x4 x5 x6 x7 x8 x9 x10 h0 h1, ref_top x0 x1 x2 x3 x4 x5 x6 x7 x8 x9 x10 h0 h1]
  simp only [Ideal.hostUnary_exp_def, Ideal.subf_def]

/-- The sum of the exponentials over the neighbours of node n. -/
theorem ref_den (n : Fin 4096) :
    val_main_v54 (F := Ideal) x0 x1 x2 x3 x4 x5 x6 x7 x8 x9 x10 (ix2 n (0 : Fin 1))
      = ∑ k' : Fin 64, Ideal.exp ((score (fun e d => x7 (ix2 e d)) (fun d => x8 (ix1 d)) (fun d => x9 (ix2 d 0)) (x10 (ix1 0))
          (rH1 (Erow x1 x2 n) (Urow x0 x2 n) (fun e d => x3 (ix2 e d)) (fun d => x4 (ix1 d)) (fun e d => x5 (ix2 e d)) (fun d => x6 (ix1 d)))) k'
        - top (score (fun e d => x7 (ix2 e d)) (fun d => x8 (ix1 d)) (fun d => x9 (ix2 d 0)) (x10 (ix1 0))
          (rH1 (Erow x1 x2 n) (Urow x0 x2 n) (fun e d => x3 (ix2 e d)) (fun d => x4 (ix1 d)) (fun e d => x5 (ix2 e d)) (fun d => x6 (ix1 d))))) := by
  rw [val_main_v54_apply, val_main_cst_7_apply]
  simp only [Ideal.ofBits_def, Ideal.ofBits_zero_f32, zero_add]
  refine Finset.sum_congr rfl fun k _ => ?_
  have e1 : idx_main_v54 (ix2 n (0 : Fin 1)) k = ix3 n k (0 : Fin 1) :=
    funext fun a => Fin.ext (by match a with | ⟨0, _⟩ => rfl | ⟨1, _⟩ => rfl | ⟨2, _⟩ => rfl)
  rw [e1, ref_exp x0 x1 x2 x3 x4 x5 x6 x7 x8 x9 x10 h0 h1]

/-- The softmax weight of neighbour k of node n. -/
theorem ref_att (n : Fin 4096) (k : Fin 64) :
    val_main_v57 (F := Ideal) x0 x1 x2 x3 x4 x5 x6 x7 x8 x9 x10 (ix3 n k (0 : Fin 1))
      = Ideal.div (Ideal.exp ((score (fun e d => x7 (ix2 e d)) (fun d => x8 (ix1 d)) (fun d => x9 (ix2 d 0)) (x10 (ix1 0))
          (rH1 (Erow x1 x2 n) (Urow x0 x2 n) (fun e d => x3 (ix2 e d)) (fun d => x4 (ix1 d)) (fun e d => x5 (ix2 e d)) (fun d => x6 (ix1 d)))) k
        - top (score (fun e d => x7 (ix2 e d)) (fun d => x8 (ix1 d)) (fun d => x9 (ix2 d 0)) (x10 (ix1 0))
          (rH1 (Erow x1 x2 n) (Urow x0 x2 n) (fun e d => x3 (ix2 e d)) (fun d => x4 (ix1 d)) (fun e d => x5 (ix2 e d)) (fun d => x6 (ix1 d))))))
        (∑ k' : Fin 64, Ideal.exp ((score (fun e d => x7 (ix2 e d)) (fun d => x8 (ix1 d)) (fun d => x9 (ix2 d 0)) (x10 (ix1 0))
          (rH1 (Erow x1 x2 n) (Urow x0 x2 n) (fun e d => x3 (ix2 e d)) (fun d => x4 (ix1 d)) (fun e d => x5 (ix2 e d)) (fun d => x6 (ix1 d)))) k'
        - top (score (fun e d => x7 (ix2 e d)) (fun d => x8 (ix1 d)) (fun d => x9 (ix2 d 0)) (x10 (ix1 0))
          (rH1 (Erow x1 x2 n) (Urow x0 x2 n) (fun e d => x3 (ix2 e d)) (fun d => x4 (ix1 d)) (fun e d => x5 (ix2 e d)) (fun d => x6 (ix1 d)))))) := by
  rw [val_main_v57_apply, val_main_v56_apply, val_main_v55_apply]
  have e1 : idx_main_v55 (idx_main_v56 (ix3 n k (0 : Fin 1))) = ix2 n (0 : Fin 1) :=
    funext fun a => Fin.ext (by match a with | ⟨0, _⟩ => rfl | ⟨1, _⟩ => rfl)
  rw [e1, ref_exp x0 x1 x2 x3 x4 x5 x6 x7 x8 x9 x10 h0 h1, ref_den x0 x1 x2 x3 x4 x5 x6 x7 x8 x9 x10 h0 h1]
  simp only [Ideal.hostDivf_def]

/-- The weighted sum of the gated neighbour rows, at (n, d). -/
theorem ref_out (n : Fin 4096) (d : Fin 256) :
    val_main_v60 (F := Ideal) x0 x1 x2 x3 x4 x5 x6 x7 x8 x9 x10 (ix2 n d)
      = attend (score (fun e d => x7 (ix2 e d)) (fun d => x8 (ix1 d)) (fun d => x9 (ix2 d 0)) (x10 (ix1 0))
          (rH1 (Erow x1 x2 n) (Urow x0 x2 n) (fun e d => x3 (ix2 e d)) (fun d => x4 (ix1 d)) (fun e d => x5 (ix2 e d)) (fun d => x6 (ix1 d))))
          (rEg (Erow x1 x2 n) (Urow x0 x2 n) (fun e d => x3 (ix2 e d)) (fun d => x4 (ix1 d))) d := by
  rw [val_main_v60_apply, val_main_cst_8_apply]
  simp only [Ideal.ofBits_def, Ideal.ofBits_zero_f32, zero_add]
  unfold attend
  refine Finset.sum_congr rfl fun k _ => ?_
  have e1 : idx_main_v60 (ix2 n d) k = ix3 n k d :=
    funext fun a => Fin.ext (by match a with | ⟨0, _⟩ => rfl | ⟨1, _⟩ => rfl | ⟨2, _⟩ => rfl)
  rw [e1, val_main_v59_apply, val_main_v58_apply]
  have e2 : idx_main_v58 (ix3 n k d) = ix3 n k (0 : Fin 1) :=
    funext fun a => Fin.ext (by match a with | ⟨0, _⟩ => rfl | ⟨1, _⟩ => rfl | ⟨2, _⟩ => rfl)
  rw [e2, ref_att x0 x1 x2 x3 x4 x5 x6 x7 x8 x9 x10 h0 h1, ref_eg x0 x1 x2 x3 x4 h0 h1]
  simp only [Ideal.mulf_def]

end Stages

/-- The reference's result is its spelling of the aggregation. -/
theorem ref_eq (x0 : IVec S4096 32) (x1 : IVec S4096x64 32) (x2 : FVec Ideal S100000x256 .f32)
    (x3 : FVec Ideal S512x256 .f32) (x4 : FVec Ideal S256 .f32) (x5 : FVec Ideal S512x256 .f32) (x6 : FVec Ideal S256 .f32)
    (x7 : FVec Ideal S256x256 .f32) (x8 : FVec Ideal S256 .f32) (x9 : FVec Ideal S256x1 .f32) (x10 : FVec Ideal S1 .f32)
    (h0 : ∀ i, 0 ≤ (x0 i).toInt ∧ (x0 i).toInt < 100000) (h1 : ∀ i, 0 ≤ (x1 i).toInt ∧ (x1 i).toInt < 100000) :
    val_main_v60 (F := Ideal) x0 x1 x2 x3 x4 x5 x6 x7 x8 x9 x10 = Gr x0 x1 x2 x3 x4 x5 x6 x7 x8 x9 x10 := by
  funext i
  obtain ⟨n, d, rfl⟩ : ∃ (n : Fin 4096) (d : Fin 256), i = ix2 n d := ⟨i 0, i 1, eq_ix2 i⟩
  rw [ref_out x0 x1 x2 x3 x4 x5 x6 x7 x8 x9 x10 h0 h1 n d]
  unfold Gr rOut
  rfl

end Cert.ReferenceIdeal.RefValue

end
-- ==== Proof.lean ====
/-
  A gated graph-attention aggregation over an embedding table: for each of 4096 nodes, 64 neighbour rows and the
  node's own row are gathered from a [100000, 256] table; a sigmoid gate mixes each neighbour row with the node's
  row; a three-layer network scores each gated row; a softmax over the 64 neighbours weights the gated rows; the
  result is their weighted sum.

  The kernel gathers with a fill (an out-of-range index would read as a filled row) and the reference with a
  clamp, so the two agree where the index words are in range: the precondition says so, beside the finiteness of
  the float inputs. In range the fill never fires and both read the same table rows. The kernel then runs the
  network on blocks of 128 nodes, with each affine layer on the concatenation [x ; u] computed as two products
  x·W[:256] + u·W[256:], the gated row written u + g·(x - u), and the last layer as a multiply and a lane sum; the
  reference runs it on whole arrays, with one product over 512 entries, the gated row written g·x + (1 - g)·u, and
  the last layer as a matrix product with one column. Over the extended reals a finite sum splits in two always, and
  the two spellings of the gated row agree because x, u are real (the table is finite) and the gate, a logistic,
  is always real. Everything else — reshapes, broadcasts, the order of the reductions — is the same function
  index by index.

  The frames of the two kernel programs are the generated ones; the reference's frame is its run with the result
  dropped; the ideal pass rewrote nothing, so the preservation claim is trivial.
-/
import proofs.«424002_j31069793419779_2_alg».proof.Defs
import proofs.«424002_j31069793419779_2_alg».proof.Proof.Gen.Kernel
import proofs.«424002_j31069793419779_2_alg».proof.Proof.Gen.Kernel.Skeleton
import proofs.«424002_j31069793419779_2_alg».proof.Proof.Gen.Kernel.Launch
import proofs.«424002_j31069793419779_2_alg».proof.Proof.Gen.Kernel.Points
import proofs.«424002_j31069793419779_2_alg».proof.Proof.Gen.Kernel.Frame
import proofs.«424002_j31069793419779_2_alg».proof.Proof.Gen.KernelIdeal
import proofs.«424002_j31069793419779_2_alg».proof.Proof.Gen.KernelIdeal.Skeleton
import proofs.«424002_j31069793419779_2_alg».proof.Proof.Gen.KernelIdeal.Launch
import proofs.«424002_j31069793419779_2_alg».proof.Proof.Gen.KernelIdeal.Points
import proofs.«424002_j31069793419779_2_alg».proof.Proof.Gen.KernelIdeal.Frame
import proofs.«424002_j31069793419779_2_alg».proof.Proof.Gen.ReferenceIdeal
import proofs.«424002_j31069793419779_2_alg».proof.Proof.Gen.Pre_finite_inputs
import proofs.«424002_j31069793419779_2_alg».proof.Proof.Gen.KernelIdeal.Value
import proofs.«424002_j31069793419779_2_alg».proof.Proof.Gen.ReferenceIdeal.Run
import proofs.«424002_j31069793419779_2_alg».proof.Proof.Gen.ReferenceIdeal.Read
import proofs.«424002_j31069793419779_2_alg».proof.Proof.Spec
import proofs.«424002_j31069793419779_2_alg».proof.Proof.PreFacts
import proofs.«424002_j31069793419779_2_alg».proof.Proof.KValue
import proofs.«424002_j31069793419779_2_alg».proof.Proof.RValue
import Idealize.ShloMosaic.Adequacy
import Idealize.ShloMosaic.Init

noncomputable section

namespace Cert.Proof

open Idealize.ShloMosaic Idealize.SL.Sem Idealize.ShloMosaic.TcCoe

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the aggregation of every node in their result arrays: the kernel's as the blocks
    its grid points wrote, the reference's as its operations' composed term; over a finite table and in-range
    index words the two are one function of the arguments. -/
theorem algebraic : Cert.algebraic_KernelIdeal_ReferenceIdeal := by
  intro m ρ m' ρ' hpre hagree
  have hK := fun c => Cert.PreFacts.of_fn _ _ _ _ _ _ _ _ _ _ _ (hpre c)
  refine ⟨fun c => Cert.KernelIdeal.KValue.result m c,
    Cert.KernelIdeal.KValue.run m ρ (fun c => (hK c).2.1) (fun c => (hK c).2.2), ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10⟩ := hagree c
  rw [Cert.ReferenceIdeal.Read.val_main_v60_eq, a0, a1, a2, a3, a4, a5, a6, a7, a8, a9, a10]
  rw [Cert.ReferenceIdeal.RefValue.ref_eq _ _ _ _ _ _ _ _ _ _ _ (hK c).2.1 (hK c).2.2]
  exact (Cert.Gnn.Gk_eq_Gr _ _ _ _ _ _ _ _ _ _ _ (hK c).1).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
